-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x400000 : Shape := ⟨2, ![2, 400000]⟩
abbrev S50000 : Shape := ⟨1, ![50000]⟩
abbrev S3x24 : Shape := ⟨2, ![3, 24]⟩
abbrev S24 : Shape := ⟨1, ![24]⟩
abbrev S24x48 : Shape := ⟨2, ![24, 48]⟩
abbrev S48 : Shape := ⟨1, ![48]⟩
abbrev S48x192 : Shape := ⟨2, ![48, 192]⟩
abbrev S192 : Shape := ⟨1, ![192]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x24 : S_.BroadcastsInDim S3x24 (![] : Fin 0 → Fin S3x24.rank)
  reducesTo_S3x24_S_d0_1 : S3x24.ReducesTo [0, 1] S_
  bcast_S_S24 : S_.BroadcastsInDim S24 (![] : Fin 0 → Fin S24.rank)
  reducesTo_S24_S_d0 : S24.ReducesTo [0] S_
  bcast_S_S24x48 : S_.BroadcastsInDim S24x48 (![] : Fin 0 → Fin S24x48.rank)
  reducesTo_S24x48_S_d0_1 : S24x48.ReducesTo [0, 1] S_
  bcast_S_S48 : S_.BroadcastsInDim S48 (![] : Fin 0 → Fin S48.rank)
  reducesTo_S48_S_d0 : S48.ReducesTo [0] S_
  bcast_S_S48x192 : S_.BroadcastsInDim S48x192 (![] : Fin 0 → Fin S48x192.rank)
  reducesTo_S48x192_S_d0_1 : S48x192.ReducesTo [0, 1] S_
  bcast_S_S192 : S_.BroadcastsInDim S192 (![] : Fin 0 → Fin S192.rank)
  reducesTo_S192_S_d0 : S192.ReducesTo [0] S_

variable [Facts]

def fn_part1 {F : FTy → Type} [FloatOps F] (main_arg6 : FVec F S48 .f32) (main_arg7 : FVec F S48x192 .f32) (main_arg8 : FVec F S192 .f32) (main_v13 : IVec S_ 1) (main_v16 : IVec S24x48 1) : IVec S_ 1 :=
  let main_c_5 : IVec S_ 1 := constantI S_ 1 1#1
  let main_v17 : IVec S_ 1 := (fun x v => Host.reduce IntOp.andi x v reducesTo_S24x48_S_d0_1 h_S_) main_v16 main_c_5
  let main_v18 : IVec S_ 1 := andi main_v13 main_v17
  let main_v19 : FVec F S48 .f32 := Host.absf main_arg6
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  let main_v24 : FVec F S48x192 .f32 := Host.absf main_arg7
  let main_cst_8 : FVec F S_ .f32 := constant S_ .f32 0x7F800000#32
  let main_v25 : FVec F S48x192 .f32 := broadcastInDim S48x192 ![] bcast_S_S48x192 main_cst_8
  let main_v26 : IVec S48x192 1 := cmpf .olt main_v24 main_v25
  let main_c_9 : IVec S_ 1 := constantI S_ 1 1#1
  let main_v27 : IVec S_ 1 := (fun x v => Host.reduce IntOp.andi x v reducesTo_S48x192_S_d0_1 h_S_) main_v26 main_c_9
  let main_v28 : IVec S_ 1 := andi main_v23 main_v27
  let main_v29 : FVec F S192 .f32 := Host.absf main_arg8
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  main_v33

def fn {F : FTy → Type} [FloatOps F] (main_arg0 : FVec F S50000x3 .f32) (main_arg1 : IVec S2x400000 32) (main_arg2 : IVec S50000 32) (main_arg3 : FVec F S3x24 .f32) (main_arg4 : FVec F S24 .f32) (main_arg5 : FVec F S24x48 .f32) (main_arg6 : FVec F S48 .f32) (main_arg7 : FVec F S48x192 .f32) (main_arg8 : FVec F S192 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x24 .f32 := Host.absf main_arg3
  let main_cst_0 : FVec F S_ .f32 := constant S_ .f32 0x7F800000#32
  let main_v5 : FVec F S3x24 .f32 := broadcastInDim S3x24 ![] bcast_S_S3x24 main_cst_0
  let main_v6 : IVec S3x24 1 := cmpf .olt main_v4 main_v5
  let main_c_1 : IVec S_ 1 := constantI S_ 1 1#1
  let main_v7 : IVec S_ 1 := (fun x v => Host.reduce IntOp.andi x v reducesTo_S3x24_S_d0_1 h_S_) main_v6 main_c_1
  let main_v8 : IVec S_ 1 := andi main_v3 main_v7
  let main_v9 : FVec F S24 .f32 := Host.absf main_arg4
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S24x48 .f32 := Host.absf main_arg5
  let main_cst_4 : FVec F S_ .f32 := constant S_ .f32 0x7F800000#32
  let main_v15 : FVec F S24x48 .f32 := broadcastInDim S24x48 ![] bcast_S_S24x48 main_cst_4
  let main_v16 : IVec S24x48 1 := cmpf .olt main_v14 main_v15
  fn_part1 (F := F) main_arg6 main_arg7 main_arg8 main_v13 main_v16
-- ==== Kernel.lean ====
abbrev S50000x3 : Shape := ⟨2, ![50000, 3]⟩
abbrev S2x400000 : Shape := ⟨2, ![2, 400000]⟩
abbrev S50000 : Shape := ⟨1, ![50000]⟩
abbrev S3x24 : Shape := ⟨2, ![3, 24]⟩
abbrev S24 : Shape := ⟨1, ![24]⟩
abbrev S24x48 : Shape := ⟨2, ![24, 48]⟩
abbrev S48 : Shape := ⟨1, ![48]⟩
abbrev S48x192 : Shape := ⟨2, ![48, 192]⟩
abbrev S192 : Shape := ⟨1, ![192]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x24 : Shape := ⟨2, ![50000, 24]⟩
abbrev S10000x3 : Shape := ⟨2, ![10000, 3]⟩
abbrev S10000x24 : Shape := ⟨2, ![10000, 24]⟩
abbrev S450000x24 : Shape := ⟨2, ![450000, 24]⟩
abbrev S1x24 : Shape := ⟨2, ![1, 24]⟩
abbrev S50000x48 : Shape := ⟨2, ![50000, 48]⟩
abbrev S10000x48 : Shape := ⟨2, ![10000, 48]⟩
abbrev S450000x48 : Shape := ⟨2, ![450000, 48]⟩
abbrev S1x48 : Shape := ⟨2, ![1, 48]⟩
abbrev S50000x192 : Shape := ⟨2, ![50000, 192]⟩
abbrev S10000x192 : Shape := ⟨2, ![10000, 192]⟩
abbrev S450000x192 : Shape := ⟨2, ![450000, 192]⟩
abbrev S1x192 : Shape := ⟨2, ![1, 192]⟩
abbrev S50000x1 : Shape := ⟨2, ![50000, 1]⟩
abbrev S64 : Shape := ⟨1, ![64]⟩
abbrev S1x64 : Shape := ⟨2, ![1, 64]⟩
abbrev S50000x64 : Shape := ⟨2, ![50000, 64]⟩
abbrev S64x192 : Shape := ⟨2, ![64, 192]⟩
abbrev S10000x64 : Shape := ⟨2, ![10000, 64]⟩
abbrev S64x1 : Shape := ⟨2, ![64, 1]⟩

abbrev nBuf : Space → Nat
  | .hbm => 167
  | .vmem => 21
  | .smem => 0
  | _ => 0

abbrev hbmTy0_0 (i : Nat) : BufTy := match i % 128 with
  | 0 => ⟨S50000x3, .f32⟩
  | 1 => ⟨S2x400000, .i32⟩
  | 2 => ⟨S50000, .i32⟩
  | 3 => ⟨S3x24, .f32⟩
  | 4 => ⟨S24, .f32⟩
  | 5 => ⟨S24x48, .f32⟩
  | 6 => ⟨S48, .f32⟩
  | 7 => ⟨S48x192, .f32⟩
  | 8 => ⟨S192, .f32⟩
  | 9 => ⟨S50000, .i32⟩
  | 10 => ⟨S1x400000, .i32⟩
  | 11 => ⟨S400000, .i32⟩
  | 12 => ⟨S450000, .i32⟩
  | 13 => ⟨S1x400000, .i32⟩
  | 14 => ⟨S400000, .i32⟩
  | 15 => ⟨S450000, .i32⟩
  | 16 => ⟨S_, .f32⟩
  | 17 => ⟨S450000, .f32⟩
  | 18 => ⟨S_, .f32⟩
  | 19 => ⟨S50000, .f32⟩
  | 20 => ⟨S450000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S50000x24, .f32⟩
  | 34 => ⟨S_, .i32⟩
  | 35 => ⟨S450000, .i32⟩
  | 36 => ⟨S450000, .i1⟩
  | 37 => ⟨S_, .i32⟩
  | 38 => ⟨S450000, .i32⟩
  | 39 => ⟨S450000, .i32⟩
  | 40 => ⟨S450000, .i32⟩
  | 41 => ⟨S450000x1, .i32⟩
  | 42 => ⟨S450000, .f32⟩
  | 43 => ⟨S_, .i32⟩
  | 44 => ⟨S450000, .i32⟩
  | 45 => ⟨S450000, .i1⟩
  | 46 => ⟨S_, .i32⟩
  | 47 => ⟨S450000, .i32⟩
  | 48 => ⟨S450000, .i32⟩
  | 49 => ⟨S450000, .i32⟩
  | 50 => ⟨S450000x1, .i32⟩
  | 51 => ⟨S450000, .f32⟩
  | 52 => ⟨S450000, .f32⟩
  | 53 => ⟨S_, .i32⟩
  | 54 => ⟨S450000, .i32⟩
  | 55 => ⟨S450000, .i1⟩
  | 56 => ⟨S_, .i32⟩
  | 57 => ⟨S450000, .i32⟩
  | 58 => ⟨S450000, .i32⟩
  | 59 => ⟨S450000, .i32⟩
  | 60 => ⟨S450000x1, .i32⟩
  | 61 => ⟨S450000x24, .f32⟩
  | 62 => ⟨S450000x1, .f32⟩
  | 63 => ⟨S450000x24, .f32⟩
  | 64 => ⟨S450000x24, .f32⟩
  | 65 => ⟨S_, .f32⟩
  | 66 => ⟨S50000x24, .f32⟩
  | 67 => ⟨S450000x1, .i32⟩
  | 68 => ⟨S50000x24, .f32⟩
  | 69 => ⟨S1x24, .f32⟩
  | 70 => ⟨S50000x24, .f32⟩
  | 71 => ⟨S50000x24, .f32⟩
  | 72 => ⟨S50000x48, .f32⟩
  | 73 => ⟨S_, .i32⟩
  | 74 => ⟨S450000, .i32⟩
  | 75 => ⟨S450000, .i1⟩
  | 76 => ⟨S_, .i32⟩
  | 77 => ⟨S450000, .i32⟩
  | 78 => ⟨S450000, .i32⟩
  | 79 => ⟨S450000, .i32⟩
  | 80 => ⟨S450000x1, .i32⟩
  | 81 => ⟨S450000, .f32⟩
  | 82 => ⟨S_, .i32⟩
  | 83 => ⟨S450000, .i32⟩
  | 84 => ⟨S450000, .i1⟩
  | 85 => ⟨S_, .i32⟩
  | 86 => ⟨S450000, .i32⟩
  | 87 => ⟨S450000, .i32⟩
  | 88 => ⟨S450000, .i32⟩
  | 89 => ⟨S450000x1, .i32⟩
  | 90 => ⟨S450000, .f32⟩
  | 91 => ⟨S450000, .f32⟩
  | 92 => ⟨S_, .i32⟩
  | 93 => ⟨S450000, .i32⟩
  | 94 => ⟨S450000, .i1⟩
  | 95 => ⟨S_, .i32⟩
  | 96 => ⟨S450000, .i32⟩
  | 97 => ⟨S450000, .i32⟩
  | 98 => ⟨S450000, .i32⟩
  | 99 => ⟨S450000x1, .i32⟩
  | 100 => ⟨S450000x48, .f32⟩
  | 101 => ⟨S450000x1, .f32⟩
  | 102 => ⟨S450000x48, .f32⟩
  | 103 => ⟨S450000x48, .f32⟩
  | 104 => ⟨S_, .f32⟩
  | 105 => ⟨S50000x48, .f32⟩
  | 106 => ⟨S450000x1, .i32⟩
  | 107 => ⟨S50000x48, .f32⟩
  | 108 => ⟨S1x48, .f32⟩
  | 109 => ⟨S50000x48, .f32⟩
  | 110 => ⟨S50000x48, .f32⟩
  | 111 => ⟨S50000x192, .f32⟩
  | 112 => ⟨S_, .i32⟩
  | 113 => ⟨S450000, .i32⟩
  | 114 => ⟨S450000, .i1⟩
  | 115 => ⟨S_, .i32⟩
  | 116 => ⟨S450000, .i32⟩
  | 117 => ⟨S450000, .i32⟩
  | 118 => ⟨S450000, .i32⟩
  | 119 => ⟨S450000x1, .i32⟩
  | 120 => ⟨S450000, .f32⟩
  | 121 => ⟨S_, .i32⟩
  | 122 => ⟨S450000, .i32⟩
  | 123 => ⟨S450000, .i1⟩
  | 124 => ⟨S_, .i32⟩
  | 125 => ⟨S450000, .i32⟩
  | 126 => ⟨S450000, .i32⟩
  | 127 => ⟨S450000, .i32⟩
  | _ => ⟨S50000x3, .f32⟩

abbrev hbmTy0_1 (i : Nat) : BufTy := match i % 128 with
  | 0 => ⟨S450000x1, .i32⟩
  | 1 => ⟨S450000, .f32⟩
  | 2 => ⟨S450000, .f32⟩
  | 3 => ⟨S_, .i32⟩
  | 4 => ⟨S450000, .i32⟩
  | 5 => ⟨S450000, .i1⟩
  | 6 => ⟨S_, .i32⟩
  | 7 => ⟨S450000, .i32⟩
  | 8 => ⟨S450000, .i32⟩
  | 9 => ⟨S450000, .i32⟩
  | 10 => ⟨S450000x1, .i32⟩
  | 11 => ⟨S450000x192, .f32⟩
  | 12 => ⟨S450000x1, .f32⟩
  | 13 => ⟨S450000x192, .f32⟩
  | 14 => ⟨S450000x192, .f32⟩
  | 15 => ⟨S_, .f32⟩
  | 16 => ⟨S50000x192, .f32⟩
  | 17 => ⟨S450000x1, .i32⟩
  | 18 => ⟨S50000x192, .f32⟩
  | 19 => ⟨S1x192, .f32⟩
  | 20 => ⟨S50000x192, .f32⟩
  | 21 => ⟨S50000x192, .f32⟩
  | 22 => ⟨S50000x1, .i32⟩
  | 23 => ⟨S64, .i32⟩
  | 24 => ⟨S1x64, .i32⟩
  | 25 => ⟨S50000x64, .i32⟩
  | 26 => ⟨S50000x64, .i32⟩
  | 27 => ⟨S50000x64, .i1⟩
  | 28 => ⟨S50000x64, .bf16⟩
  | 29 => ⟨S50000x64, .f32⟩
  | 30 => ⟨S_, .f32⟩
  | 31 => ⟨S64, .f32⟩
  | 32 => ⟨S64x192, .f32⟩
  | 33 => ⟨S_, .f32⟩
  | 34 => ⟨S64, .f32⟩
  | 35 => ⟨S64, .f32⟩
  | 36 => ⟨S64x1, .f32⟩
  | 37 => ⟨S64x192, .f32⟩
  | 38 => ⟨S64x192, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S3x24, .f32⟩
  | .local _ .vmem, ⟨3, _⟩ => ⟨S10000x24, .f32⟩
  | .local _ .vmem, ⟨4, _⟩ => ⟨S10000x24, .f32⟩
  | .local _ .vmem, ⟨5, _⟩ => ⟨S10000x24, .f32⟩
  | .local _ .vmem, ⟨6, _⟩ => ⟨S10000x24, .f32⟩
  | .local _ .vmem, ⟨7, _⟩ => ⟨S24x48, .f32⟩
  | .local _ .vmem, ⟨8, _⟩ => ⟨S10000x48, .f32⟩
  | .local _ .vmem, ⟨9, _⟩ => ⟨S10000x48, .f32⟩
  | .local _ .vmem, ⟨10, _⟩ => ⟨S10000x48, .f32⟩
  | .local _ .vmem, ⟨11, _⟩ => ⟨S10000x48, .f32⟩
  | .local _ .vmem, ⟨12, _⟩ => ⟨S48x192, .f32⟩
  | .local _ .vmem, ⟨13, _⟩ => ⟨S10000x192, .f32⟩
  | .local _ .vmem, ⟨14, _⟩ => ⟨S10000x192, .f32⟩
  | .local _ .vmem, ⟨15, _⟩ => ⟨S10000x64, .bf16⟩
  | .local _ .vmem, ⟨16, _⟩ => ⟨S10000x64, .bf16⟩
  | .local _ .vmem, ⟨17, _⟩ => ⟨S10000x192, .f32⟩
  | .local _ .vmem, ⟨18, _⟩ => ⟨S10000x192, .f32⟩
  | .local _ .vmem, ⟨19, _⟩ => ⟨S64x192, .f32⟩
  | .local _ .vmem, ⟨20, _⟩ => ⟨S64x192, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_17 : Ref sig .tc := ⟨.hbm, 112, rfl⟩
abbrev main_v82 : Ref sig .tc := ⟨.hbm, 113, rfl⟩
abbrev main_v83 : Ref sig .tc := ⟨.hbm, 114, rfl⟩
abbrev main_c_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_19 : Ref sig .tc := ⟨.hbm, 121, rfl⟩
abbrev main_v89 : Ref sig .tc := ⟨.hbm, 122, rfl⟩
abbrev main_v90 : Ref sig .tc := ⟨.hbm, 123, rfl⟩
abbrev main_c_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_21 : Ref sig .tc := ⟨.hbm, 131, rfl⟩
abbrev main_v97 : Ref sig .tc := ⟨.hbm, 132, rfl⟩
abbrev main_v98 : Ref sig .tc := ⟨.hbm, 133, rfl⟩
abbrev main_c_22 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_23 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_24 : Ref sig .tc := ⟨.hbm, 158, rfl⟩
abbrev main_v121 : Ref sig .tc := ⟨.hbm, 159, rfl⟩
abbrev main_v122 : Ref sig .tc := ⟨.hbm, 160, rfl⟩
abbrev main_cst_25 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x24 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S24x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S48x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def k3_cond2 (i : grid3.Coords) : BitVec 1 :=
  let arg0 : BitVec 32 := BitVec.ofNat 32 (i 0).val
  let c4_i32 : BitVec 32 := 4#32
  let v14 : BitVec 1 := Scalar.cmpi .eq arg0 c4_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x24_S3x24_0_0 : ∀ a, (![0, 0] : Fin 2 → Nat) a + S3x24.size a ≤ S3x24.size a
  h_S3x24 : 0 < S3x24.numel
  inb_S10000x24_S10000x24_0_0 : ∀ a, (![0, 0] : Fin 2 → Nat) a + S10000x24.size a ≤ S10000x24.size a
  h_S10000x24 : 0 < S10000x24.numel
  bcast_S450000x1_S450000x24_0_1 : S450000x1.BroadcastsInDim S450000x24 (![0, 1] : Fin 2 → Fin S450000x24.rank)
  bcast_S_S50000x24 : S_.BroadcastsInDim S50000x24 (![] : Fin 0 → Fin S50000x24.rank)
  bcast_S24_S1x24_1 : S24.BroadcastsInDim S1x24 (![1] : Fin 1 → Fin S1x24.rank)
  bcast_S1x24_S50000x24_0_1 : S1x24.BroadcastsInDim S50000x24 (![0, 1] : Fin 2 → Fin S50000x24.rank)
  shapeCasts_S10000x24_S10000x24 : S10000x24.ShapeCasts S10000x24
  inb_S24x48_S24x48_0_0 : ∀ a, (![0, 0] : Fin 2 → Nat) a + S24x48.size a ≤ S24x48.size a
  h_S24x48 : 0 < S24x48.numel
  inb_S10000x48_S10000x48_0_0 : ∀ a, (![0, 0] : Fin 2 → Nat) a + S10000x48.size a ≤ S10000x48.size a
  h_S10000x48 : 0 < S10000x48.numel
  bcast_S450000x1_S450000x48_0_1 : S450000x1.BroadcastsInDim S450000x48 (![0, 1] : Fin 2 → Fin S450000x48.rank)
  bcast_S_S50000x48 : S_.BroadcastsInDim S50000x48 (![] : Fin 0 → Fin S50000x48.rank)
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  shapeCasts_S10000x48_S10000x48 : S10000x48.ShapeCasts S10000x48
  inb_S48x192_S48x192_0_0 : ∀ a, (![0, 0] : Fin 2 → Nat) a + S48x192.size a ≤ S48x192.size a
  h_S48x192 : 0 < S48x192.numel
  inb_S10000x192_S10000x192_0_0 : ∀ a, (![0, 0] : Fin 2 → Nat) a + S10000x192.size a ≤ S10000x192.size a
  h_S10000x192 : 0 < S10000x192.numel
  bcast_S450000x1_S450000x192_0_1 : S450000x1.BroadcastsInDim S450000x192 (![0, 1] : Fin 2 → Fin S450000x192.rank)
  bcast_S_S50000x192 : S_.BroadcastsInDim S50000x192 (![] : Fin 0 → Fin S50000x192.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S10000x192_S10000x192 : S10000x192.ShapeCasts S10000x192
  bcast_S_S64 : S_.BroadcastsInDim S64 (![] : Fin 0 → Fin S64.rank)
  bcast_S64_S64x1_0 : S64.BroadcastsInDim S64x1 (![0] : Fin 1 → Fin S64x1.rank)
  bcast_S64x1_S64x192_0_1 : S64x1.BroadcastsInDim S64x192 (![0, 1] : Fin 2 → Fin S64x192.rank)
  scatter_S50000_S450000x1_S450000_n_0_0_1_wf : ScatterDims.WF S50000 S450000x1 S450000 [] [0] [0] 1
  dot_S10000x3_S3x24_S10000x24_1_0_0_1_n_n_wf : DotDims.WF S10000x3 S3x24 S10000x24 [1] [0] [0] [1] [] []
  gather_S50000_S450000x1_S450000_n_0_n_n_0_1_1_wf : GatherDims.WF S50000 S450000x1 S450000 [] [0] [] [0] [] 1 ![1]
  gather_S50000x24_S450000x1_S450000x24_1_0_n_n_0_1_124_wf : GatherDims.WF S50000x24 S450000x1 S450000x24 [1] [0] [] [0] [] 1 ![1, 24]
  scatter_S50000x24_S450000x1_S450000x24_1_0_0_1_wf : ScatterDims.WF S50000x24 S450000x1 S450000x24 [1] [0] [0] 1
  dot_S10000x24_S24x48_S10000x48_1_0_0_1_n_n_wf : DotDims.WF S10000x24 S24x48 S10000x48 [1] [0] [0] [1] [] []
  gather_S50000x48_S450000x1_S450000x48_1_0_n_n_0_1_148_wf : GatherDims.WF S50000x48 S450000x1 S450000x48 [1] [0] [] [0] [] 1 ![1, 48]
  scatter_S50000x48_S450000x1_S450000x48_1_0_0_1_wf : ScatterDims.WF S50000x48 S450000x1 S450000x48 [1] [0] [0] 1
  dot_S10000x48_S48x192_S10000x192_1_0_0_1_n_n_wf : DotDims.WF S10000x48 S48x192 S10000x192 [1] [0] [0] [1] [] []
  gather_S50000x192_S450000x1_S450000x192_1_0_n_n_0_1_1192_wf : GatherDims.WF S50000x192 S450000x1 S450000x192 [1] [0] [] [0] [] 1 ![1, 192]
  scatter_S50000x192_S450000x1_S450000x192_1_0_0_1_wf : ScatterDims.WF S50000x192 S450000x1 S450000x192 [1] [0] [0] 1
  dot_S10000x64_S10000x192_S64x192_0_0_1_1_n_n_wf : DotDims.WF S10000x64 S10000x192 S64x192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S50000x3.size a
  hwx0_0 : ∀ i : grid0.Coords, EltTy.bits .f32 = 32 ∨ (Rect.block (s := S50000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x24.size a ≤ S3x24.size a
  hwx0_1 : ∀ i : grid0.Coords, EltTy.bits .f32 = 32 ∨ (Rect.block (s := S3x24) S3x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x24.size a ≤ S50000x24.size a
  hwx0_2 : ∀ i : grid0.Coords, EltTy.bits .f32 = 32 ∨ (Rect.block (s := S50000x24) S10000x24.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x24.size a ≤ S50000x24.size a
  hwx1_0 : ∀ i : grid1.Coords, EltTy.bits .f32 = 32 ∨ (Rect.block (s := S50000x24) S10000x24.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S24x48.size a ≤ S24x48.size a
  hwx1_1 : ∀ i : grid1.Coords, EltTy.bits .f32 = 32 ∨ (Rect.block (s := S24x48) S24x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x48.size a ≤ S50000x48.size a
  hwx1_2 : ∀ i : grid1.Coords, EltTy.bits .f32 = 32 ∨ (Rect.block (s := S50000x48) S10000x48.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x48.size a ≤ S50000x48.size a
  hwx2_0 : ∀ i : grid2.Coords, EltTy.bits .f32 = 32 ∨ (Rect.block (s := S50000x48) S10000x48.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S48x192.size a ≤ S48x192.size a
  hwx2_1 : ∀ i : grid2.Coords, EltTy.bits .f32 = 32 ∨ (Rect.block (s := S48x192) S48x192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x192.size a ≤ S50000x192.size a
  hwx2_2 : ∀ i : grid2.Coords, EltTy.bits .f32 = 32 ∨ (Rect.block (s := S50000x192) S10000x192.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .bf16 = 32 ∨ (Rect.block (s := S50000x64) S10000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x192.size a ≤ S50000x192.size a
  hwx3_1 : ∀ i : grid3.Coords, EltTy.bits .f32 = 32 ∨ (Rect.block (s := S50000x192) S10000x192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x192.size a ≤ S64x192.size a
  hwx3_2 : ∀ i : grid3.Coords, EltTy.bits .f32 = 32 ∨ (Rect.block (s := S64x192) S64x192.size (cc3_transform_2 i) (hinb3_2 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S10000x3_S3x24_S10000x24_1_0_0_1_n_n : DotDims S10000x3 S3x24 S10000x24 where
  lhsContracting := [1]
  rhsContracting := [0]
  lhsNonContracting := [0]
  rhsNonContracting := [1]
  lhsBatch := []
  rhsBatch := []
  wf := dot_S10000x3_S3x24_S10000x24_1_0_0_1_n_n_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x24_S450000x1_S450000x24_1_0_n_n_0_1_124 : GatherDims S50000x24 S450000x1 S450000x24 where
  offsetDims := [1]
  collapsedSliceDims := [0]
  operandBatchingDims := []
  startIndicesBatchingDims := []
  startIndexMap := [0]
  indexVectorDim := 1
  sliceSizes := ![1, 24]
  wf := gather_S50000x24_S450000x1_S450000x24_1_0_n_n_0_1_124_wf
def scatter_S50000x24_S450000x1_S450000x24_1_0_0_1 : ScatterDims S50000x24 S450000x1 S450000x24 where
  updateWindowDims := [1]
  insertedWindowDims := [0]
  scatterDimsToOperandDims := [0]
  indexVectorDim := 1
  wf := scatter_S50000x24_S450000x1_S450000x24_1_0_0_1_wf
def dot_S10000x24_S24x48_S10000x48_1_0_0_1_n_n : DotDims S10000x24 S24x48 S10000x48 where
  lhsContracting := [1]
  rhsContracting := [0]
  lhsNonContracting := [0]
  rhsNonContracting := [1]
  lhsBatch := []
  rhsBatch := []
  wf := dot_S10000x24_S24x48_S10000x48_1_0_0_1_n_n_wf
def gather_S50000x48_S450000x1_S450000x48_1_0_n_n_0_1_148 : GatherDims S50000x48 S450000x1 S450000x48 where
  offsetDims := [1]
  collapsedSliceDims := [0]
  operandBatchingDims := []
  startIndicesBatchingDims := []
  startIndexMap := [0]
  indexVectorDim := 1
  sliceSizes := ![1, 48]
  wf := gather_S50000x48_S450000x1_S450000x48_1_0_n_n_0_1_148_wf
def scatter_S50000x48_S450000x1_S450000x48_1_0_0_1 : ScatterDims S50000x48 S450000x1 S450000x48 where
  updateWindowDims := [1]
  insertedWindowDims := [0]
  scatterDimsToOperandDims := [0]
  indexVectorDim := 1
  wf := scatter_S50000x48_S450000x1_S450000x48_1_0_0_1_wf
def dot_S10000x48_S48x192_S10000x192_1_0_0_1_n_n : DotDims S10000x48 S48x192 S10000x192 where
  lhsContracting := [1]
  rhsContracting := [0]
  lhsNonContracting := [0]
  rhsNonContracting := [1]
  lhsBatch := []
  rhsBatch := []
  wf := dot_S10000x48_S48x192_S10000x192_1_0_0_1_n_n_wf
def gather_S50000x192_S450000x1_S450000x192_1_0_n_n_0_1_1192 : GatherDims S50000x192 S450000x1 S450000x192 where
  offsetDims := [1]
  collapsedSliceDims := [0]
  operandBatchingDims := []
  startIndicesBatchingDims := []
  startIndexMap := [0]
  indexVectorDim := 1
  sliceSizes := ![1, 192]
  wf := gather_S50000x192_S450000x1_S450000x192_1_0_n_n_0_1_1192_wf
def scatter_S50000x192_S450000x1_S450000x192_1_0_0_1 : ScatterDims S50000x192 S450000x1 S450000x192 where
  updateWindowDims := [1]
  insertedWindowDims := [0]
  scatterDimsToOperandDims := [0]
  indexVectorDim := 1
  wf := scatter_S50000x192_S450000x1_S450000x192_1_0_0_1_wf
def dot_S10000x64_S10000x192_S64x192_0_0_1_1_n_n : DotDims S10000x64 S10000x192 S64x192 where
  lhsContracting := [0]
  rhsContracting := [0]
  lhsNonContracting := [1]
  rhsNonContracting := [1]
  lhsBatch := []
  rhsBatch := []
  wf := dot_S10000x64_S10000x192_S64x192_0_0_1_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x24.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x24.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S24x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x48.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v80) S10000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S48x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S10000x192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v119) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v112) S10000x192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v122) S64x192.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x3 : Shape := ⟨2, ![50000, 3]⟩
abbrev S2x400000 : Shape := ⟨2, ![2, 400000]⟩
abbrev S50000 : Shape := ⟨1, ![50000]⟩
abbrev S3x24 : Shape := ⟨2, ![3, 24]⟩
abbrev S24 : Shape := ⟨1, ![24]⟩
abbrev S24x48 : Shape := ⟨2, ![24, 48]⟩
abbrev S48 : Shape := ⟨1, ![48]⟩
abbrev S48x192 : Shape := ⟨2, ![48, 192]⟩
abbrev S192 : Shape := ⟨1, ![192]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x24 : Shape := ⟨2, ![50000, 24]⟩
abbrev S450000x24 : Shape := ⟨2, ![450000, 24]⟩
abbrev S1x24 : Shape := ⟨2, ![1, 24]⟩
abbrev S50000x48 : Shape := ⟨2, ![50000, 48]⟩
abbrev S450000x48 : Shape := ⟨2, ![450000, 48]⟩
abbrev S1x48 : Shape := ⟨2, ![1, 48]⟩
abbrev S50000x192 : Shape := ⟨2, ![50000, 192]⟩
abbrev S450000x192 : Shape := ⟨2, ![450000, 192]⟩
abbrev S1x192 : Shape := ⟨2, ![1, 192]⟩
abbrev S64x192 : Shape := ⟨2, ![64, 192]⟩
abbrev S50000x1 : Shape := ⟨2, ![50000, 1]⟩
abbrev S64 : Shape := ⟨1, ![64]⟩
abbrev S64x1 : Shape := ⟨2, ![64, 1]⟩

abbrev nBuf : Space → Nat
  | .hbm => 166
  | .vmem => 0
  | .smem => 0
  | _ => 0

abbrev hbmTy0_0 (i : Nat) : BufTy := match i % 128 with
  | 0 => ⟨S50000x3, .f32⟩
  | 1 => ⟨S2x400000, .i32⟩
  | 2 => ⟨S50000, .i32⟩
  | 3 => ⟨S3x24, .f32⟩
  | 4 => ⟨S24, .f32⟩
  | 5 => ⟨S24x48, .f32⟩
  | 6 => ⟨S48, .f32⟩
  | 7 => ⟨S48x192, .f32⟩
  | 8 => ⟨S192, .f32⟩
  | 9 => ⟨S50000, .i32⟩
  | 10 => ⟨S1x400000, .i32⟩
  | 11 => ⟨S400000, .i32⟩
  | 12 => ⟨S450000, .i32⟩
  | 13 => ⟨S1x400000, .i32⟩
  | 14 => ⟨S400000, .i32⟩
  | 15 => ⟨S450000, .i32⟩
  | 16 => ⟨S_, .f32⟩
  | 17 => ⟨S450000, .f32⟩
  | 18 => ⟨S_, .f32⟩
  | 19 => ⟨S50000, .f32⟩
  | 20 => ⟨S450000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S50000x24, .f32⟩
  | 34 => ⟨S_, .i32⟩
  | 35 => ⟨S450000, .i32⟩
  | 36 => ⟨S450000, .i1⟩
  | 37 => ⟨S_, .i32⟩
  | 38 => ⟨S450000, .i32⟩
  | 39 => ⟨S450000, .i32⟩
  | 40 => ⟨S450000, .i32⟩
  | 41 => ⟨S450000x1, .i32⟩
  | 42 => ⟨S450000, .f32⟩
  | 43 => ⟨S_, .i32⟩
  | 44 => ⟨S450000, .i32⟩
  | 45 => ⟨S450000, .i1⟩
  | 46 => ⟨S_, .i32⟩
  | 47 => ⟨S450000, .i32⟩
  | 48 => ⟨S450000, .i32⟩
  | 49 => ⟨S450000, .i32⟩
  | 50 => ⟨S450000x1, .i32⟩
  | 51 => ⟨S450000, .f32⟩
  | 52 => ⟨S450000, .f32⟩
  | 53 => ⟨S_, .i32⟩
  | 54 => ⟨S450000, .i32⟩
  | 55 => ⟨S450000, .i1⟩
  | 56 => ⟨S_, .i32⟩
  | 57 => ⟨S450000, .i32⟩
  | 58 => ⟨S450000, .i32⟩
  | 59 => ⟨S450000, .i32⟩
  | 60 => ⟨S450000x1, .i32⟩
  | 61 => ⟨S450000x24, .f32⟩
  | 62 => ⟨S450000x1, .f32⟩
  | 63 => ⟨S450000x24, .f32⟩
  | 64 => ⟨S450000x24, .f32⟩
  | 65 => ⟨S_, .f32⟩
  | 66 => ⟨S50000x24, .f32⟩
  | 67 => ⟨S450000x1, .i32⟩
  | 68 => ⟨S50000x24, .f32⟩
  | 69 => ⟨S1x24, .f32⟩
  | 70 => ⟨S50000x24, .f32⟩
  | 71 => ⟨S50000x24, .f32⟩
  | 72 => ⟨S50000x48, .f32⟩
  | 73 => ⟨S_, .i32⟩
  | 74 => ⟨S450000, .i32⟩
  | 75 => ⟨S450000, .i1⟩
  | 76 => ⟨S_, .i32⟩
  | 77 => ⟨S450000, .i32⟩
  | 78 => ⟨S450000, .i32⟩
  | 79 => ⟨S450000, .i32⟩
  | 80 => ⟨S450000x1, .i32⟩
  | 81 => ⟨S450000, .f32⟩
  | 82 => ⟨S_, .i32⟩
  | 83 => ⟨S450000, .i32⟩
  | 84 => ⟨S450000, .i1⟩
  | 85 => ⟨S_, .i32⟩
  | 86 => ⟨S450000, .i32⟩
  | 87 => ⟨S450000, .i32⟩
  | 88 => ⟨S450000, .i32⟩
  | 89 => ⟨S450000x1, .i32⟩
  | 90 => ⟨S450000, .f32⟩
  | 91 => ⟨S450000, .f32⟩
  | 92 => ⟨S_, .i32⟩
  | 93 => ⟨S450000, .i32⟩
  | 94 => ⟨S450000, .i1⟩
  | 95 => ⟨S_, .i32⟩
  | 96 => ⟨S450000, .i32⟩
  | 97 => ⟨S450000, .i32⟩
  | 98 => ⟨S450000, .i32⟩
  | 99 => ⟨S450000x1, .i32⟩
  | 100 => ⟨S450000x48, .f32⟩
  | 101 => ⟨S450000x1, .f32⟩
  | 102 => ⟨S450000x48, .f32⟩
  | 103 => ⟨S450000x48, .f32⟩
  | 104 => ⟨S_, .f32⟩
  | 105 => ⟨S50000x48, .f32⟩
  | 106 => ⟨S450000x1, .i32⟩
  | 107 => ⟨S50000x48, .f32⟩
  | 108 => ⟨S1x48, .f32⟩
  | 109 => ⟨S50000x48, .f32⟩
  | 110 => ⟨S50000x48, .f32⟩
  | 111 => ⟨S50000x192, .f32⟩
  | 112 => ⟨S_, .i32⟩
  | 113 => ⟨S450000, .i32⟩
  | 114 => ⟨S450000, .i1⟩
  | 115 => ⟨S_, .i32⟩
  | 116 => ⟨S450000, .i32⟩
  | 117 => ⟨S450000, .i32⟩
  | 118 => ⟨S450000, .i32⟩
  | 119 => ⟨S450000x1, .i32⟩
  | 120 => ⟨S450000, .f32⟩
  | 121 => ⟨S_, .i32⟩
  | 122 => ⟨S450000, .i32⟩
  | 123 => ⟨S450000, .i1⟩
  | 124 => ⟨S_, .i32⟩
  | 125 => ⟨S450000, .i32⟩
  | 126 => ⟨S450000, .i32⟩
  | 127 => ⟨S450000, .i32⟩
  | _ => ⟨S50000x3, .f32⟩

abbrev hbmTy0_1 (i : Nat) : BufTy := match i % 128 with
  | 0 => ⟨S450000x1, .i32⟩
  | 1 => ⟨S450000, .f32⟩
  | 2 => ⟨S450000, .f32⟩
  | 3 => ⟨S_, .i32⟩
  | 4 => ⟨S450000, .i32⟩
  | 5 => ⟨S450000, .i1⟩
  | 6 => ⟨S_, .i32⟩
  | 7 => ⟨S450000, .i32⟩
  | 8 => ⟨S450000, .i32⟩
  | 9 => ⟨S450000, .i32⟩
  | 10 => ⟨S450000x1, .i32⟩
  | 11 => ⟨S450000x192, .f32⟩
  | 12 => ⟨S450000x1, .f32⟩
  | 13 => ⟨S450000x192, .f32⟩
  | 14 => ⟨S450000x192, .f32⟩
  | 15 => ⟨S_, .f32⟩
  | 16 => ⟨S50000x192, .f32⟩
  | 17 => ⟨S450000x1, .i32⟩
  | 18 => ⟨S50000x192, .f32⟩
  | 19 => ⟨S1x192, .f32⟩
  | 20 => ⟨S50000x192, .f32⟩
  | 21 => ⟨S50000x192, .f32⟩
  | 22 => ⟨S_, .f32⟩
  | 23 => ⟨S64x192, .f32⟩
  | 24 => ⟨S50000x1, .i32⟩
  | 25 => ⟨S64x192, .f32⟩
  | 26 => ⟨S_, .f32⟩
  | 27 => ⟨S50000, .f32⟩
  | 28 => ⟨S_, .f32⟩
  | 29 => ⟨S64, .f32⟩
  | 30 => ⟨S50000x1, .i32⟩
  | 31 => ⟨S64, .f32⟩
  | 32 => ⟨S_, .f32⟩
  | 33 => ⟨S64, .f32⟩
  | 34 => ⟨S64, .f32⟩
  | 35 => ⟨S64x1, .f32⟩
  | 36 => ⟨S64x192, .f32⟩
  | 37 => ⟨S64x192, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_17 : Ref sig .tc := ⟨.hbm, 112, rfl⟩
abbrev main_v82 : Ref sig .tc := ⟨.hbm, 113, rfl⟩
abbrev main_v83 : Ref sig .tc := ⟨.hbm, 114, rfl⟩
abbrev main_c_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_19 : Ref sig .tc := ⟨.hbm, 121, rfl⟩
abbrev main_v89 : Ref sig .tc := ⟨.hbm, 122, rfl⟩
abbrev main_v90 : Ref sig .tc := ⟨.hbm, 123, rfl⟩
abbrev main_c_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_21 : Ref sig .tc := ⟨.hbm, 131, rfl⟩
abbrev main_v97 : Ref sig .tc := ⟨.hbm, 132, rfl⟩
abbrev main_v98 : Ref sig .tc := ⟨.hbm, 133, rfl⟩
abbrev main_c_22 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_23 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_24 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_25 : Ref sig .tc := ⟨.hbm, 154, rfl⟩
abbrev main_v116 : Ref sig .tc := ⟨.hbm, 155, rfl⟩
abbrev main_cst_26 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_27 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x24_0_1 : S450000x1.BroadcastsInDim S450000x24 (![0, 1] : Fin 2 → Fin S450000x24.rank)
  bcast_S_S50000x24 : S_.BroadcastsInDim S50000x24 (![] : Fin 0 → Fin S50000x24.rank)
  bcast_S24_S1x24_1 : S24.BroadcastsInDim S1x24 (![1] : Fin 1 → Fin S1x24.rank)
  bcast_S1x24_S50000x24_0_1 : S1x24.BroadcastsInDim S50000x24 (![0, 1] : Fin 2 → Fin S50000x24.rank)
  bcast_S450000x1_S450000x48_0_1 : S450000x1.BroadcastsInDim S450000x48 (![0, 1] : Fin 2 → Fin S450000x48.rank)
  bcast_S_S50000x48 : S_.BroadcastsInDim S50000x48 (![] : Fin 0 → Fin S50000x48.rank)
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  bcast_S450000x1_S450000x192_0_1 : S450000x1.BroadcastsInDim S450000x192 (![0, 1] : Fin 2 → Fin S450000x192.rank)
  bcast_S_S50000x192 : S_.BroadcastsInDim S50000x192 (![] : Fin 0 → Fin S50000x192.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S_S64x192 : S_.BroadcastsInDim S64x192 (![] : Fin 0 → Fin S64x192.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x192_0_1 : S64x1.BroadcastsInDim S64x192 (![0, 1] : Fin 2 → Fin S64x192.rank)
  scatter_S50000_S450000x1_S450000_n_0_0_1_wf : ScatterDims.WF S50000 S450000x1 S450000 [] [0] [0] 1
  dot_S50000x3_S3x24_S50000x24_1_0_0_1_n_n_wf : DotDims.WF S50000x3 S3x24 S50000x24 [1] [0] [0] [1] [] []
  gather_S50000_S450000x1_S450000_n_0_n_n_0_1_1_wf : GatherDims.WF S50000 S450000x1 S450000 [] [0] [] [0] [] 1 ![1]
  gather_S50000x24_S450000x1_S450000x24_1_0_n_n_0_1_124_wf : GatherDims.WF S50000x24 S450000x1 S450000x24 [1] [0] [] [0] [] 1 ![1, 24]
  scatter_S50000x24_S450000x1_S450000x24_1_0_0_1_wf : ScatterDims.WF S50000x24 S450000x1 S450000x24 [1] [0] [0] 1
  dot_S50000x24_S24x48_S50000x48_1_0_0_1_n_n_wf : DotDims.WF S50000x24 S24x48 S50000x48 [1] [0] [0] [1] [] []
  gather_S50000x48_S450000x1_S450000x48_1_0_n_n_0_1_148_wf : GatherDims.WF S50000x48 S450000x1 S450000x48 [1] [0] [] [0] [] 1 ![1, 48]
  scatter_S50000x48_S450000x1_S450000x48_1_0_0_1_wf : ScatterDims.WF S50000x48 S450000x1 S450000x48 [1] [0] [0] 1
  dot_S50000x48_S48x192_S50000x192_1_0_0_1_n_n_wf : DotDims.WF S50000x48 S48x192 S50000x192 [1] [0] [0] [1] [] []
  gather_S50000x192_S450000x1_S450000x192_1_0_n_n_0_1_1192_wf : GatherDims.WF S50000x192 S450000x1 S450000x192 [1] [0] [] [0] [] 1 ![1, 192]
  scatter_S50000x192_S450000x1_S450000x192_1_0_0_1_wf : ScatterDims.WF S50000x192 S450000x1 S450000x192 [1] [0] [0] 1
  scatter_S64x192_S50000x1_S50000x192_1_0_0_1_wf : ScatterDims.WF S64x192 S50000x1 S50000x192 [1] [0] [0] 1
  scatter_S64_S50000x1_S50000_n_0_0_1_wf : ScatterDims.WF S64 S50000x1 S50000 [] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S50000x3_S3x24_S50000x24_1_0_0_1_n_n : DotDims S50000x3 S3x24 S50000x24 where
  lhsContracting := [1]
  rhsContracting := [0]
  lhsNonContracting := [0]
  rhsNonContracting := [1]
  lhsBatch := []
  rhsBatch := []
  wf := dot_S50000x3_S3x24_S50000x24_1_0_0_1_n_n_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x24_S450000x1_S450000x24_1_0_n_n_0_1_124 : GatherDims S50000x24 S450000x1 S450000x24 where
  offsetDims := [1]
  collapsedSliceDims := [0]
  operandBatchingDims := []
  startIndicesBatchingDims := []
  startIndexMap := [0]
  indexVectorDim := 1
  sliceSizes := ![1, 24]
  wf := gather_S50000x24_S450000x1_S450000x24_1_0_n_n_0_1_124_wf
def scatter_S50000x24_S450000x1_S450000x24_1_0_0_1 : ScatterDims S50000x24 S450000x1 S450000x24 where
  updateWindowDims := [1]
  insertedWindowDims := [0]
  scatterDimsToOperandDims := [0]
  indexVectorDim := 1
  wf := scatter_S50000x24_S450000x1_S450000x24_1_0_0_1_wf
def dot_S50000x24_S24x48_S50000x48_1_0_0_1_n_n : DotDims S50000x24 S24x48 S50000x48 where
  lhsContracting := [1]
  rhsContracting := [0]
  lhsNonContracting := [0]
  rhsNonContracting := [1]
  lhsBatch := []
  rhsBatch := []
  wf := dot_S50000x24_S24x48_S50000x48_1_0_0_1_n_n_wf
def gather_S50000x48_S450000x1_S450000x48_1_0_n_n_0_1_148 : GatherDims S50000x48 S450000x1 S450000x48 where
  offsetDims := [1]
  collapsedSliceDims := [0]
  operandBatchingDims := []
  startIndicesBatchingDims := []
  startIndexMap := [0]
  indexVectorDim := 1
  sliceSizes := ![1, 48]
  wf := gather_S50000x48_S450000x1_S450000x48_1_0_n_n_0_1_148_wf
def scatter_S50000x48_S450000x1_S450000x48_1_0_0_1 : ScatterDims S50000x48 S450000x1 S450000x48 where
  updateWindowDims := [1]
  insertedWindowDims := [0]
  scatterDimsToOperandDims := [0]
  indexVectorDim := 1
  wf := scatter_S50000x48_S450000x1_S450000x48_1_0_0_1_wf
def dot_S50000x48_S48x192_S50000x192_1_0_0_1_n_n : DotDims S50000x48 S48x192 S50000x192 where
  lhsContracting := [1]
  rhsContracting := [0]
  lhsNonContracting := [0]
  rhsNonContracting := [1]
  lhsBatch := []
  rhsBatch := []
  wf := dot_S50000x48_S48x192_S50000x192_1_0_0_1_n_n_wf
def gather_S50000x192_S450000x1_S450000x192_1_0_n_n_0_1_1192 : GatherDims S50000x192 S450000x1 S450000x192 where
  offsetDims := [1]
  collapsedSliceDims := [0]
  operandBatchingDims := []
  startIndicesBatchingDims := []
  startIndexMap := [0]
  indexVectorDim := 1
  sliceSizes := ![1, 192]
  wf := gather_S50000x192_S450000x1_S450000x192_1_0_n_n_0_1_1192_wf
def scatter_S50000x192_S450000x1_S450000x192_1_0_0_1 : ScatterDims S50000x192 S450000x1 S450000x192 where
  updateWindowDims := [1]
  insertedWindowDims := [0]
  scatterDimsToOperandDims := [0]
  indexVectorDim := 1
  wf := scatter_S50000x192_S450000x1_S450000x192_1_0_0_1_wf
def scatter_S64x192_S50000x1_S50000x192_1_0_0_1 : ScatterDims S64x192 S50000x1 S50000x192 where
  updateWindowDims := [1]
  insertedWindowDims := [0]
  scatterDimsToOperandDims := [0]
  indexVectorDim := 1
  wf := scatter_S64x192_S50000x1_S50000x192_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.K.Mm0.lean ====
import proofs.«418734_j62998580298149_1_alg».proof.Proof.Gen.Kernel.Launch
import proofs.«418734_j62998580298149_1_alg».proof.Proof.Gen.Kernel.Skeleton
import proofs.«418734_j62998580298149_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A projection kernel (a block of 10000 rows of the layer's input times the layer's whole weight matrix):
    what each grid point leaves in its three staging buffers, and that the kernel body does so. -/

set_option maxRecDepth 16384

noncomputable section

namespace Cert.Kernel.Mm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's buffer: the product of the row block and the weights. -/
def out2 (x0 : Vec F S10000x3 .f32) (x1 : Vec F S3x24 .f32) : Vec F S10000x24 .f32 :=
  k0_pay1 x0 x1

/-- The region's proof data: inputs keep their blocks, the output holds the product. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

/-! ## The inputs are read-only

The body never stores to the row block or to the weights, so whatever the pipeline did at a point — fetched the
window, or left it because its block index stood still (the weights after the first point) — the window's current
staging buffer holds the block of that point. -/

/-- The row block's current buffer holds the rows of the point. -/
theorem rows_before (c : Dev nD) (t : Fin cfg0.N) (d) : (dat V c).before 0 t d = iblk V c 0 t :=
  ((dat V c).before_in_eq_fetched 0 rfl (fun _ => rfl) (fun _ _ _ => rfl)
    (fun s => by rw [after_0]; unfold Dat.blockOf iblk; rw [A_eq]; try rfl) t d).trans
    (by unfold Dat.fetched Dat.blockOf iblk; rw [A_eq]; try rfl)

/-- The weights' current buffer holds the weight matrix, at the first point (fetched) and at the later ones (kept). -/
theorem weights_before (c : Dev nD) (t : Fin cfg0.N) (d) : (dat V c).before 1 t d = iblk V c 1 t :=
  ((dat V c).before_in_eq_fetched 1 rfl (fun _ => rfl) (fun _ _ _ => rfl)
    (fun s => by rw [after_1]; unfold Dat.blockOf iblk; rw [A_eq]; try rfl) t d).trans
    (by unfold Dat.fetched Dat.blockOf iblk; rw [A_eq]; try rfl)

/-! ## One run of the body

Three whole-buffer loads (rows, weights, and the output buffer at whatever it holds), then one store of the product over
the whole output buffer: the inputs are left as read, and the output buffer reads as the product, the store's
rectangle being the whole shape at offset zero. -/

/-- The store's offsets are all zero. -/
theorem origin2 : (![0, 0] : Fin 2 → Nat) = fun _ => 0 := by
  funext a; fin_cases a <;> rfl

/-- A store through the whole-shape rectangle reaches every index of the output buffer, whatever it stores. -/
theorem whole_store_covers (w : Vec F S10000x24 .f32) (y : S10000x24.Idx) :
    ∃ pc ∈ ([⟨Rect.unit (s := S10000x24) ![0, 0] S10000x24.size inb_S10000x24_S10000x24_0_0, w⟩] :
      List (View.Piece (Elt F) S10000x24 .f32)), y ∈ pc.1.set :=
  ⟨_, List.mem_singleton_self _, View.mem_set_unit_zero (S := S10000x24) origin2 inb_S10000x24_S10000x24_0_0 y⟩

set_option maxHeartbeats 1000000 in
/-- The body on whole buffers: rows at `x0`, weights at `x1`, output at anything, runs to the continuation with the
    inputs as they were and the output at the product `out2 x0 x1`. -/
theorem product_stored (c : Dev nD) (E : Set ℕ) (i : grid0.Coords)
    (rows : Memref sig .tc .vmem S10000x3 .f32) (hrows : rows.IsWhole)
    (wts : Memref sig .tc .vmem S3x24 .f32) (hwts : wts.IsWhole)
    (dst : Memref sig .tc .vmem S10000x24 .f32) (hdst : dst.IsWhole)
    (x0 : Vec F S10000x3 .f32) (x1 : Vec F S3x24 .f32) (K : PUnit → sProp 𝕄) :
    iprop(owns (c : Thread nD τ) rows fullShare x0 ∗ owns (c : Thread nD τ) wts fullShare x1
        ∗ (∃ d, owns (c : Thread nD τ) dst fullShare d)
        ∗ (iprop(owns (c : Thread nD τ) rows fullShare x0 ∗ owns (c : Thread nD τ) wts fullShare x1
            ∗ owns (c : Thread nD τ) dst fullShare (out2 x0 x1)) -∗ K ⟨⟩))
      ⊢ wp frame (wpE (defs₀ (F := F)) Variants.none c none) E (cc0__matmul_kernel i rows hrows wts hwts dst hdst) K := by
  simp only [cc0__matmul_kernel_eq_skeleton]; unfold cc0__matmul_kernel_skel
  unfold owns
  iintro ⟨⟨%fr, %hfr, Hr⟩, ⟨%fw, %hfw, Hw⟩, ⟨%d, %fd, -, Hd⟩, Hk⟩
  subst hfr; subst hfw
  sl_exec
  sl_step
  iapply Hk
  isplitl [Hr]
  · iexists fr; isplitr; · ipureintro; rfl
    iexact Hr
  isplitl [Hw]
  · iexists fw; isplitr; · ipureintro; rfl
    iexact Hw
  iexists _; isplitr
  swap; · iexact Hd
  ipureintro
  rw [View.read_writes_eq_canon _ _ _ (whole_store_covers _), View.canon_unit_zero origin2]
  simp only [View.readAt_eq_ld, View.ld_unit_zero (S := S10000x3) origin2, View.ld_unit_zero (S := S3x24) origin2]
  rfl

/-! ## The obligation at a grid point -/

/-- What the pipeline hands the body at point `t`: the invariant, what the core owes, and each window's current buffer. -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What it takes back from the body. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- At any point the two input buffers hold their blocks, so the run above applies with the rows and the weights of
    that point; the invariant and what the core owes are not touched. -/
theorem body_at (c : Dev nD) (t : Fin cfg0.N) :
    handed V c t ⊢ wp frame (wpE (defs₀ (F := F)) Variants.none c none) Set.univ (bodyAt0 t) (fun _ => returned V c t) := by
  unfold handed returned bodyAt0
  simp only [rows_before, weights_before]
  rw [show (dat V c).Φ t.succ = (dat V c).Φ t.castSucc from rfl,
    show (dat V c).owesAt () t.succ = (dat V c).owesAt () t.castSucc from rfl,
    after_0, after_1, after_2]
  iintro ⟨HΦ, Ho, ⟨%d0, Hrows⟩, ⟨%d1, Hwts⟩, ⟨%d2, Hdst⟩⟩
  iapply (product_stored c Set.univ _ _ _ _ _ _ _ (iblk V c 0 t) (iblk V c 1 t) _)
  isplitl [Hrows]; · iexact Hrows
  isplitl [Hwts]; · iexact Hwts
  isplitl [Hdst]; · iexists _; iexact Hdst
  iintro ⟨Hrows, Hwts, Hdst⟩
  isplitl [HΦ]; · iexact HΦ
  isplitl [Ho]; · iexact Ho
  isplitl [Hrows]; · iexact Hrows
  isplitl [Hwts]; · iexact Hwts
  iexact Hdst

/-- The kernel body meets the pipeline's obligation at every grid point. -/
theorem body_obligation (c : Dev nD) : BodyObligation (dat (F := F) V c) (defs₀ (F := F)) Variants.none () Set.univ := by
  intro t
  rw [bigSep_W0, bigSep_W0]
  exact body_at V c t

end Cert.Kernel.Mm0

end
-- ==== Proof.K.Mm1.lean ====
import proofs.«418734_j62998580298149_1_alg».proof.Proof.Gen.Kernel.Launch
import proofs.«418734_j62998580298149_1_alg».proof.Proof.Gen.Kernel.Skeleton
import proofs.«418734_j62998580298149_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A projection kernel (a block of 10000 rows of the layer's input times the layer's whole weight matrix):
    what each grid point leaves in its three staging buffers, and that the kernel body does so. -/

set_option maxRecDepth 16384

noncomputable section

namespace Cert.Kernel.Mm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's buffer: the product of the row block and the weights. -/
def out2 (x0 : Vec F S10000x24 .f32) (x1 : Vec F S24x48 .f32) : Vec F S10000x48 .f32 :=
  k1_pay1 x0 x1

/-- The region's proof data: inputs keep their blocks, the output holds the product. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out2 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out2 (iblk V c 0 t) (iblk V c 1 t) := by dsimp only [dat]

/-! ## The inputs are read-only

The body never stores to the row block or to the weights, so whatever the pipeline did at a point — fetched the
window, or left it because its block index stood still (the weights after the first point) — the window's current
staging buffer holds the block of that point. -/

/-- The row block's current buffer holds the rows of the point. -/
theorem rows_before (c : Dev nD) (t : Fin cfg1.N) (d) : (dat V c).before 0 t d = iblk V c 0 t :=
  ((dat V c).before_in_eq_fetched 0 rfl (fun _ => rfl) (fun _ _ _ => rfl)
    (fun s => by rw [after_0]; unfold Dat.blockOf iblk; rw [A_eq]; try rfl) t d).trans
    (by unfold Dat.fetched Dat.blockOf iblk; rw [A_eq]; try rfl)

/-- The weights' current buffer holds the weight matrix, at the first point (fetched) and at the later ones (kept). -/
theorem weights_before (c : Dev nD) (t : Fin cfg1.N) (d) : (dat V c).before 1 t d = iblk V c 1 t :=
  ((dat V c).before_in_eq_fetched 1 rfl (fun _ => rfl) (fun _ _ _ => rfl)
    (fun s => by rw [after_1]; unfold Dat.blockOf iblk; rw [A_eq]; try rfl) t d).trans
    (by unfold Dat.fetched Dat.blockOf iblk; rw [A_eq]; try rfl)

/-! ## One run of the body

Three whole-buffer loads (rows, weights, and the output buffer at whatever it holds), then one store of the product over
the whole output buffer: the inputs are left as read, and the output buffer reads as the product, the store's
rectangle being the whole shape at offset zero. -/

/-- The store's offsets are all zero. -/
theorem origin2 : (![0, 0] : Fin 2 → Nat) = fun _ => 0 := by
  funext a; fin_cases a <;> rfl

/-- A store through the whole-shape rectangle reaches every index of the output buffer, whatever it stores. -/
theorem whole_store_covers (w : Vec F S10000x48 .f32) (y : S10000x48.Idx) :
    ∃ pc ∈ ([⟨Rect.unit (s := S10000x48) ![0, 0] S10000x48.size inb_S10000x48_S10000x48_0_0, w⟩] :
      List (View.Piece (Elt F) S10000x48 .f32)), y ∈ pc.1.set :=
  ⟨_, List.mem_singleton_self _, View.mem_set_unit_zero (S := S10000x48) origin2 inb_S10000x48_S10000x48_0_0 y⟩

set_option maxHeartbeats 1000000 in
/-- The body on whole buffers: rows at `x0`, weights at `x1`, output at anything, runs to the continuation with the
    inputs as they were and the output at the product `out2 x0 x1`. -/
theorem product_stored (c : Dev nD) (E : Set ℕ) (i : grid1.Coords)
    (rows : Memref sig .tc .vmem S10000x24 .f32) (hrows : rows.IsWhole)
    (wts : Memref sig .tc .vmem S24x48 .f32) (hwts : wts.IsWhole)
    (dst : Memref sig .tc .vmem S10000x48 .f32) (hdst : dst.IsWhole)
    (x0 : Vec F S10000x24 .f32) (x1 : Vec F S24x48 .f32) (K : PUnit → sProp 𝕄) :
    iprop(owns (c : Thread nD τ) rows fullShare x0 ∗ owns (c : Thread nD τ) wts fullShare x1
        ∗ (∃ d, owns (c : Thread nD τ) dst fullShare d)
        ∗ (iprop(owns (c : Thread nD τ) rows fullShare x0 ∗ owns (c : Thread nD τ) wts fullShare x1
            ∗ owns (c : Thread nD τ) dst fullShare (out2 x0 x1)) -∗ K ⟨⟩))
      ⊢ wp frame (wpE (defs₀ (F := F)) Variants.none c none) E (cc1__matmul_kernel i rows hrows wts hwts dst hdst) K := by
  simp only [cc1__matmul_kernel_eq_skeleton]; unfold cc1__matmul_kernel_skel
  unfold owns
  iintro ⟨⟨%fr, %hfr, Hr⟩, ⟨%fw, %hfw, Hw⟩, ⟨%d, %fd, -, Hd⟩, Hk⟩
  subst hfr; subst hfw
  sl_exec
  sl_step
  iapply Hk
  isplitl [Hr]
  · iexists fr; isplitr; · ipureintro; rfl
    iexact Hr
  isplitl [Hw]
  · iexists fw; isplitr; · ipureintro; rfl
    iexact Hw
  iexists _; isplitr
  swap; · iexact Hd
  ipureintro
  rw [View.read_writes_eq_canon _ _ _ (whole_store_covers _), View.canon_unit_zero origin2]
  simp only [View.readAt_eq_ld, View.ld_unit_zero (S := S10000x24) origin2, View.ld_unit_zero (S := S24x48) origin2]
  rfl

/-! ## The obligation at a grid point -/

/-- What the pipeline hands the body at point `t`: the invariant, what the core owes, and each window's current buffer. -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- What it takes back from the body. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- At any point the two input buffers hold their blocks, so the run above applies with the rows and the weights of
    that point; the invariant and what the core owes are not touched. -/
theorem body_at (c : Dev nD) (t : Fin cfg1.N) :
    handed V c t ⊢ wp frame (wpE (defs₀ (F := F)) Variants.none c none) Set.univ (bodyAt1 t) (fun _ => returned V c t) := by
  unfold handed returned bodyAt1
  simp only [rows_before, weights_before]
  rw [show (dat V c).Φ t.succ = (dat V c).Φ t.castSucc from rfl,
    show (dat V c).owesAt () t.succ = (dat V c).owesAt () t.castSucc from rfl,
    after_0, after_1, after_2]
  iintro ⟨HΦ, Ho, ⟨%d0, Hrows⟩, ⟨%d1, Hwts⟩, ⟨%d2, Hdst⟩⟩
  iapply (product_stored c Set.univ _ _ _ _ _ _ _ (iblk V c 0 t) (iblk V c 1 t) _)
  isplitl [Hrows]; · iexact Hrows
  isplitl [Hwts]; · iexact Hwts
  isplitl [Hdst]; · iexists _; iexact Hdst
  iintro ⟨Hrows, Hwts, Hdst⟩
  isplitl [HΦ]; · iexact HΦ
  isplitl [Ho]; · iexact Ho
  isplitl [Hrows]; · iexact Hrows
  isplitl [Hwts]; · iexact Hwts
  iexact Hdst

/-- The kernel body meets the pipeline's obligation at every grid point. -/
theorem body_obligation (c : Dev nD) : BodyObligation (dat (F := F) V c) (defs₀ (F := F)) Variants.none () Set.univ := by
  intro t
  rw [bigSep_W1, bigSep_W1]
  exact body_at V c t

end Cert.Kernel.Mm1

end
-- ==== Proof.K.Mm2.lean ====
import proofs.«418734_j62998580298149_1_alg».proof.Proof.Gen.Kernel.Launch
import proofs.«418734_j62998580298149_1_alg».proof.Proof.Gen.Kernel.Skeleton
import proofs.«418734_j62998580298149_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A projection kernel (a block of 10000 rows of the layer's input times the layer's whole weight matrix):
    what each grid point leaves in its three staging buffers, and that the kernel body does so. -/

set_option maxRecDepth 16384

noncomputable section

namespace Cert.Kernel.Mm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output window's buffer: the product of the row block and the weights. -/
def out2 (x0 : Vec F S10000x48 .f32) (x1 : Vec F S48x192 .f32) : Vec F S10000x192 .f32 :=
  k2_pay1 x0 x1

/-- The region's proof data: inputs keep their blocks, the output holds the product. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out2 (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out2 (iblk V c 0 t) (iblk V c 1 t) := by dsimp only [dat]

/-! ## The inputs are read-only

The body never stores to the row block or to the weights, so whatever the pipeline did at a point — fetched the
window, or left it because its block index stood still (the weights after the first point) — the window's current
staging buffer holds the block of that point. -/

/-- The row block's current buffer holds the rows of the point. -/
theorem rows_before (c : Dev nD) (t : Fin cfg2.N) (d) : (dat V c).before 0 t d = iblk V c 0 t :=
  ((dat V c).before_in_eq_fetched 0 rfl (fun _ => rfl) (fun _ _ _ => rfl)
    (fun s => by rw [after_0]; unfold Dat.blockOf iblk; rw [A_eq]; try rfl) t d).trans
    (by unfold Dat.fetched Dat.blockOf iblk; rw [A_eq]; try rfl)

/-- The weights' current buffer holds the weight matrix, at the first point (fetched) and at the later ones (kept). -/
theorem weights_before (c : Dev nD) (t : Fin cfg2.N) (d) : (dat V c).before 1 t d = iblk V c 1 t :=
  ((dat V c).before_in_eq_fetched 1 rfl (fun _ => rfl) (fun _ _ _ => rfl)
    (fun s => by rw [after_1]; unfold Dat.blockOf iblk; rw [A_eq]; try rfl) t d).trans
    (by unfold Dat.fetched Dat.blockOf iblk; rw [A_eq]; try rfl)

/-! ## One run of the body

Three whole-buffer loads (rows, weights, and the output buffer at whatever it holds), then one store of the product over
the whole output buffer: the inputs are left as read, and the output buffer reads as the product, the store's
rectangle being the whole shape at offset zero. -/

/-- The store's offsets are all zero. -/
theorem origin2 : (![0, 0] : Fin 2 → Nat) = fun _ => 0 := by
  funext a; fin_cases a <;> rfl

/-- A store through the whole-shape rectangle reaches every index of the output buffer, whatever it stores. -/
theorem whole_store_covers (w : Vec F S10000x192 .f32) (y : S10000x192.Idx) :
    ∃ pc ∈ ([⟨Rect.unit (s := S10000x192) ![0, 0] S10000x192.size inb_S10000x192_S10000x192_0_0, w⟩] :
      List (View.Piece (Elt F) S10000x192 .f32)), y ∈ pc.1.set :=
  ⟨_, List.mem_singleton_self _, View.mem_set_unit_zero (S := S10000x192) origin2 inb_S10000x192_S10000x192_0_0 y⟩

set_option maxHeartbeats 1000000 in
/-- The body on whole buffers: rows at `x0`, weights at `x1`, output at anything, runs to the continuation with the
    inputs as they were and the output at the product `out2 x0 x1`. -/
theorem product_stored (c : Dev nD) (E : Set ℕ) (i : grid2.Coords)
    (rows : Memref sig .tc .vmem S10000x48 .f32) (hrows : rows.IsWhole)
    (wts : Memref sig .tc .vmem S48x192 .f32) (hwts : wts.IsWhole)
    (dst : Memref sig .tc .vmem S10000x192 .f32) (hdst : dst.IsWhole)
    (x0 : Vec F S10000x48 .f32) (x1 : Vec F S48x192 .f32) (K : PUnit → sProp 𝕄) :
    iprop(owns (c : Thread nD τ) rows fullShare x0 ∗ owns (c : Thread nD τ) wts fullShare x1
        ∗ (∃ d, owns (c : Thread nD τ) dst fullShare d)
        ∗ (iprop(owns (c : Thread nD τ) rows fullShare x0 ∗ owns (c : Thread nD τ) wts fullShare x1
            ∗ owns (c : Thread nD τ) dst fullShare (out2 x0 x1)) -∗ K ⟨⟩))
      ⊢ wp frame (wpE (defs₀ (F := F)) Variants.none c none) E (cc2__matmul_kernel i rows hrows wts hwts dst hdst) K := by
  simp only [cc2__matmul_kernel_eq_skeleton]; unfold cc2__matmul_kernel_skel
  unfold owns
  iintro ⟨⟨%fr, %hfr, Hr⟩, ⟨%fw, %hfw, Hw⟩, ⟨%d, %fd, -, Hd⟩, Hk⟩
  subst hfr; subst hfw
  sl_exec
  sl_step
  iapply Hk
  isplitl [Hr]
  · iexists fr; isplitr; · ipureintro; rfl
    iexact Hr
  isplitl [Hw]
  · iexists fw; isplitr; · ipureintro; rfl
    iexact Hw
  iexists _; isplitr
  swap; · iexact Hd
  ipureintro
  rw [View.read_writes_eq_canon _ _ _ (whole_store_covers _), View.canon_unit_zero origin2]
  simp only [View.readAt_eq_ld, View.ld_unit_zero (S := S10000x48) origin2, View.ld_unit_zero (S := S48x192) origin2]
  rfl

/-! ## The obligation at a grid point -/

/-- What the pipeline hands the body at point `t`: the invariant, what the core owes, and each window's current buffer. -/
def handed (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- What it takes back from the body. -/
def returned (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- At any point the two input buffers hold their blocks, so the run above applies with the rows and the weights of
    that point; the invariant and what the core owes are not touched. -/
theorem body_at (c : Dev nD) (t : Fin cfg2.N) :
    handed V c t ⊢ wp frame (wpE (defs₀ (F := F)) Variants.none c none) Set.univ (bodyAt2 t) (fun _ => returned V c t) := by
  unfold handed returned bodyAt2
  simp only [rows_before, weights_before]
  rw [show (dat V c).Φ t.succ = (dat V c).Φ t.castSucc from rfl,
    show (dat V c).owesAt () t.succ = (dat V c).owesAt () t.castSucc from rfl,
    after_0, after_1, after_2]
  iintro ⟨HΦ, Ho, ⟨%d0, Hrows⟩, ⟨%d1, Hwts⟩, ⟨%d2, Hdst⟩⟩
  iapply (product_stored c Set.univ _ _ _ _ _ _ _ (iblk V c 0 t) (iblk V c 1 t) _)
  isplitl [Hrows]; · iexact Hrows
  isplitl [Hwts]; · iexact Hwts
  isplitl [Hdst]; · iexists _; iexact Hdst
  iintro ⟨Hrows, Hwts, Hdst⟩
  isplitl [HΦ]; · iexact HΦ
  isplitl [Ho]; · iexact Ho
  isplitl [Hrows]; · iexact Hrows
  isplitl [Hwts]; · iexact Hwts
  iexact Hdst

/-- The kernel body meets the pipeline's obligation at every grid point. -/
theorem body_obligation (c : Dev nD) : BodyObligation (dat (F := F) V c) (defs₀ (F := F)) Variants.none () Set.univ := by
  intro t
  rw [bigSep_W2, bigSep_W2]
  exact body_at V c t

end Cert.Kernel.Mm2

end
-- ==== Proof.K.Pool.lean ====
import proofs.«418734_j62998580298149_1_alg».proof.Proof.Gen.Kernel.Launch
import proofs.«418734_j62998580298149_1_alg».proof.Proof.Gen.Kernel.Skeleton
import proofs.«418734_j62998580298149_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! The pooling kernel: over five blocks of 10000 nodes it adds, into a 64×192 accumulator kept in scratch memory,
    the product of the transposed one-hot block with the feature block, and at the last block copies the accumulator
    to the output. What each grid point leaves in the staging buffers and in the accumulator, and that the body does so. -/

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's three runs -/

/-- The body's first branch is taken: the grid coordinate is zero. -/
abbrev isFirst (i : grid3.Coords) : Prop :=
  (Scalar.cmpi .ne (Scalar.extui (Scalar.cmpi .eq (BitVec.ofNat 32 (i 0).val) 0#32)) 0#32) = 1#1

/-- The first branch is taken at point 0 only. -/
theorem isFirst_iff : ∀ t : Fin cfg3.N, isFirst (grid3.coords t) ↔ t.val = 0 :=
  (by decide +kernel : ∀ t : Fin grid3.N, isFirst (grid3.coords t) ↔ t.val = 0)

/-- The last branch (the copy to the output) is taken at point 4 only. -/
theorem isLast_iff : ∀ t : Fin cfg3.N, k3_cond2 (grid3.coords t) = 1#1 ↔ t.val = 4 :=
  (by decide +kernel : ∀ t : Fin grid3.N, k3_cond2 (grid3.coords t) = 1#1 ↔ t.val = 4)

/-- The zero offsets of a whole-rectangle access, as the constant function. -/
theorem zero_offsets : (![0, 0] : Fin 2 → Nat) = fun _ => 0 := funext fun a => by fin_cases a <;> rfl

/-- A list of stores whose last is over the whole 64×192 rectangle covers every index. -/
theorem whole_store_covers (w : S64x192.Idx → Elt F .f32) (L : List (View.Piece (Elt F) S64x192 .f32)) (y : S64x192.Idx) :
    ∃ p ∈ ((⟨Rect.unit ![0, 0] S64x192.size inb_S64x192_S64x192_0_0, w⟩ : View.Piece (Elt F) S64x192 .f32) :: L), y ∈ p.1.set :=
  ⟨_, List.mem_cons_self, View.mem_set_unit_zero zero_offsets inb_S64x192_S64x192_0_0 y⟩

set_option maxHeartbeats 1000000 in
/-- A middle point: the accumulator at `a` becomes `a` plus this block's product; nothing else changes. -/
theorem run_mid (c : Dev nD) (i : grid3.Coords)
    (arg1 : Memref sig .tc .vmem S10000x64 .bf16) (harg1 : arg1.IsWhole)
    (arg2 : Memref sig .tc .vmem S10000x192 .f32) (harg2 : arg2.IsWhole)
    (arg3 : Memref sig .tc .vmem S64x192 .f32) (harg3 : arg3.IsWhole)
    (arg4 : Memref sig .tc .vmem S64x192 .f32) (harg4 : arg4.IsWhole)
    (hc0 : ¬isFirst i) (hc1 : ¬k3_cond2 i = 1#1)
    (x0 : Vec F S10000x64 .bf16) (x1 : Vec F S10000x192 .f32) (xi : Vec F S64x192 .f32) (a : Vec F S64x192 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare a
        ∗ (iprop(owns (c : Thread nD τ) arg1 fullShare x0 ∗ owns (c : Thread nD τ) arg2 fullShare x1
            ∗ owns (c : Thread nD τ) arg3 fullShare xi ∗ owns (c : Thread nD τ) arg4 fullShare (k3_pay2 x0 x1 a)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [View.read_writes_eq_canon _ _ _ (whole_store_covers _ _),
    View.canon_unit_zero zero_offsets]
  simp only [View.readAt_eq_ld, hf0, hf1, hf3, View.ld_unit_zero (S := S10000x64) zero_offsets,
    View.ld_unit_zero (S := S10000x192) zero_offsets, View.ld_unit_zero (S := S64x192) zero_offsets]

set_option maxHeartbeats 1000000 in
/-- The first point: whatever the accumulator held, it ends at zero plus this block's product. -/
theorem run_first (c : Dev nD) (i : grid3.Coords)
    (arg1 : Memref sig .tc .vmem S10000x64 .bf16) (harg1 : arg1.IsWhole)
    (arg2 : Memref sig .tc .vmem S10000x192 .f32) (harg2 : arg2.IsWhole)
    (arg3 : Memref sig .tc .vmem S64x192 .f32) (harg3 : arg3.IsWhole)
    (arg4 : Memref sig .tc .vmem S64x192 .f32) (harg4 : arg4.IsWhole)
    (hc0 : isFirst i) (hc1 : ¬k3_cond2 i = 1#1)
    (x0 : Vec F S10000x64 .bf16) (x1 : Vec F S10000x192 .f32) (xi : Vec F S64x192 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ (∃ a, owns (c : Thread nD τ) arg4 fullShare a)
        ∗ (iprop(owns (c : Thread nD τ) arg1 fullShare x0 ∗ owns (c : Thread nD τ) arg2 fullShare x1
            ∗ owns (c : Thread nD τ) arg3 fullShare xi ∗ owns (c : Thread nD τ) arg4 fullShare (k3_pay2 x0 x1 (k3_pay1 (F := F)))) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%a, %f3, -, H3⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  sl_unfold_words
  rw [View.read_writes_eq_canon _ _ _ (whole_store_covers _ _),
    View.canon_cons_unit_zero zero_offsets]
  simp only [View.readAt_eq_ld, hf0, hf1, View.ld_unit_zero (S := S10000x64) zero_offsets,
    View.ld_unit_zero (S := S10000x192) zero_offsets, View.readCov_unit_zero (S := S64x192) _ zero_offsets]

set_option maxHeartbeats 1000000 in
/-- The last point: the accumulator at `a` becomes `a` plus this block's product, and the output buffer receives it. -/
theorem run_last (c : Dev nD) (i : grid3.Coords)
    (arg1 : Memref sig .tc .vmem S10000x64 .bf16) (harg1 : arg1.IsWhole)
    (arg2 : Memref sig .tc .vmem S10000x192 .f32) (harg2 : arg2.IsWhole)
    (arg3 : Memref sig .tc .vmem S64x192 .f32) (harg3 : arg3.IsWhole)
    (arg4 : Memref sig .tc .vmem S64x192 .f32) (harg4 : arg4.IsWhole)
    (hc0 : ¬isFirst i) (hc1 : k3_cond2 i = 1#1)
    (x0 : Vec F S10000x64 .bf16) (x1 : Vec F S10000x192 .f32) (a : Vec F S64x192 .f32)
    (E : Set ℕ) (K : PUnit → sProp 𝕄) :
    iprop(owns (c : Thread nD τ) arg1 fullShare x0 ∗ owns (c : Thread nD τ) arg2 fullShare x1
        ∗ (∃ xi, owns (c : Thread nD τ) arg3 fullShare xi) ∗ owns (c : Thread nD τ) arg4 fullShare a
        ∗ (iprop(owns (c : Thread nD τ) arg1 fullShare x0 ∗ owns (c : Thread nD τ) arg2 fullShare x1
            ∗ owns (c : Thread nD τ) arg3 fullShare (k3_pay2 x0 x1 a) ∗ owns (c : Thread nD τ) arg4 fullShare (k3_pay2 x0 x1 a)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%xi, %f2, -, H2⟩, ⟨%f3, %hf3, H3⟩, Hk⟩
  obtain rfl := harg1.eq_unread hf0; obtain rfl := harg2.eq_unread hf1; obtain rfl := harg4.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (whole_store_covers _ _),
      View.canon_unit_zero zero_offsets]
    simp only [View.readAt_eq_ld, hf0, hf1, hf3, View.ld_unit_zero (S := S10000x64) zero_offsets,
      View.ld_unit_zero (S := S10000x192) zero_offsets, View.ld_unit_zero (S := S64x192) zero_offsets,
      View.readCov_unit_zero (S := S64x192) _ zero_offsets]
  iexists _; isplitr
  swap; · iexact H3
  ipureintro
  sl_unfold_words
  rw [View.read_writes_eq_canon _ _ _ (whole_store_covers _ _),
    View.canon_unit_zero zero_offsets]
  simp only [View.readAt_eq_ld, hf0, hf1, hf3, View.ld_unit_zero (S := S10000x64) zero_offsets,
    View.ld_unit_zero (S := S10000x192) zero_offsets, View.ld_unit_zero (S := S64x192) zero_offsets]

-- the buffers' contents when the region is entered
variable (V : (c : Dev nD) → (b : Ref sig .tc) → Buf (Elt F) ((c : Thread nD τ).loc b))

/-- Window `w`'s block at grid point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after grid point `n`: zero plus the first block's product at the first point, afterwards the
    previous accumulator plus this block's product. -/
def accAt (c : Dev nD) : (n : ℕ) → n < cfg3.N → Vec F S64x192 .f32
  | 0, h => k3_pay2 (iblk V c 0 ⟨0, h⟩) (iblk V c 1 ⟨0, h⟩) (k3_pay1 (F := F))
  | n + 1, h => k3_pay2 (iblk V c 0 ⟨n + 1, h⟩) (iblk V c 1 ⟨n + 1, h⟩) (accAt c n (Nat.lt_of_succ_lt h))

/-- The accumulator's memref: the kernel's one scratch buffer, whole. -/
abbrev scM : Memref sig .tc .vmem S64x192 .f32 := Memref.whole cc3_scratch0

/-- The core's scoped buffers other than this region's staging buffers and the accumulator, each at some contents. -/
def restNoAcc (c : Dev nD) : sProp 𝕄 :=
  bigSep (((Finset.univ.filter fun b : Ref sig .tc => b.isScoped) \ Finset.univ.image (Pipeline.stageRef spec3)).erase cc3_scratch0)
    fun b => iprop(∃ f : Buf (Elt F) ((c.tc : Thread nD τ).loc b), ((c.tc : Thread nD τ).loc b) ↦{fullShare} f)

/-- The invariant before grid point `n`: at the first point every scratch at anything; later the accumulator at what
    the point before left, the other scoped buffers at anything, the generator register at some state. -/
def PhiS (c : Dev nD) : (n : ℕ) → n ≤ cfg3.N → sProp 𝕄
  | 0, _ => Pipeline.ΦA spec3 c
  | n + 1, hn => iprop(restNoAcc (F := F) c ∗ owns (c : Thread nD τ) scM fullShare (accAt V c n hn) ∗ (∃ r, prngReg c r))

/-- The region's proof data: inputs keep their blocks; the output window holds the accumulator (read only at the last
    point, the one that stores it); the invariant carries the accumulator between points. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => accAt V c t.val t.isLt
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = accAt V c t.val t.isLt := by dsimp only [dat]

/-! ## The invariant, point by point -/

/-- The accumulator is one of the core's scoped buffers and no staging buffer of this region. -/
theorem acc_mem : cc3_scratch0 ∈ (Finset.univ.filter fun b : Ref sig .tc => b.isScoped) \ Finset.univ.image (Pipeline.stageRef spec3) := by
  decide

/-- The scoped rest is the accumulator at some contents and the other scoped buffers. -/
theorem scopedRest_split (c : Dev nD) :
    (Pipeline.scopedRest (Ix := Unit) (Name := ℕ) (U := UR sig nD τ) (Lvl := ℕ) (Val := Elt F) spec3 c : sProp 𝕄)
      = iprop((∃ a, owns (c : Thread nD τ) scM fullShare a) ∗ restNoAcc (F := F) c) := by
  unfold Pipeline.scopedRest restNoAcc
  rw [bigSep_erase acc_mem]
  simp only [scM, owns_whole]
  try rfl

/-- The class invariant with the accumulator split out. -/
theorem classInv_split (c : Dev nD) :
    (Pipeline.ΦA spec3 c : sProp 𝕄)
      = iprop(((∃ a, owns (c : Thread nD τ) scM fullShare a) ∗ restNoAcc (F := F) c) ∗ (∃ r, prngReg c r)) := by
  unfold Pipeline.ΦA; rw [scopedRest_split]

/-- Before the first point: the class invariant. -/
theorem PhiS_start (c : Dev nD) (n : ℕ) (h : n ≤ cfg3.N) (hz : n = 0) : PhiS V c n h = Pipeline.ΦA spec3 c := by
  subst hz; rfl

/-- After point `n`: the accumulator at that point's sum. -/
theorem PhiS_after (c : Dev nD) (n : ℕ) (hn : n < cfg3.N) :
    PhiS V c (n + 1) hn
      = iprop(restNoAcc (F := F) c ∗ owns (c : Thread nD τ) scM fullShare (accAt V c n hn) ∗ (∃ r, prngReg c r)) := rfl

/-- Before a point that is not the first: the accumulator at the previous point's sum. -/
theorem PhiS_before (c : Dev nD) (n : ℕ) (h : n ≤ cfg3.N) (hz : n ≠ 0) :
    PhiS V c n h
      = iprop(restNoAcc (F := F) c ∗ owns (c : Thread nD τ) scM fullShare (accAt V c (n - 1) (by omega)) ∗ (∃ r, prngReg c r)) := by
  cases n with
  | zero => exact absurd rfl hz
  | succ n => rfl

/-- The invariant at a point's start, restated at the point's position. -/
theorem Phi_at (c : Dev nD) (t : Fin cfg3.N) :
    (dat V c).Φ t.castSucc = PhiS V c t.val (Nat.le_of_lt t.isLt) := by
  dsimp only [dat]; simp only [Fin.coe_castSucc]

/-- The sum after the first point: zero plus the first block's product. -/
theorem accAt_first (c : Dev nD) (t : Fin cfg3.N) (h : t.val = 0) :
    accAt V c t.val t.isLt = k3_pay2 (iblk V c 0 t) (iblk V c 1 t) (k3_pay1 (F := F)) := by
  obtain ⟨n, hn⟩ := t
  cases n with
  | zero => rfl
  | succ n => exact absurd h (Nat.succ_ne_zero n)

/-- The sum after a later point: the previous sum plus this block's product. -/
theorem accAt_later (c : Dev nD) (t : Fin cfg3.N) (h : t.val ≠ 0) :
    accAt V c t.val t.isLt
      = k3_pay2 (iblk V c 0 t) (iblk V c 1 t) (accAt V c (t.val - 1) (Nat.lt_of_le_of_lt (Nat.sub_le _ _) t.isLt)) := by
  obtain ⟨n, hn⟩ := t
  cases n with
  | zero => exact absurd rfl h
  | succ n => rfl

/-! ## The windows' buffers before and after the body -/

/-- Each input's current staging buffer holds its block at every point, fetched there or not. -/
theorem before_0 (c : Dev nD) (t : Fin cfg3.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg3.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The inputs are left at their blocks. -/
theorem leaves_0 (c : Dev nD) (t : Fin cfg3.N) :
    (dat V c).leavesExact 0 t = owns (c : Thread nD τ) (win3_0.stage (cfg3.slots t 0)) fullShare (iblk V c 0 t) := by
  unfold Dat.leavesExact; rw [show cfg3.idle 0 (cfg3.grid.coords t) = false from rfl, after_0]

theorem leaves_1 (c : Dev nD) (t : Fin cfg3.N) :
    (dat V c).leavesExact 1 t = owns (c : Thread nD τ) (win3_1.stage (cfg3.slots t 1)) fullShare (iblk V c 1 t) := by
  unfold Dat.leavesExact; rw [show cfg3.idle 1 (cfg3.grid.coords t) = false from rfl, after_1]

/-- Where the copy to the output is not taken, the output window is idle and not written back: handed back as found. -/
theorem leaves_2_idle (c : Dev nD) (t : Fin cfg3.N) (h : ¬k3_cond2 (grid3.coords t) = 1#1) :
    (dat V c).leavesExact 2 t
      = iprop(∃ d, owns (c : Thread nD τ) (win3_2.stage (cfg3.slots t 2)) fullShare ((dat V c).before 2 t d)) := by
  have hi : cfg3.idle 2 (cfg3.grid.coords t) = true := by
    show (!(k3_cond2 (grid3.coords t) == 1#1)) = true
    simp only [Bool.not_eq_true', beq_eq_false_iff_ne, ne_eq]; exact h
  have hf : (cfg3.win 2).flush t = false := by
    have hN : t.val < 5 := lt_of_lt_of_eq t.isLt N_3
    have := flush3_2 t
    have h4 : ¬t.val = 4 := fun e => h ((isLast_iff t).mpr e)
    cases hfl : (cfg3.win 2).flush t with
    | false => rfl
    | true => exact absurd (this.mp hfl) (by omega)
  exact Dat.leavesExact_idle (dat V c) 2 t hi hf

/-- Where it is taken, the output buffer is left at the accumulated sum. -/
theorem leaves_2_last (c : Dev nD) (t : Fin cfg3.N) (h : k3_cond2 (grid3.coords t) = 1#1) :
    (dat V c).leavesExact 2 t
      = owns (c : Thread nD τ) (win3_2.stage (cfg3.slots t 2)) fullShare (accAt V c t.val t.isLt) := by
  have hi : cfg3.idle 2 (cfg3.grid.coords t) = false := by
    show (!(k3_cond2 (grid3.coords t) == 1#1)) = false
    rw [h]; rfl
  unfold Dat.leavesExact; rw [hi, after_2]

/-! ## The body obligation at a point -/

/-- What the body is called with at point `t`, the windows one by one, -/
def handed (c : Dev nD) (t : Fin cfg3.N) : sProp 𝕄 :=
  iprop((dat V c).Φ t.castSucc ∗ (dat V c).owesAt () t.castSucc
    ∗ (∃ d, owns (c : Thread nD τ) (win3_0.stage (cfg3.slots t 0)) fullShare ((dat V c).before 0 t d))
    ∗ (∃ d, owns (c : Thread nD τ) (win3_1.stage (cfg3.slots t 1)) fullShare ((dat V c).before 1 t d))
    ∗ (∃ d, owns (c : Thread nD τ) (win3_2.stage (cfg3.slots t 2)) fullShare ((dat V c).before 2 t d)))

/-- and what it returns. -/
def returned (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the position says which of the three cases the point is
    in; the invariant hands the body the accumulator (at anything at the first point, at the previous sum later) and takes
    it back at this point's sum, the other scoped buffers and the generator register riding along untouched. -/
theorem body_at (c : Dev nD) (t : Fin cfg3.N) :
    handed V c t ⊢ wp frame (wpE (defs₀ (F := F)) Variants.none c none) Set.univ (bodyAt3 t) (fun _ => returned V c t) := by
  unfold handed returned bodyAt3
  simp only [before_0, before_1]
  rw [show (dat V c).owesAt () t.succ = (dat V c).owesAt () t.castSucc from rfl]
  rw [show (dat V c).Φ t.succ = PhiS V c (t.val + 1) t.isLt from rfl, PhiS_after]
  rw [leaves_0, leaves_1, Phi_at]
  have hN : t.val < 5 := lt_of_lt_of_eq t.isLt N_3
  by_cases h0 : t.val = 0
  · have hc0 : isFirst (grid3.coords t) := (isFirst_iff t).mpr h0
    have hc1 : ¬k3_cond2 (grid3.coords t) = 1#1 := fun h => by have := (isLast_iff t).mp h; omega
    rw [leaves_2_idle V c t hc1, PhiS_start V c _ _ h0, classInv_split, accAt_first V c t h0]
    iintro ⟨⟨⟨HS, HR⟩, Hg⟩, Ho, ⟨%d0, H0⟩, ⟨%d1, H1⟩, ⟨%d2, H2⟩⟩
    iapply (run_first c (grid3.coords t) _ _ _ _ _ _ _ _ hc0 hc1 (iblk V c 0 t) (iblk V c 1 t) ((dat V c).before 2 t d2) Set.univ _)
    isplitl [H0]; · iexact H0
    isplitl [H1]; · iexact H1
    isplitl [H2]; · iexact H2
    isplitl [HS]; · iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexists _; iexact H2
  · have hc0 : ¬isFirst (grid3.coords t) := fun h => h0 ((isFirst_iff t).mp h)
    rw [PhiS_before V c _ _ h0, accAt_later V c t h0]
    by_cases h4 : t.val = 4
    · have hc1 : k3_cond2 (grid3.coords t) = 1#1 := (isLast_iff t).mpr h4
      rw [leaves_2_last V c t hc1, accAt_later V c t h0]
      iintro ⟨⟨HR, HS, Hg⟩, Ho, ⟨%d0, H0⟩, ⟨%d1, H1⟩, ⟨%d2, H2⟩⟩
      iapply (run_last c (grid3.coords t) _ _ _ _ _ _ _ _ hc0 hc1 (iblk V c 0 t) (iblk V c 1 t)
        (accAt V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexact H2
    · have hc1 : ¬k3_cond2 (grid3.coords t) = 1#1 := fun h => h4 ((isLast_iff t).mp h)
      rw [leaves_2_idle V c t hc1]
      iintro ⟨⟨HR, HS, Hg⟩, Ho, ⟨%d0, H0⟩, ⟨%d1, H1⟩, ⟨%d2, H2⟩⟩
      iapply (run_mid c (grid3.coords t) _ _ _ _ _ _ _ _ hc0 hc1 (iblk V c 0 t) (iblk V c 1 t) ((dat V c).before 2 t d2)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2

/-- The kernel body meets the pipeline's obligation at every grid point. -/
theorem body_obligation (c : Dev nD) : BodyObligation (dat (F := F) V c) (defs₀ (F := F)) Variants.none () Set.univ := fun t => by
  rw [bigSep_W3, bigSep_W3]
  exact body_at V c t

/-- Entering the region: the class invariant is the invariant before the first point. -/
theorem hin (c : Dev nD) : Pipeline.ΦA spec3 c ⊢ (dat (F := F) V c).Φ 0 := by
  rw [show (dat V c).Φ 0 = PhiS V c 0 (Nat.zero_le _) from rfl, PhiS_start V c 0 _ rfl]

/-- Leaving the region: the invariant after the last point gives the class invariant back. -/
theorem hout (c : Dev nD) : (dat (F := F) V c).Φ (Fin.last cfg3.N) ⊢ Pipeline.ΦA spec3 c := by
  rw [show (dat V c).Φ (Fin.last cfg3.N) = PhiS V c (Fin.last cfg3.N).val (Nat.le_of_lt_succ (Fin.last cfg3.N).isLt) from rfl,
    PhiS_before V c _ _ (by rw [Fin.val_last]; have : cfg3.N = 5 := N_3; omega), classInv_split]
  iintro ⟨HR, HS, Hg⟩
  isplitl [HR HS]
  · isplitl [HS]
    · iexists _; iexact HS
    iexact HR
  iexact Hg

end Cert.Kernel.Pool

end
-- ==== Proof.K.Run.lean ====
import proofs.«418734_j62998580298149_1_alg».proof.Proof.Gen.Kernel.Regions
import proofs.«418734_j62998580298149_1_alg».proof.Proof.K.Mm0
import proofs.«418734_j62998580298149_1_alg».proof.Proof.K.Mm1
import proofs.«418734_j62998580298149_1_alg».proof.Proof.K.Mm2
import proofs.«418734_j62998580298149_1_alg».proof.Proof.K.Pool
import Idealize.ShloMosaic.Lib.Pipeline.Frame
import Idealize.ShloMosaic.Lib.Pipeline.Regions
import Idealize.ShloMosaic.Lib.Pipeline.RegionsLoop
import Idealize.ShloMosaic.Lib.Pipeline.FrameSuffix

/-! The whole program's run: ten items in order (host stretch, host stretch, region, stretch, region, stretch, region,
    stretch, region, stretch). Between two items every unscoped buffer holds a named value: the launch contents carried
    through the host stretches, each region's output array replaced by what that region's pipeline leaves. Every weakly
    fair execution terminates, the nine argument arrays end as launched, and the result array ends at the last named
    value. -/

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references: what a region's proof data take. -/
abbrev rd (W : Dev nD → Valuation τ sig (Elt F)) : (c : Dev nD) → (b : Ref sig .tc) → Buf (Elt F) ((c : Thread nD τ).loc b) :=
  fun c b => W c b

/-- The contents the regions leave in their output arrays are the ones their pipelines compute, each from the
    contents the region is entered with. -/
def OutsOk (outs : Outs (F := F)) : Prop :=
  (∀ c : Dev nD, outs 3 main_v17 c = (Mm0.dat (rd (V2 m)) c).arrAt 2 cfg0.N)
  ∧ (∀ c : Dev nD, outs 5 main_v49 c = (Mm1.dat (rd (V4 m outs)) c).arrAt 2 cfg1.N)
  ∧ (∀ c : Dev nD, outs 7 main_v81 c = (Mm2.dat (rd (V6 m outs)) c).arrAt 2 cfg2.N)
  ∧ (∀ c : Dev nD, outs 9 main_v122 c = (Pool.dat (rd (V8 m outs)) c).arrAt 2 cfg3.N)

/-! ## What rides beside the buffers, and the regions' proof data -/

/-- No pair of cores owes one another anything: no level is assigned. -/
abbrev noPairs : GSem nD τ sig → Finset Unit := fun _ => ∅
abbrev levelZero : GSem nD τ sig → Unit → ℕ := fun _ _ => 0

/-- Beside the unscoped buffers a core carries, between any two items, its generator register at some state and the
    fact that it owes nothing. -/
abbrev beside (c : Dev nD) : sProp 𝕄 :=
  iprop((∃ r, prngReg c r) ∗ ∃ W, owes (c : Thread nD τ) (0 : CellTallies nD τ sig Unit) W)

/-- The same at each of the five places between a region and the next. -/
abbrev besideAt : Fin 5 → Dev nD → sProp 𝕄 := fun _ c => beside (F := F) c

/-- Every region's proof data, each at the contents its region is entered with. -/
def pdats (outs : Outs (F := F)) :
    (p : Fin 4) → (c : Dev nD) → Dat τ (Elt F) Unit ℕ (UR sig nD τ) ℕ (Pipeline.pin (pcfgs (F := F)) adm p) c
  | ⟨0, _⟩ => fun c => Mm0.dat (rd (V2 m)) c
  | ⟨1, _⟩ => fun c => Mm1.dat (rd (V4 m outs)) c
  | ⟨2, _⟩ => fun c => Mm2.dat (rd (V6 m outs)) c
  | ⟨3, _⟩ => fun c => Pool.dat (rd (V8 m outs)) c

/-- An unscoped TensorCore reference is among those the thread state holds. -/
theorem mem_unscoped (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## Region 0: the first projection -/

/-- When region 0 is left each of its arrays holds what the valuation after it says: the two inputs what they held
    (an input array ends as entered, and the update is elsewhere), the output what the pipeline computed. -/
theorem exit0_arr (outs : Outs (F := F)) (h : OutsOk m outs) (c : Dev nD) (w : Fin cfg0.W) :
    (Mm0.dat (rd (V2 m)) c).arrAt w cfg0.N = rd (V3 m outs) c (Pipeline.arrRef spec0 w) := by
  match w with
  | ⟨0, _⟩ =>
    exact ((Mm0.dat (rd (V2 m)) c).arrAt_in 0 rfl _).trans
      ((Mm0.A_eq (rd (V2 m)) c 0).trans (V3_of m outs c (Pipeline.arrRef spec0 0) (by decide)).symm)
  | ⟨1, _⟩ =>
    exact ((Mm0.dat (rd (V2 m)) c).arrAt_in 1 rfl _).trans
      ((Mm0.A_eq (rd (V2 m)) c 1).trans (V3_of m outs c (Pipeline.arrRef spec0 1) (by decide)).symm)
  | ⟨2, _⟩ =>
    refine (h.1 c).symm.trans ?_
    show outs 3 main_v17 c
      = Function.update (V2 m c) (Proc.devRef .tc main_v17 : DevRef τ sig) (outs 3 main_v17 c) (Proc.devRef .tc main_v17)
    exact (Function.update_self (Proc.devRef .tc main_v17 : DevRef τ sig) (outs 3 main_v17 c) (V2 m c)).symm

/-- Every buffer that is no array of region 0 is left as entered. -/
theorem exit0_rest (outs : Outs (F := F)) (c : Dev nD) :
    ∀ b, b ∉ Finset.univ.image (Pipeline.arrRef spec0) → rd (V3 m outs) c b = rd (V2 m) c b :=
  fun b hb => V3_of m outs c b fun hmem => hb (by
    rw [List.mem_singleton] at hmem; subst hmem
    exact Finset.mem_image.mpr ⟨2, Finset.mem_univ _, rfl⟩)

set_option backward.isDefEq.respectTransparency.types false in
/-- Region 0 as an item of the run: entered with every unscoped buffer at the valuation before it, left with them at
    the valuation after it. Its arrays are taken out of the unscoped buffers and put back at their exit contents; the
    generator register goes into the pipeline's invariant and comes back; nothing is owed throughout. -/
def reg0 (outs : Outs (F := F)) (h : OutsOk m outs) :
    RegionSeg (pcfgs (F := F)) adm (pdats m outs) () defs₀ Variants.none noPairs levelZero 0 where
  win := launch0.win.to₀
  block_pos := launch0.block_pos
  stage_whole := launch0.stage_whole
  K := PEmpty
  osem k := k.elim
  ho := Pipeline.OwnSemFacts.none _
  hbody c := (Mm0.body_obligation (rd (V2 m)) c).loose
  hwaits := Pipeline.hwaits_of_owed_zero _ _ _ _ noPairs levelZero 0 fun _ _ => rfl
  pre c := iprop(StableHlo.held (c : Thread nD τ) (Pipeline.ucRefs τ sig) (V2 m c) ∗ beside (F := F) c)
  post c := iprop(StableHlo.held (c : Thread nD τ) (Pipeline.ucRefs τ sig) (V3 m outs c) ∗ beside (F := F) c)
  X c := iprop(∃ r, prngReg c r)
  Y c := iprop(∃ r, prngReg c r)
  Z c := Pipeline.unscopedRest (Ix := Unit) (Name := ℕ) (U := UR sig nD τ) (Lvl := ℕ) spec0 c (rd (V2 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (rd (V2 m) c) fun _ => rfl
    rw [Pipeline.unscopedBufs_held] at hsplit
    iintro ⟨⟨Hbufs, Hgen, Howes⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hothers
  hin c := by
    rw [show (pdats m outs 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m outs 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (rd (V2 m) c) (rd (V3 m outs) c) ((pdats m outs 0 c).arrAt · cfg0.N) (exit0_arr m outs h c) (exit0_rest m outs c)
    rw [Pipeline.unscopedBufs_held] at hjoin
    iintro ⟨Harr, Howes, Hgen, Hothers⟩
    imodintro
    isplitl [Harr Hothers]
    · iapply hjoin; isplitl [Harr] <;> iassumption
    isplitl [Hgen]; · iexact Hgen
    unfold Pipeline.Dat.owesAt Pipeline.owesWithin
    icases Howes with ⟨%W, -, Howes⟩; iexists W; iexact Howes

/-! ## Region 1: the second projection -/

/-- When region 1 is left each of its arrays holds what the valuation after it says: the two inputs what they held
    (an input array ends as entered, and the update is elsewhere), the output what the pipeline computed. -/
theorem exit1_arr (outs : Outs (F := F)) (h : OutsOk m outs) (c : Dev nD) (w : Fin cfg1.W) :
    (Mm1.dat (rd (V4 m outs)) c).arrAt w cfg1.N = rd (V5 m outs) c (Pipeline.arrRef spec1 w) := by
  match w with
  | ⟨0, _⟩ =>
    exact ((Mm1.dat (rd (V4 m outs)) c).arrAt_in 0 rfl _).trans
      ((Mm1.A_eq (rd (V4 m outs)) c 0).trans (V5_of m outs c (Pipeline.arrRef spec1 0) (by decide)).symm)
  | ⟨1, _⟩ =>
    exact ((Mm1.dat (rd (V4 m outs)) c).arrAt_in 1 rfl _).trans
      ((Mm1.A_eq (rd (V4 m outs)) c 1).trans (V5_of m outs c (Pipeline.arrRef spec1 1) (by decide)).symm)
  | ⟨2, _⟩ =>
    refine (h.2.1 c).symm.trans ?_
    show outs 5 main_v49 c
      = Function.update (V4 m outs c) (Proc.devRef .tc main_v49 : DevRef τ sig) (outs 5 main_v49 c) (Proc.devRef .tc main_v49)
    exact (Function.update_self (Proc.devRef .tc main_v49 : DevRef τ sig) (outs 5 main_v49 c) (V4 m outs c)).symm

/-- Every buffer that is no array of region 1 is left as entered. -/
theorem exit1_rest (outs : Outs (F := F)) (c : Dev nD) :
    ∀ b, b ∉ Finset.univ.image (Pipeline.arrRef spec1) → rd (V5 m outs) c b = rd (V4 m outs) c b :=
  fun b hb => V5_of m outs c b fun hmem => hb (by
    rw [List.mem_singleton] at hmem; subst hmem
    exact Finset.mem_image.mpr ⟨2, Finset.mem_univ _, rfl⟩)

set_option backward.isDefEq.respectTransparency.types false in
/-- Region 1 as an item of the run: entered with every unscoped buffer at the valuation before it, left with them at
    the valuation after it. Its arrays are taken out of the unscoped buffers and put back at their exit contents; the
    generator register goes into the pipeline's invariant and comes back; nothing is owed throughout. -/
def reg1 (outs : Outs (F := F)) (h : OutsOk m outs) :
    RegionSeg (pcfgs (F := F)) adm (pdats m outs) () defs₀ Variants.none noPairs levelZero 1 where
  win := launch1.win.to₀
  block_pos := launch1.block_pos
  stage_whole := launch1.stage_whole
  K := PEmpty
  osem k := k.elim
  ho := Pipeline.OwnSemFacts.none _
  hbody c := (Mm1.body_obligation (rd (V4 m outs)) c).loose
  hwaits := Pipeline.hwaits_of_owed_zero _ _ _ _ noPairs levelZero 1 fun _ _ => rfl
  pre c := iprop(StableHlo.held (c : Thread nD τ) (Pipeline.ucRefs τ sig) (V4 m outs c) ∗ beside (F := F) c)
  post c := iprop(StableHlo.held (c : Thread nD τ) (Pipeline.ucRefs τ sig) (V5 m outs c) ∗ beside (F := F) c)
  X c := iprop(∃ r, prngReg c r)
  Y c := iprop(∃ r, prngReg c r)
  Z c := Pipeline.unscopedRest (Ix := Unit) (Name := ℕ) (U := UR sig nD τ) (Lvl := ℕ) spec1 c (rd (V4 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (rd (V4 m outs) c) fun _ => rfl
    rw [Pipeline.unscopedBufs_held] at hsplit
    iintro ⟨⟨Hbufs, Hgen, Howes⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hothers
  hin c := by
    rw [show (pdats m outs 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (pdats m outs 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (rd (V4 m outs) c) (rd (V5 m outs) c) ((pdats m outs 1 c).arrAt · cfg1.N) (exit1_arr m outs h c) (exit1_rest m outs c)
    rw [Pipeline.unscopedBufs_held] at hjoin
    iintro ⟨Harr, Howes, Hgen, Hothers⟩
    imodintro
    isplitl [Harr Hothers]
    · iapply hjoin; isplitl [Harr] <;> iassumption
    isplitl [Hgen]; · iexact Hgen
    unfold Pipeline.Dat.owesAt Pipeline.owesWithin
    icases Howes with ⟨%W, -, Howes⟩; iexists W; iexact Howes

/-! ## Region 2: the third projection -/

/-- When region 2 is left each of its arrays holds what the valuation after it says: the two inputs what they held
    (an input array ends as entered, and the update is elsewhere), the output what the pipeline computed. -/
theorem exit2_arr (outs : Outs (F := F)) (h : OutsOk m outs) (c : Dev nD) (w : Fin cfg2.W) :
    (Mm2.dat (rd (V6 m outs)) c).arrAt w cfg2.N = rd (V7 m outs) c (Pipeline.arrRef spec2 w) := by
  match w with
  | ⟨0, _⟩ =>
    exact ((Mm2.dat (rd (V6 m outs)) c).arrAt_in 0 rfl _).trans
      ((Mm2.A_eq (rd (V6 m outs)) c 0).trans (V7_of m outs c (Pipeline.arrRef spec2 0) (by decide)).symm)
  | ⟨1, _⟩ =>
    exact ((Mm2.dat (rd (V6 m outs)) c).arrAt_in 1 rfl _).trans
      ((Mm2.A_eq (rd (V6 m outs)) c 1).trans (V7_of m outs c (Pipeline.arrRef spec2 1) (by decide)).symm)
  | ⟨2, _⟩ =>
    refine (h.2.2.1 c).symm.trans ?_
    show outs 7 main_v81 c
      = Function.update (V6 m outs c) (Proc.devRef .tc main_v81 : DevRef τ sig) (outs 7 main_v81 c) (Proc.devRef .tc main_v81)
    exact (Function.update_self (Proc.devRef .tc main_v81 : DevRef τ sig) (outs 7 main_v81 c) (V6 m outs c)).symm

/-- Every buffer that is no array of region 2 is left as entered. -/
theorem exit2_rest (outs : Outs (F := F)) (c : Dev nD) :
    ∀ b, b ∉ Finset.univ.image (Pipeline.arrRef spec2) → rd (V7 m outs) c b = rd (V6 m outs) c b :=
  fun b hb => V7_of m outs c b fun hmem => hb (by
    rw [List.mem_singleton] at hmem; subst hmem
    exact Finset.mem_image.mpr ⟨2, Finset.mem_univ _, rfl⟩)

set_option backward.isDefEq.respectTransparency.types false in
/-- Region 2 as an item of the run: entered with every unscoped buffer at the valuation before it, left with them at
    the valuation after it. Its arrays are taken out of the unscoped buffers and put back at their exit contents; the
    generator register goes into the pipeline's invariant and comes back; nothing is owed throughout. -/
def reg2 (outs : Outs (F := F)) (h : OutsOk m outs) :
    RegionSeg (pcfgs (F := F)) adm (pdats m outs) () defs₀ Variants.none noPairs levelZero 2 where
  win := launch2.win.to₀
  block_pos := launch2.block_pos
  stage_whole := launch2.stage_whole
  K := PEmpty
  osem k := k.elim
  ho := Pipeline.OwnSemFacts.none _
  hbody c := (Mm2.body_obligation (rd (V6 m outs)) c).loose
  hwaits := Pipeline.hwaits_of_owed_zero _ _ _ _ noPairs levelZero 2 fun _ _ => rfl
  pre c := iprop(StableHlo.held (c : Thread nD τ) (Pipeline.ucRefs τ sig) (V6 m outs c) ∗ beside (F := F) c)
  post c := iprop(StableHlo.held (c : Thread nD τ) (Pipeline.ucRefs τ sig) (V7 m outs c) ∗ beside (F := F) c)
  X c := iprop(∃ r, prngReg c r)
  Y c := iprop(∃ r, prngReg c r)
  Z c := Pipeline.unscopedRest (Ix := Unit) (Name := ℕ) (U := UR sig nD τ) (Lvl := ℕ) spec2 c (rd (V6 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (rd (V6 m outs) c) fun _ => rfl
    rw [Pipeline.unscopedBufs_held] at hsplit
    iintro ⟨⟨Hbufs, Hgen, Howes⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hothers
  hin c := by
    rw [show (pdats m outs 2 c).Φ 0 = Pipeline.ΦA spec2 c from rfl]; unfold Pipeline.ΦA
    iintro ⟨Hgen, -, Hscoped⟩
    isplitl [Hscoped]; · iexact Hscoped
    iexact Hgen
  hout c := by
    rw [Pipeline.ownSems0_none, show (pdats m outs 2 c).Φ (Fin.last _) = Pipeline.ΦA spec2 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (rd (V6 m outs) c) (rd (V7 m outs) c) ((pdats m outs 2 c).arrAt · cfg2.N) (exit2_arr m outs h c) (exit2_rest m outs c)
    rw [Pipeline.unscopedBufs_held] at hjoin
    iintro ⟨Harr, Howes, Hgen, Hothers⟩
    imodintro
    isplitl [Harr Hothers]
    · iapply hjoin; isplitl [Harr] <;> iassumption
    isplitl [Hgen]; · iexact Hgen
    unfold Pipeline.Dat.owesAt Pipeline.owesWithin
    icases Howes with ⟨%W, -, Howes⟩; iexists W; iexact Howes

/-! ## Region 3: the pooling -/

/-- When region 3 is left each of its arrays holds what the valuation after it says: the two inputs what they held
    (an input array ends as entered, and the update is elsewhere), the output what the pipeline computed. -/
theorem exit3_arr (outs : Outs (F := F)) (h : OutsOk m outs) (c : Dev nD) (w : Fin cfg3.W) :
    (Pool.dat (rd (V8 m outs)) c).arrAt w cfg3.N = rd (V9 m outs) c (Pipeline.arrRef spec3 w) := by
  match w with
  | ⟨0, _⟩ =>
    exact ((Pool.dat (rd (V8 m outs)) c).arrAt_in 0 rfl _).trans
      ((Pool.A_eq (rd (V8 m outs)) c 0).trans (V9_of m outs c (Pipeline.arrRef spec3 0) (by decide)).symm)
  | ⟨1, _⟩ =>
    exact ((Pool.dat (rd (V8 m outs)) c).arrAt_in 1 rfl _).trans
      ((Pool.A_eq (rd (V8 m outs)) c 1).trans (V9_of m outs c (Pipeline.arrRef spec3 1) (by decide)).symm)
  | ⟨2, _⟩ =>
    refine (h.2.2.2 c).symm.trans ?_
    show outs 9 main_v122 c
      = Function.update (V8 m outs c) (Proc.devRef .tc main_v122 : DevRef τ sig) (outs 9 main_v122 c) (Proc.devRef .tc main_v122)
    exact (Function.update_self (Proc.devRef .tc main_v122 : DevRef τ sig) (outs 9 main_v122 c) (V8 m outs c)).symm

/-- Every buffer that is no array of region 3 is left as entered. -/
theorem exit3_rest (outs : Outs (F := F)) (c : Dev nD) :
    ∀ b, b ∉ Finset.univ.image (Pipeline.arrRef spec3) → rd (V9 m outs) c b = rd (V8 m outs) c b :=
  fun b hb => V9_of m outs c b fun hmem => hb (by
    rw [List.mem_singleton] at hmem; subst hmem
    exact Finset.mem_image.mpr ⟨2, Finset.mem_univ _, rfl⟩)

set_option backward.isDefEq.respectTransparency.types false in
/-- Region 3 as an item of the run: entered with every unscoped buffer at the valuation before it, left with them at
    the valuation after it. Its arrays are taken out of the unscoped buffers and put back at their exit contents; the
    generator register goes into the pipeline's invariant and comes back; nothing is owed throughout. -/
def reg3 (outs : Outs (F := F)) (h : OutsOk m outs) :
    RegionSeg (pcfgs (F := F)) adm (pdats m outs) () defs₀ Variants.none noPairs levelZero 3 where
  win := launch3.win.to₀
  block_pos := launch3.block_pos
  stage_whole := launch3.stage_whole
  K := PEmpty
  osem k := k.elim
  ho := Pipeline.OwnSemFacts.none _
  hbody c := (Pool.body_obligation (rd (V8 m outs)) c).loose
  hwaits := Pipeline.hwaits_of_owed_zero _ _ _ _ noPairs levelZero 3 fun _ _ => rfl
  pre c := iprop(StableHlo.held (c : Thread nD τ) (Pipeline.ucRefs τ sig) (V8 m outs c) ∗ beside (F := F) c)
  post c := iprop(StableHlo.held (c : Thread nD τ) (Pipeline.ucRefs τ sig) (V9 m outs c) ∗ beside (F := F) c)
  X c := iprop(∃ r, prngReg c r)
  Y c := iprop(∃ r, prngReg c r)
  Z c := Pipeline.unscopedRest (Ix := Unit) (Name := ℕ) (U := UR sig nD τ) (Lvl := ℕ) spec3 c (rd (V8 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (rd (V8 m outs) c) fun _ => rfl
    rw [Pipeline.unscopedBufs_held] at hsplit
    iintro ⟨⟨Hbufs, Hgen, Howes⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hothers
  hin c := by
    refine .trans ?_ (Pool.hin (rd (V8 m outs)) c)
    unfold Pipeline.ΦA
    iintro ⟨Hgen, -, Hscoped⟩
    isplitl [Hscoped]; · iexact Hscoped
    iexact Hgen
  hout c := by
    rw [Pipeline.ownSems0_none]
    refine (Pool.hout (rd (V8 m outs)) c).trans ?_
    unfold Pipeline.ΦA
    iintro ⟨Hscoped, Hgen⟩
    isplitl [Hgen]; · iexact Hgen
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (rd (V8 m outs) c) (rd (V9 m outs) c) ((pdats m outs 3 c).arrAt · cfg3.N) (exit3_arr m outs h c) (exit3_rest m outs c)
    rw [Pipeline.unscopedBufs_held] at hjoin
    iintro ⟨Harr, Howes, Hgen, Hothers⟩
    imodintro
    isplitl [Harr Hothers]
    · iapply hjoin; isplitl [Harr] <;> iassumption
    isplitl [Hgen]; · iexact Hgen
    unfold Pipeline.Dat.owesAt Pipeline.owesWithin
    icases Howes with ⟨%W, -, Howes⟩; iexists W; iexact Howes

/-! ## Contents the regions can leave

They are defined region by region: region 0's output from the launch contents; region 1's from the valuation that has
region 0's output in place; and so on. A valuation before a region depends on the unknown contents only through the
outputs of the regions before it, so putting a later output in place does not change it. -/

/-- The valuation before region 1 reads the unknown contents only at region 0's output. -/
theorem V4_eq_of (outs outs' : Outs (F := F)) (e3 : ∀ c, outs 3 main_v17 c = outs' 3 main_v17 c) :
    V4 m outs = V4 m outs' := by
  funext c
  show StableHlo.after hostOps1 (Function.update (V2 m c) (Proc.devRef .tc main_v17 : DevRef τ sig) (outs 3 main_v17 c))
    = StableHlo.after hostOps1 (Function.update (V2 m c) (Proc.devRef .tc main_v17 : DevRef τ sig) (outs' 3 main_v17 c))
  rw [e3 c]

/-- The valuation before region 2 reads them only at the outputs of regions 0 and 1. -/
theorem V6_eq_of (outs outs' : Outs (F := F)) (e3 : ∀ c, outs 3 main_v17 c = outs' 3 main_v17 c)
    (e5 : ∀ c, outs 5 main_v49 c = outs' 5 main_v49 c) : V6 m outs = V6 m outs' := by
  funext c
  have e4 : V4 m outs c = V4 m outs' c := congrFun (V4_eq_of m outs outs' e3) c
  show StableHlo.after hostOps2 (Function.update (V4 m outs c) (Proc.devRef .tc main_v49 : DevRef τ sig) (outs 5 main_v49 c))
    = StableHlo.after hostOps2 (Function.update (V4 m outs' c) (Proc.devRef .tc main_v49 : DevRef τ sig) (outs' 5 main_v49 c))
  rw [e4, e5 c]

/-- The valuation before region 3 reads them only at the outputs of regions 0, 1 and 2. -/
theorem V8_eq_of (outs outs' : Outs (F := F)) (e3 : ∀ c, outs 3 main_v17 c = outs' 3 main_v17 c)
    (e5 : ∀ c, outs 5 main_v49 c = outs' 5 main_v49 c) (e7 : ∀ c, outs 7 main_v81 c = outs' 7 main_v81 c) :
    V8 m outs = V8 m outs' := by
  funext c
  have e6 : V6 m outs c = V6 m outs' c := congrFun (V6_eq_of m outs outs' e3 e5) c
  show StableHlo.after hostOps3 (Function.update (V6 m outs c) (Proc.devRef .tc main_v81 : DevRef τ sig) (outs 7 main_v81 c))
    = StableHlo.after hostOps3 (Function.update (V6 m outs' c) (Proc.devRef .tc main_v81 : DevRef τ sig) (outs' 7 main_v81 c))
  rw [e6, e7 c]

/-- What region 0's pipeline leaves in its output array. -/
def made0 (c : Dev nD) : Buf (Elt F) ((c : Thread nD τ).loc main_v17) := (Mm0.dat (rd (V2 m)) c).arrAt 2 cfg0.N
/-- Contents with region 0's output in place (every other reference at its launch contents: never read). -/
def upTo0 : Outs (F := F) := fun _ r c =>
  Function.update (fun r : Ref sig .tc => m ((c : Thread nD τ).loc r)) main_v17 (made0 m c) r
/-- What region 1's pipeline leaves in its output array, entered after region 0's output is in place. -/
def made1 (c : Dev nD) : Buf (Elt F) ((c : Thread nD τ).loc main_v49) := (Mm1.dat (rd (V4 m (upTo0 m))) c).arrAt 2 cfg1.N
/-- Contents with the outputs of regions 0 and 1 in place. -/
def upTo1 : Outs (F := F) := fun _ r c =>
  Function.update (fun r : Ref sig .tc => upTo0 m 0 r c) main_v49 (made1 m c) r
/-- What region 2's pipeline leaves in its output array. -/
def made2 (c : Dev nD) : Buf (Elt F) ((c : Thread nD τ).loc main_v81) := (Mm2.dat (rd (V6 m (upTo1 m))) c).arrAt 2 cfg2.N
/-- Contents with the outputs of regions 0, 1 and 2 in place. -/
def upTo2 : Outs (F := F) := fun _ r c =>
  Function.update (fun r : Ref sig .tc => upTo1 m 0 r c) main_v81 (made2 m c) r
/-- What region 3's pipeline leaves in its output array. -/
def made3 (c : Dev nD) : Buf (Elt F) ((c : Thread nD τ).loc main_v122) := (Pool.dat (rd (V8 m (upTo2 m))) c).arrAt 2 cfg3.N
/-- Contents with all four outputs in place. -/
def upTo3 : Outs (F := F) := fun _ r c =>
  Function.update (fun r : Ref sig .tc => upTo2 m 0 r c) main_v122 (made3 m c) r

theorem upTo0_v17 (j : ℕ) (c : Dev nD) : upTo0 m j main_v17 c = made0 m c := by
  unfold upTo0; exact Function.update_self _ _ _
theorem upTo1_v17 (j : ℕ) (c : Dev nD) : upTo1 m j main_v17 c = made0 m c := by
  unfold upTo1; rw [Function.update_of_ne (by decide : (main_v17 : Ref sig .tc) ≠ main_v49)]; exact upTo0_v17 m 0 c
theorem upTo1_v49 (j : ℕ) (c : Dev nD) : upTo1 m j main_v49 c = made1 m c := by
  unfold upTo1; exact Function.update_self _ _ _
theorem upTo2_v17 (j : ℕ) (c : Dev nD) : upTo2 m j main_v17 c = made0 m c := by
  unfold upTo2; rw [Function.update_of_ne (by decide : (main_v17 : Ref sig .tc) ≠ main_v81)]; exact upTo1_v17 m 0 c
theorem upTo2_v49 (j : ℕ) (c : Dev nD) : upTo2 m j main_v49 c = made1 m c := by
  unfold upTo2; rw [Function.update_of_ne (by decide : (main_v49 : Ref sig .tc) ≠ main_v81)]; exact upTo1_v49 m 0 c
theorem upTo2_v81 (j : ℕ) (c : Dev nD) : upTo2 m j main_v81 c = made2 m c := by
  unfold upTo2; exact Function.update_self _ _ _
theorem upTo3_v17 (j : ℕ) (c : Dev nD) : upTo3 m j main_v17 c = made0 m c := by
  unfold upTo3; rw [Function.update_of_ne (by decide : (main_v17 : Ref sig .tc) ≠ main_v122)]; exact upTo2_v17 m 0 c
theorem upTo3_v49 (j : ℕ) (c : Dev nD) : upTo3 m j main_v49 c = made1 m c := by
  unfold upTo3; rw [Function.update_of_ne (by decide : (main_v49 : Ref sig .tc) ≠ main_v122)]; exact upTo2_v49 m 0 c
theorem upTo3_v81 (j : ℕ) (c : Dev nD) : upTo3 m j main_v81 c = made2 m c := by
  unfold upTo3; rw [Function.update_of_ne (by decide : (main_v81 : Ref sig .tc) ≠ main_v122)]; exact upTo2_v81 m 0 c
theorem upTo3_v122 (j : ℕ) (c : Dev nD) : upTo3 m j main_v122 c = made3 m c := by
  unfold upTo3; exact Function.update_self _ _ _

/-! ## The run -/

/-- The ten items on a core: the host stretches over the valuations, the four regions' records between them. -/
abbrev items (outs : Outs (F := F)) (h : OutsOk m outs) (c : Dev nD) :
    List (Seg (pcfgs (F := F)) adm (pdats m outs) () defs₀ Variants.none noPairs levelZero) :=
  segs m outs Variants.none noPairs levelZero (besideAt (F := F)) () (pdats m outs) (reg0 m outs h) (reg1 m outs h) (reg2 m outs h) (reg3 m outs h) c

/-- Such contents exist: they are defined region by region, each from the ones before. -/
theorem exists_outs : ∃ outs : Outs (F := F), OutsOk m outs := by
  refine ⟨upTo3 m, fun c => upTo3_v17 m 3 c, fun c => ?_, fun c => ?_, fun c => ?_⟩
  · rw [V4_eq_of m (upTo3 m) (upTo0 m) fun c => (upTo3_v17 m 3 c).trans (upTo0_v17 m 3 c).symm]
    exact upTo3_v49 m 5 c
  · rw [V6_eq_of m (upTo3 m) (upTo1 m) (fun c => (upTo3_v17 m 3 c).trans (upTo1_v17 m 3 c).symm)
      (fun c => (upTo3_v49 m 5 c).trans (upTo1_v49 m 5 c).symm)]
    exact upTo3_v81 m 7 c
  · rw [V8_eq_of m (upTo3 m) (upTo2 m) (fun c => (upTo3_v17 m 3 c).trans (upTo2_v17 m 3 c).symm)
      (fun c => (upTo3_v49 m 5 c).trans (upTo2_v49 m 5 c).symm) (fun c => (upTo3_v81 m 7 c).trans (upTo2_v81 m 7 c).symm)]
    exact upTo3_v122 m 9 c

set_option backward.isDefEq.respectTransparency.types false in
/-- The run, with the result array named. -/
theorem run_named (outs : Outs (F := F)) (h : OutsOk m outs) :
    θ_run defs (onTc (τ := τ) (main (F := F))) ⟨m, fun _ => 0, ρ⟩ (fun r => ∀ c : Dev nD,
      r.2.mem ((c.tc : Thread nD τ).loc main_v127) = V10 m outs c main_v127
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m outs) () cellOf_inj emb₁ defs₀ Variants.none noPairs levelZero m ρ main
    (items m outs h)
    (fun c Q => by
      rewrite [main_chain c, Seg.run_eq_chain,
        show (items m outs h c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ beside (F := F) c))
    (Tₙ := fun c => StableHlo.held (c : Thread nD τ) (Pipeline.ucRefs τ sig) (V10 m outs c))
    (hch := fun c => ⟨.rfl, .rfl, .rfl, .rfl, .rfl, .rfl, .rfl, .rfl, .rfl, .rfl,
      sep_mono .rfl (by iintro ⟨-, Howes⟩; iexact Howes)⟩)
    (hinit := ?_)
    (QY := fun c s => s.mem ((c.tc : Thread nD τ).loc main_v127) = V10 m outs c main_v127
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ hall => hall)
  · -- the launch element is the pipelines' own; no further ghost resource is dealt
    iintro Hlaunch; imodintro
    isplitl [Hlaunch]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hlaunch
    iapply (show (BI.emp : sProp 𝕄) ⊢ bigSep Finset.univ (fun _ : Dev nD => (BI.emp : sProp 𝕄)) from by rw [BI.bigSep_emp_const])
    iempintro
  · -- the launch, core by core: the unscoped buffers are held at the launch contents, the generator register is at its
    -- launch state, nothing is owed
    refine Pipeline.initEach noPairs levelZero fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hbufs, -, Howes, -, Hgen, -⟩, -⟩
    imodintro
    isplitl [Hbufs]; · iexact Hbufs
    isplitl [Hgen]; · iexists _; iexact Hgen
    iexists ∅; iexact Howes
  · -- the end: the result and each argument read off the last valuation
    unfold StableHlo.held
    iintro ⟨Hbufs, HSI⟩
    ihave Hr := (pointsTo_read_all (Pipeline.ucRefs τ sig) (fun b => ((c : Thread nD τ).1, b)) (V10 m outs c) s') $$ [Hbufs HSI]
    · isplitl [Hbufs] <;> iassumption
    icases Hr with ⟨%hread, HSI⟩
    imodintro
    isplitr
    · ipureintro
      exact ⟨hread (Proc.devRef .tc main_v127) (mem_unscoped main_v127 (by decide)),
        (hread (Proc.devRef .tc main_arg0) (mem_unscoped main_arg0 (by decide))).trans (V10_main_arg0 m outs c),
        (hread (Proc.devRef .tc main_arg1) (mem_unscoped main_arg1 (by decide))).trans (V10_main_arg1 m outs c),
        (hread (Proc.devRef .tc main_arg2) (mem_unscoped main_arg2 (by decide))).trans (V10_main_arg2 m outs c),
        (hread (Proc.devRef .tc main_arg3) (mem_unscoped main_arg3 (by decide))).trans (V10_main_arg3 m outs c),
        (hread (Proc.devRef .tc main_arg4) (mem_unscoped main_arg4 (by decide))).trans (V10_main_arg4 m outs c),
        (hread (Proc.devRef .tc main_arg5) (mem_unscoped main_arg5 (by decide))).trans (V10_main_arg5 m outs c),
        (hread (Proc.devRef .tc main_arg6) (mem_unscoped main_arg6 (by decide))).trans (V10_main_arg6 m outs c),
        (hread (Proc.devRef .tc main_arg7) (mem_unscoped main_arg7 (by decide))).trans (V10_main_arg7 m outs c),
        (hread (Proc.devRef .tc main_arg8) (mem_unscoped main_arg8 (by decide))).trans (V10_main_arg8 m outs c)⟩
    · iexact HSI

end Cert.Kernel.Run

end
-- ==== Proof.KI.Mm0.lean ====
import proofs.«418734_j62998580298149_1_alg».proof.Proof.Gen.KernelIdeal.Launch
import proofs.«418734_j62998580298149_1_alg».proof.Proof.Gen.KernelIdeal.Skeleton
import proofs.«418734_j62998580298149_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A projection kernel (a block of 10000 rows of the layer's input times the layer's whole weight matrix):
    what each grid point leaves in its three staging buffers, and that the kernel body does so. -/

set_option maxRecDepth 16384

noncomputable section

namespace Cert.KernelIdeal.Mm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's buffer: the product of the row block and the weights. -/
def out2 (x0 : Vec F S10000x3 .f32) (x1 : Vec F S3x24 .f32) : Vec F S10000x24 .f32 :=
  k0_pay1 x0 x1

/-- The region's proof data: inputs keep their blocks, the output holds the product. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

/-! ## The inputs are read-only

The body never stores to the row block or to the weights, so whatever the pipeline did at a point — fetched the
window, or left it because its block index stood still (the weights after the first point) — the window's current
staging buffer holds the block of that point. -/

/-- The row block's current buffer holds the rows of the point. -/
theorem rows_before (c : Dev nD) (t : Fin cfg0.N) (d) : (dat V c).before 0 t d = iblk V c 0 t :=
  ((dat V c).before_in_eq_fetched 0 rfl (fun _ => rfl) (fun _ _ _ => rfl)
    (fun s => by rw [after_0]; unfold Dat.blockOf iblk; rw [A_eq]; try rfl) t d).trans
    (by unfold Dat.fetched Dat.blockOf iblk; rw [A_eq]; try rfl)

/-- The weights' current buffer holds the weight matrix, at the first point (fetched) and at the later ones (kept). -/
theorem weights_before (c : Dev nD) (t : Fin cfg0.N) (d) : (dat V c).before 1 t d = iblk V c 1 t :=
  ((dat V c).before_in_eq_fetched 1 rfl (fun _ => rfl) (fun _ _ _ => rfl)
    (fun s => by rw [after_1]; unfold Dat.blockOf iblk; rw [A_eq]; try rfl) t d).trans
    (by unfold Dat.fetched Dat.blockOf iblk; rw [A_eq]; try rfl)

/-! ## One run of the body

Three whole-buffer loads (rows, weights, and the output buffer at whatever it holds), then one store of the product over
the whole output buffer: the inputs are left as read, and the output buffer reads as the product, the store's
rectangle being the whole shape at offset zero. -/

/-- The store's offsets are all zero. -/
theorem origin2 : (![0, 0] : Fin 2 → Nat) = fun _ => 0 := by
  funext a; fin_cases a <;> rfl

/-- A store through the whole-shape rectangle reaches every index of the output buffer, whatever it stores. -/
theorem whole_store_covers (w : Vec F S10000x24 .f32) (y : S10000x24.Idx) :
    ∃ pc ∈ ([⟨Rect.unit (s := S10000x24) ![0, 0] S10000x24.size inb_S10000x24_S10000x24_0_0, w⟩] :
      List (View.Piece (Elt F) S10000x24 .f32)), y ∈ pc.1.set :=
  ⟨_, List.mem_singleton_self _, View.mem_set_unit_zero (S := S10000x24) origin2 inb_S10000x24_S10000x24_0_0 y⟩

set_option maxHeartbeats 1000000 in
/-- The body on whole buffers: rows at `x0`, weights at `x1`, output at anything, runs to the continuation with the
    inputs as they were and the output at the product `out2 x0 x1`. -/
theorem product_stored (c : Dev nD) (E : Set ℕ) (i : grid0.Coords)
    (rows : Memref sig .tc .vmem S10000x3 .f32) (hrows : rows.IsWhole)
    (wts : Memref sig .tc .vmem S3x24 .f32) (hwts : wts.IsWhole)
    (dst : Memref sig .tc .vmem S10000x24 .f32) (hdst : dst.IsWhole)
    (x0 : Vec F S10000x3 .f32) (x1 : Vec F S3x24 .f32) (K : PUnit → sProp 𝕄) :
    iprop(owns (c : Thread nD τ) rows fullShare x0 ∗ owns (c : Thread nD τ) wts fullShare x1
        ∗ (∃ d, owns (c : Thread nD τ) dst fullShare d)
        ∗ (iprop(owns (c : Thread nD τ) rows fullShare x0 ∗ owns (c : Thread nD τ) wts fullShare x1
            ∗ owns (c : Thread nD τ) dst fullShare (out2 x0 x1)) -∗ K ⟨⟩))
      ⊢ wp frame (wpE (defs₀ (F := F)) Variants.none c none) E (cc0__matmul_kernel i rows hrows wts hwts dst hdst) K := by
  simp only [cc0__matmul_kernel_eq_skeleton]; unfold cc0__matmul_kernel_skel
  unfold owns
  iintro ⟨⟨%fr, %hfr, Hr⟩, ⟨%fw, %hfw, Hw⟩, ⟨%d, %fd, -, Hd⟩, Hk⟩
  subst hfr; subst hfw
  sl_exec
  sl_step
  iapply Hk
  isplitl [Hr]
  · iexists fr; isplitr; · ipureintro; rfl
    iexact Hr
  isplitl [Hw]
  · iexists fw; isplitr; · ipureintro; rfl
    iexact Hw
  iexists _; isplitr
  swap; · iexact Hd
  ipureintro
  rw [View.read_writes_eq_canon _ _ _ (whole_store_covers _), View.canon_unit_zero origin2]
  simp only [View.readAt_eq_ld, View.ld_unit_zero (S := S10000x3) origin2, View.ld_unit_zero (S := S3x24) origin2]
  rfl

/-! ## The obligation at a grid point -/

/-- What the pipeline hands the body at point `t`: the invariant, what the core owes, and each window's current buffer. -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What it takes back from the body. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- At any point the two input buffers hold their blocks, so the run above applies with the rows and the weights of
    that point; the invariant and what the core owes are not touched. -/
theorem body_at (c : Dev nD) (t : Fin cfg0.N) :
    handed V c t ⊢ wp frame (wpE (defs₀ (F := F)) Variants.none c none) Set.univ (bodyAt0 t) (fun _ => returned V c t) := by
  unfold handed returned bodyAt0
  simp only [rows_before, weights_before]
  rw [show (dat V c).Φ t.succ = (dat V c).Φ t.castSucc from rfl,
    show (dat V c).owesAt () t.succ = (dat V c).owesAt () t.castSucc from rfl,
    after_0, after_1, after_2]
  iintro ⟨HΦ, Ho, ⟨%d0, Hrows⟩, ⟨%d1, Hwts⟩, ⟨%d2, Hdst⟩⟩
  iapply (product_stored c Set.univ _ _ _ _ _ _ _ (iblk V c 0 t) (iblk V c 1 t) _)
  isplitl [Hrows]; · iexact Hrows
  isplitl [Hwts]; · iexact Hwts
  isplitl [Hdst]; · iexists _; iexact Hdst
  iintro ⟨Hrows, Hwts, Hdst⟩
  isplitl [HΦ]; · iexact HΦ
  isplitl [Ho]; · iexact Ho
  isplitl [Hrows]; · iexact Hrows
  isplitl [Hwts]; · iexact Hwts
  iexact Hdst

/-- The kernel body meets the pipeline's obligation at every grid point. -/
theorem body_obligation (c : Dev nD) : BodyObligation (dat (F := F) V c) (defs₀ (F := F)) Variants.none () Set.univ := by
  intro t
  rw [bigSep_W0, bigSep_W0]
  exact body_at V c t

end Cert.KernelIdeal.Mm0

end
-- ==== Proof.KI.Mm1.lean ====
import proofs.«418734_j62998580298149_1_alg».proof.Proof.Gen.KernelIdeal.Launch
import proofs.«418734_j62998580298149_1_alg».proof.Proof.Gen.KernelIdeal.Skeleton
import proofs.«418734_j62998580298149_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A projection kernel (a block of 10000 rows of the layer's input times the layer's whole weight matrix):
    what each grid point leaves in its three staging buffers, and that the kernel body does so. -/

set_option maxRecDepth 16384

noncomputable section

namespace Cert.KernelIdeal.Mm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's buffer: the product of the row block and the weights. -/
def out2 (x0 : Vec F S10000x24 .f32) (x1 : Vec F S24x48 .f32) : Vec F S10000x48 .f32 :=
  k1_pay1 x0 x1

/-- The region's proof data: inputs keep their blocks, the output holds the product. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out2 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out2 (iblk V c 0 t) (iblk V c 1 t) := by dsimp only [dat]

/-! ## The inputs are read-only

The body never stores to the row block or to the weights, so whatever the pipeline did at a point — fetched the
window, or left it because its block index stood still (the weights after the first point) — the window's current
staging buffer holds the block of that point. -/

/-- The row block's current buffer holds the rows of the point. -/
theorem rows_before (c : Dev nD) (t : Fin cfg1.N) (d) : (dat V c).before 0 t d = iblk V c 0 t :=
  ((dat V c).before_in_eq_fetched 0 rfl (fun _ => rfl) (fun _ _ _ => rfl)
    (fun s => by rw [after_0]; unfold Dat.blockOf iblk; rw [A_eq]; try rfl) t d).trans
    (by unfold Dat.fetched Dat.blockOf iblk; rw [A_eq]; try rfl)

/-- The weights' current buffer holds the weight matrix, at the first point (fetched) and at the later ones (kept). -/
theorem weights_before (c : Dev nD) (t : Fin cfg1.N) (d) : (dat V c).before 1 t d = iblk V c 1 t :=
  ((dat V c).before_in_eq_fetched 1 rfl (fun _ => rfl) (fun _ _ _ => rfl)
    (fun s => by rw [after_1]; unfold Dat.blockOf iblk; rw [A_eq]; try rfl) t d).trans
    (by unfold Dat.fetched Dat.blockOf iblk; rw [A_eq]; try rfl)

/-! ## One run of the body

Three whole-buffer loads (rows, weights, and the output buffer at whatever it holds), then one store of the product over
the whole output buffer: the inputs are left as read, and the output buffer reads as the product, the store's
rectangle being the whole shape at offset zero. -/

/-- The store's offsets are all zero. -/
theorem origin2 : (![0, 0] : Fin 2 → Nat) = fun _ => 0 := by
  funext a; fin_cases a <;> rfl

/-- A store through the whole-shape rectangle reaches every index of the output buffer, whatever it stores. -/
theorem whole_store_covers (w : Vec F S10000x48 .f32) (y : S10000x48.Idx) :
    ∃ pc ∈ ([⟨Rect.unit (s := S10000x48) ![0, 0] S10000x48.size inb_S10000x48_S10000x48_0_0, w⟩] :
      List (View.Piece (Elt F) S10000x48 .f32)), y ∈ pc.1.set :=
  ⟨_, List.mem_singleton_self _, View.mem_set_unit_zero (S := S10000x48) origin2 inb_S10000x48_S10000x48_0_0 y⟩

set_option maxHeartbeats 1000000 in
/-- The body on whole buffers: rows at `x0`, weights at `x1`, output at anything, runs to the continuation with the
    inputs as they were and the output at the product `out2 x0 x1`. -/
theorem product_stored (c : Dev nD) (E : Set ℕ) (i : grid1.Coords)
    (rows : Memref sig .tc .vmem S10000x24 .f32) (hrows : rows.IsWhole)
    (wts : Memref sig .tc .vmem S24x48 .f32) (hwts : wts.IsWhole)
    (dst : Memref sig .tc .vmem S10000x48 .f32) (hdst : dst.IsWhole)
    (x0 : Vec F S10000x24 .f32) (x1 : Vec F S24x48 .f32) (K : PUnit → sProp 𝕄) :
    iprop(owns (c : Thread nD τ) rows fullShare x0 ∗ owns (c : Thread nD τ) wts fullShare x1
        ∗ (∃ d, owns (c : Thread nD τ) dst fullShare d)
        ∗ (iprop(owns (c : Thread nD τ) rows fullShare x0 ∗ owns (c : Thread nD τ) wts fullShare x1
            ∗ owns (c : Thread nD τ) dst fullShare (out2 x0 x1)) -∗ K ⟨⟩))
      ⊢ wp frame (wpE (defs₀ (F := F)) Variants.none c none) E (cc1__matmul_kernel i rows hrows wts hwts dst hdst) K := by
  simp only [cc1__matmul_kernel_eq_skeleton]; unfold cc1__matmul_kernel_skel
  unfold owns
  iintro ⟨⟨%fr, %hfr, Hr⟩, ⟨%fw, %hfw, Hw⟩, ⟨%d, %fd, -, Hd⟩, Hk⟩
  subst hfr; subst hfw
  sl_exec
  sl_step
  iapply Hk
  isplitl [Hr]
  · iexists fr; isplitr; · ipureintro; rfl
    iexact Hr
  isplitl [Hw]
  · iexists fw; isplitr; · ipureintro; rfl
    iexact Hw
  iexists _; isplitr
  swap; · iexact Hd
  ipureintro
  rw [View.read_writes_eq_canon _ _ _ (whole_store_covers _), View.canon_unit_zero origin2]
  simp only [View.readAt_eq_ld, View.ld_unit_zero (S := S10000x24) origin2, View.ld_unit_zero (S := S24x48) origin2]
  rfl

/-! ## The obligation at a grid point -/

/-- What the pipeline hands the body at point `t`: the invariant, what the core owes, and each window's current buffer. -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- What it takes back from the body. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- At any point the two input buffers hold their blocks, so the run above applies with the rows and the weights of
    that point; the invariant and what the core owes are not touched. -/
theorem body_at (c : Dev nD) (t : Fin cfg1.N) :
    handed V c t ⊢ wp frame (wpE (defs₀ (F := F)) Variants.none c none) Set.univ (bodyAt1 t) (fun _ => returned V c t) := by
  unfold handed returned bodyAt1
  simp only [rows_before, weights_before]
  rw [show (dat V c).Φ t.succ = (dat V c).Φ t.castSucc from rfl,
    show (dat V c).owesAt () t.succ = (dat V c).owesAt () t.castSucc from rfl,
    after_0, after_1, after_2]
  iintro ⟨HΦ, Ho, ⟨%d0, Hrows⟩, ⟨%d1, Hwts⟩, ⟨%d2, Hdst⟩⟩
  iapply (product_stored c Set.univ _ _ _ _ _ _ _ (iblk V c 0 t) (iblk V c 1 t) _)
  isplitl [Hrows]; · iexact Hrows
  isplitl [Hwts]; · iexact Hwts
  isplitl [Hdst]; · iexists _; iexact Hdst
  iintro ⟨Hrows, Hwts, Hdst⟩
  isplitl [HΦ]; · iexact HΦ
  isplitl [Ho]; · iexact Ho
  isplitl [Hrows]; · iexact Hrows
  isplitl [Hwts]; · iexact Hwts
  iexact Hdst

/-- The kernel body meets the pipeline's obligation at every grid point. -/
theorem body_obligation (c : Dev nD) : BodyObligation (dat (F := F) V c) (defs₀ (F := F)) Variants.none () Set.univ := by
  intro t
  rw [bigSep_W1, bigSep_W1]
  exact body_at V c t

end Cert.KernelIdeal.Mm1

end
-- ==== Proof.KI.Mm2.lean ====
import proofs.«418734_j62998580298149_1_alg».proof.Proof.Gen.KernelIdeal.Launch
import proofs.«418734_j62998580298149_1_alg».proof.Proof.Gen.KernelIdeal.Skeleton
import proofs.«418734_j62998580298149_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A projection kernel (a block of 10000 rows of the layer's input times the layer's whole weight matrix):
    what each grid point leaves in its three staging buffers, and that the kernel body does so. -/

set_option maxRecDepth 16384

noncomputable section

namespace Cert.KernelIdeal.Mm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output window's buffer: the product of the row block and the weights. -/
def out2 (x0 : Vec F S10000x48 .f32) (x1 : Vec F S48x192 .f32) : Vec F S10000x192 .f32 :=
  k2_pay1 x0 x1

/-- The region's proof data: inputs keep their blocks, the output holds the product. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out2 (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out2 (iblk V c 0 t) (iblk V c 1 t) := by dsimp only [dat]

/-! ## The inputs are read-only

The body never stores to the row block or to the weights, so whatever the pipeline did at a point — fetched the
window, or left it because its block index stood still (the weights after the first point) — the window's current
staging buffer holds the block of that point. -/

/-- The row block's current buffer holds the rows of the point. -/
theorem rows_before (c : Dev nD) (t : Fin cfg2.N) (d) : (dat V c).before 0 t d = iblk V c 0 t :=
  ((dat V c).before_in_eq_fetched 0 rfl (fun _ => rfl) (fun _ _ _ => rfl)
    (fun s => by rw [after_0]; unfold Dat.blockOf iblk; rw [A_eq]; try rfl) t d).trans
    (by unfold Dat.fetched Dat.blockOf iblk; rw [A_eq]; try rfl)

/-- The weights' current buffer holds the weight matrix, at the first point (fetched) and at the later ones (kept). -/
theorem weights_before (c : Dev nD) (t : Fin cfg2.N) (d) : (dat V c).before 1 t d = iblk V c 1 t :=
  ((dat V c).before_in_eq_fetched 1 rfl (fun _ => rfl) (fun _ _ _ => rfl)
    (fun s => by rw [after_1]; unfold Dat.blockOf iblk; rw [A_eq]; try rfl) t d).trans
    (by unfold Dat.fetched Dat.blockOf iblk; rw [A_eq]; try rfl)

/-! ## One run of the body

Three whole-buffer loads (rows, weights, and the output buffer at whatever it holds), then one store of the product over
the whole output buffer: the inputs are left as read, and the output buffer reads as the product, the store's
rectangle being the whole shape at offset zero. -/

/-- The store's offsets are all zero. -/
theorem origin2 : (![0, 0] : Fin 2 → Nat) = fun _ => 0 := by
  funext a; fin_cases a <;> rfl

/-- A store through the whole-shape rectangle reaches every index of the output buffer, whatever it stores. -/
theorem whole_store_covers (w : Vec F S10000x192 .f32) (y : S10000x192.Idx) :
    ∃ pc ∈ ([⟨Rect.unit (s := S10000x192) ![0, 0] S10000x192.size inb_S10000x192_S10000x192_0_0, w⟩] :
      List (View.Piece (Elt F) S10000x192 .f32)), y ∈ pc.1.set :=
  ⟨_, List.mem_singleton_self _, View.mem_set_unit_zero (S := S10000x192) origin2 inb_S10000x192_S10000x192_0_0 y⟩

set_option maxHeartbeats 1000000 in
/-- The body on whole buffers: rows at `x0`, weights at `x1`, output at anything, runs to the continuation with the
    inputs as they were and the output at the product `out2 x0 x1`. -/
theorem product_stored (c : Dev nD) (E : Set ℕ) (i : grid2.Coords)
    (rows : Memref sig .tc .vmem S10000x48 .f32) (hrows : rows.IsWhole)
    (wts : Memref sig .tc .vmem S48x192 .f32) (hwts : wts.IsWhole)
    (dst : Memref sig .tc .vmem S10000x192 .f32) (hdst : dst.IsWhole)
    (x0 : Vec F S10000x48 .f32) (x1 : Vec F S48x192 .f32) (K : PUnit → sProp 𝕄) :
    iprop(owns (c : Thread nD τ) rows fullShare x0 ∗ owns (c : Thread nD τ) wts fullShare x1
        ∗ (∃ d, owns (c : Thread nD τ) dst fullShare d)
        ∗ (iprop(owns (c : Thread nD τ) rows fullShare x0 ∗ owns (c : Thread nD τ) wts fullShare x1
            ∗ owns (c : Thread nD τ) dst fullShare (out2 x0 x1)) -∗ K ⟨⟩))
      ⊢ wp frame (wpE (defs₀ (F := F)) Variants.none c none) E (cc2__matmul_kernel i rows hrows wts hwts dst hdst) K := by
  simp only [cc2__matmul_kernel_eq_skeleton]; unfold cc2__matmul_kernel_skel
  unfold owns
  iintro ⟨⟨%fr, %hfr, Hr⟩, ⟨%fw, %hfw, Hw⟩, ⟨%d, %fd, -, Hd⟩, Hk⟩
  subst hfr; subst hfw
  sl_exec
  sl_step
  iapply Hk
  isplitl [Hr]
  · iexists fr; isplitr; · ipureintro; rfl
    iexact Hr
  isplitl [Hw]
  · iexists fw; isplitr; · ipureintro; rfl
    iexact Hw
  iexists _; isplitr
  swap; · iexact Hd
  ipureintro
  rw [View.read_writes_eq_canon _ _ _ (whole_store_covers _), View.canon_unit_zero origin2]
  simp only [View.readAt_eq_ld, View.ld_unit_zero (S := S10000x48) origin2, View.ld_unit_zero (S := S48x192) origin2]
  rfl

/-! ## The obligation at a grid point -/

/-- What the pipeline hands the body at point `t`: the invariant, what the core owes, and each window's current buffer. -/
def handed (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- What it takes back from the body. -/
def returned (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- At any point the two input buffers hold their blocks, so the run above applies with the rows and the weights of
    that point; the invariant and what the core owes are not touched. -/
theorem body_at (c : Dev nD) (t : Fin cfg2.N) :
    handed V c t ⊢ wp frame (wpE (defs₀ (F := F)) Variants.none c none) Set.univ (bodyAt2 t) (fun _ => returned V c t) := by
  unfold handed returned bodyAt2
  simp only [rows_before, weights_before]
  rw [show (dat V c).Φ t.succ = (dat V c).Φ t.castSucc from rfl,
    show (dat V c).owesAt () t.succ = (dat V c).owesAt () t.castSucc from rfl,
    after_0, after_1, after_2]
  iintro ⟨HΦ, Ho, ⟨%d0, Hrows⟩, ⟨%d1, Hwts⟩, ⟨%d2, Hdst⟩⟩
  iapply (product_stored c Set.univ _ _ _ _ _ _ _ (iblk V c 0 t) (iblk V c 1 t) _)
  isplitl [Hrows]; · iexact Hrows
  isplitl [Hwts]; · iexact Hwts
  isplitl [Hdst]; · iexists _; iexact Hdst
  iintro ⟨Hrows, Hwts, Hdst⟩
  isplitl [HΦ]; · iexact HΦ
  isplitl [Ho]; · iexact Ho
  isplitl [Hrows]; · iexact Hrows
  isplitl [Hwts]; · iexact Hwts
  iexact Hdst

/-- The kernel body meets the pipeline's obligation at every grid point. -/
theorem body_obligation (c : Dev nD) : BodyObligation (dat (F := F) V c) (defs₀ (F := F)) Variants.none () Set.univ := by
  intro t
  rw [bigSep_W2, bigSep_W2]
  exact body_at V c t

end Cert.KernelIdeal.Mm2

end
-- ==== Proof.KI.Pool.lean ====
import proofs.«418734_j62998580298149_1_alg».proof.Proof.Gen.KernelIdeal.Launch
import proofs.«418734_j62998580298149_1_alg».proof.Proof.Gen.KernelIdeal.Skeleton
import proofs.«418734_j62998580298149_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! The pooling kernel: over five blocks of 10000 nodes it adds, into a 64×192 accumulator kept in scratch memory,
    the product of the transposed one-hot block with the feature block, and at the last block copies the accumulator
    to the output. What each grid point leaves in the staging buffers and in the accumulator, and that the body does so. -/

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's three runs -/

/-- The body's first branch is taken: the grid coordinate is zero. -/
abbrev isFirst (i : grid3.Coords) : Prop :=
  (Scalar.cmpi .ne (Scalar.extui (Scalar.cmpi .eq (BitVec.ofNat 32 (i 0).val) 0#32)) 0#32) = 1#1

/-- The first branch is taken at point 0 only. -/
theorem isFirst_iff : ∀ t : Fin cfg3.N, isFirst (grid3.coords t) ↔ t.val = 0 :=
  (by decide +kernel : ∀ t : Fin grid3.N, isFirst (grid3.coords t) ↔ t.val = 0)

/-- The last branch (the copy to the output) is taken at point 4 only. -/
theorem isLast_iff : ∀ t : Fin cfg3.N, k3_cond2 (grid3.coords t) = 1#1 ↔ t.val = 4 :=
  (by decide +kernel : ∀ t : Fin grid3.N, k3_cond2 (grid3.coords t) = 1#1 ↔ t.val = 4)

/-- The zero offsets of a whole-rectangle access, as the constant function. -/
theorem zero_offsets : (![0, 0] : Fin 2 → Nat) = fun _ => 0 := funext fun a => by fin_cases a <;> rfl

/-- A list of stores whose last is over the whole 64×192 rectangle covers every index. -/
theorem whole_store_covers (w : S64x192.Idx → Elt F .f32) (L : List (View.Piece (Elt F) S64x192 .f32)) (y : S64x192.Idx) :
    ∃ p ∈ ((⟨Rect.unit ![0, 0] S64x192.size inb_S64x192_S64x192_0_0, w⟩ : View.Piece (Elt F) S64x192 .f32) :: L), y ∈ p.1.set :=
  ⟨_, List.mem_cons_self, View.mem_set_unit_zero zero_offsets inb_S64x192_S64x192_0_0 y⟩

set_option maxHeartbeats 1000000 in
/-- A middle point: the accumulator at `a` becomes `a` plus this block's product; nothing else changes. -/
theorem run_mid (c : Dev nD) (i : grid3.Coords)
    (arg1 : Memref sig .tc .vmem S10000x64 .bf16) (harg1 : arg1.IsWhole)
    (arg2 : Memref sig .tc .vmem S10000x192 .f32) (harg2 : arg2.IsWhole)
    (arg3 : Memref sig .tc .vmem S64x192 .f32) (harg3 : arg3.IsWhole)
    (arg4 : Memref sig .tc .vmem S64x192 .f32) (harg4 : arg4.IsWhole)
    (hc0 : ¬isFirst i) (hc1 : ¬k3_cond2 i = 1#1)
    (x0 : Vec F S10000x64 .bf16) (x1 : Vec F S10000x192 .f32) (xi : Vec F S64x192 .f32) (a : Vec F S64x192 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare a
        ∗ (iprop(owns (c : Thread nD τ) arg1 fullShare x0 ∗ owns (c : Thread nD τ) arg2 fullShare x1
            ∗ owns (c : Thread nD τ) arg3 fullShare xi ∗ owns (c : Thread nD τ) arg4 fullShare (k3_pay2 x0 x1 a)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [View.read_writes_eq_canon _ _ _ (whole_store_covers _ _),
    View.canon_unit_zero zero_offsets]
  simp only [View.readAt_eq_ld, hf0, hf1, hf3, View.ld_unit_zero (S := S10000x64) zero_offsets,
    View.ld_unit_zero (S := S10000x192) zero_offsets, View.ld_unit_zero (S := S64x192) zero_offsets]

set_option maxHeartbeats 1000000 in
/-- The first point: whatever the accumulator held, it ends at zero plus this block's product. -/
theorem run_first (c : Dev nD) (i : grid3.Coords)
    (arg1 : Memref sig .tc .vmem S10000x64 .bf16) (harg1 : arg1.IsWhole)
    (arg2 : Memref sig .tc .vmem S10000x192 .f32) (harg2 : arg2.IsWhole)
    (arg3 : Memref sig .tc .vmem S64x192 .f32) (harg3 : arg3.IsWhole)
    (arg4 : Memref sig .tc .vmem S64x192 .f32) (harg4 : arg4.IsWhole)
    (hc0 : isFirst i) (hc1 : ¬k3_cond2 i = 1#1)
    (x0 : Vec F S10000x64 .bf16) (x1 : Vec F S10000x192 .f32) (xi : Vec F S64x192 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ (∃ a, owns (c : Thread nD τ) arg4 fullShare a)
        ∗ (iprop(owns (c : Thread nD τ) arg1 fullShare x0 ∗ owns (c : Thread nD τ) arg2 fullShare x1
            ∗ owns (c : Thread nD τ) arg3 fullShare xi ∗ owns (c : Thread nD τ) arg4 fullShare (k3_pay2 x0 x1 (k3_pay1 (F := F)))) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%a, %f3, -, H3⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  sl_unfold_words
  rw [View.read_writes_eq_canon _ _ _ (whole_store_covers _ _),
    View.canon_cons_unit_zero zero_offsets]
  simp only [View.readAt_eq_ld, hf0, hf1, View.ld_unit_zero (S := S10000x64) zero_offsets,
    View.ld_unit_zero (S := S10000x192) zero_offsets, View.readCov_unit_zero (S := S64x192) _ zero_offsets]

set_option maxHeartbeats 1000000 in
/-- The last point: the accumulator at `a` becomes `a` plus this block's product, and the output buffer receives it. -/
theorem run_last (c : Dev nD) (i : grid3.Coords)
    (arg1 : Memref sig .tc .vmem S10000x64 .bf16) (harg1 : arg1.IsWhole)
    (arg2 : Memref sig .tc .vmem S10000x192 .f32) (harg2 : arg2.IsWhole)
    (arg3 : Memref sig .tc .vmem S64x192 .f32) (harg3 : arg3.IsWhole)
    (arg4 : Memref sig .tc .vmem S64x192 .f32) (harg4 : arg4.IsWhole)
    (hc0 : ¬isFirst i) (hc1 : k3_cond2 i = 1#1)
    (x0 : Vec F S10000x64 .bf16) (x1 : Vec F S10000x192 .f32) (a : Vec F S64x192 .f32)
    (E : Set ℕ) (K : PUnit → sProp 𝕄) :
    iprop(owns (c : Thread nD τ) arg1 fullShare x0 ∗ owns (c : Thread nD τ) arg2 fullShare x1
        ∗ (∃ xi, owns (c : Thread nD τ) arg3 fullShare xi) ∗ owns (c : Thread nD τ) arg4 fullShare a
        ∗ (iprop(owns (c : Thread nD τ) arg1 fullShare x0 ∗ owns (c : Thread nD τ) arg2 fullShare x1
            ∗ owns (c : Thread nD τ) arg3 fullShare (k3_pay2 x0 x1 a) ∗ owns (c : Thread nD τ) arg4 fullShare (k3_pay2 x0 x1 a)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%xi, %f2, -, H2⟩, ⟨%f3, %hf3, H3⟩, Hk⟩
  obtain rfl := harg1.eq_unread hf0; obtain rfl := harg2.eq_unread hf1; obtain rfl := harg4.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (whole_store_covers _ _),
      View.canon_unit_zero zero_offsets]
    simp only [View.readAt_eq_ld, hf0, hf1, hf3, View.ld_unit_zero (S := S10000x64) zero_offsets,
      View.ld_unit_zero (S := S10000x192) zero_offsets, View.ld_unit_zero (S := S64x192) zero_offsets,
      View.readCov_unit_zero (S := S64x192) _ zero_offsets]
  iexists _; isplitr
  swap; · iexact H3
  ipureintro
  sl_unfold_words
  rw [View.read_writes_eq_canon _ _ _ (whole_store_covers _ _),
    View.canon_unit_zero zero_offsets]
  simp only [View.readAt_eq_ld, hf0, hf1, hf3, View.ld_unit_zero (S := S10000x64) zero_offsets,
    View.ld_unit_zero (S := S10000x192) zero_offsets, View.ld_unit_zero (S := S64x192) zero_offsets]

-- the buffers' contents when the region is entered
variable (V : (c : Dev nD) → (b : Ref sig .tc) → Buf (Elt F) ((c : Thread nD τ).loc b))

/-- Window `w`'s block at grid point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after grid point `n`: zero plus the first block's product at the first point, afterwards the
    previous accumulator plus this block's product. -/
def accAt (c : Dev nD) : (n : ℕ) → n < cfg3.N → Vec F S64x192 .f32
  | 0, h => k3_pay2 (iblk V c 0 ⟨0, h⟩) (iblk V c 1 ⟨0, h⟩) (k3_pay1 (F := F))
  | n + 1, h => k3_pay2 (iblk V c 0 ⟨n + 1, h⟩) (iblk V c 1 ⟨n + 1, h⟩) (accAt c n (Nat.lt_of_succ_lt h))

/-- The accumulator's memref: the kernel's one scratch buffer, whole. -/
abbrev scM : Memref sig .tc .vmem S64x192 .f32 := Memref.whole cc3_scratch0

/-- The core's scoped buffers other than this region's staging buffers and the accumulator, each at some contents. -/
def restNoAcc (c : Dev nD) : sProp 𝕄 :=
  bigSep (((Finset.univ.filter fun b : Ref sig .tc => b.isScoped) \ Finset.univ.image (Pipeline.stageRef spec3)).erase cc3_scratch0)
    fun b => iprop(∃ f : Buf (Elt F) ((c.tc : Thread nD τ).loc b), ((c.tc : Thread nD τ).loc b) ↦{fullShare} f)

/-- The invariant before grid point `n`: at the first point every scratch at anything; later the accumulator at what
    the point before left, the other scoped buffers at anything, the generator register at some state. -/
def PhiS (c : Dev nD) : (n : ℕ) → n ≤ cfg3.N → sProp 𝕄
  | 0, _ => Pipeline.ΦA spec3 c
  | n + 1, hn => iprop(restNoAcc (F := F) c ∗ owns (c : Thread nD τ) scM fullShare (accAt V c n hn) ∗ (∃ r, prngReg c r))

/-- The region's proof data: inputs keep their blocks; the output window holds the accumulator (read only at the last
    point, the one that stores it); the invariant carries the accumulator between points. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => accAt V c t.val t.isLt
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = accAt V c t.val t.isLt := by dsimp only [dat]

/-! ## The invariant, point by point -/

/-- The accumulator is one of the core's scoped buffers and no staging buffer of this region. -/
theorem acc_mem : cc3_scratch0 ∈ (Finset.univ.filter fun b : Ref sig .tc => b.isScoped) \ Finset.univ.image (Pipeline.stageRef spec3) := by
  decide

/-- The scoped rest is the accumulator at some contents and the other scoped buffers. -/
theorem scopedRest_split (c : Dev nD) :
    (Pipeline.scopedRest (Ix := Unit) (Name := ℕ) (U := UR sig nD τ) (Lvl := ℕ) (Val := Elt F) spec3 c : sProp 𝕄)
      = iprop((∃ a, owns (c : Thread nD τ) scM fullShare a) ∗ restNoAcc (F := F) c) := by
  unfold Pipeline.scopedRest restNoAcc
  rw [bigSep_erase acc_mem]
  simp only [scM, owns_whole]
  try rfl

/-- The class invariant with the accumulator split out. -/
theorem classInv_split (c : Dev nD) :
    (Pipeline.ΦA spec3 c : sProp 𝕄)
      = iprop(((∃ a, owns (c : Thread nD τ) scM fullShare a) ∗ restNoAcc (F := F) c) ∗ (∃ r, prngReg c r)) := by
  unfold Pipeline.ΦA; rw [scopedRest_split]

/-- Before the first point: the class invariant. -/
theorem PhiS_start (c : Dev nD) (n : ℕ) (h : n ≤ cfg3.N) (hz : n = 0) : PhiS V c n h = Pipeline.ΦA spec3 c := by
  subst hz; rfl

/-- After point `n`: the accumulator at that point's sum. -/
theorem PhiS_after (c : Dev nD) (n : ℕ) (hn : n < cfg3.N) :
    PhiS V c (n + 1) hn
      = iprop(restNoAcc (F := F) c ∗ owns (c : Thread nD τ) scM fullShare (accAt V c n hn) ∗ (∃ r, prngReg c r)) := rfl

/-- Before a point that is not the first: the accumulator at the previous point's sum. -/
theorem PhiS_before (c : Dev nD) (n : ℕ) (h : n ≤ cfg3.N) (hz : n ≠ 0) :
    PhiS V c n h
      = iprop(restNoAcc (F := F) c ∗ owns (c : Thread nD τ) scM fullShare (accAt V c (n - 1) (by omega)) ∗ (∃ r, prngReg c r)) := by
  cases n with
  | zero => exact absurd rfl hz
  | succ n => rfl

/-- The invariant at a point's start, restated at the point's position. -/
theorem Phi_at (c : Dev nD) (t : Fin cfg3.N) :
    (dat V c).Φ t.castSucc = PhiS V c t.val (Nat.le_of_lt t.isLt) := by
  dsimp only [dat]; simp only [Fin.coe_castSucc]

/-- The sum after the first point: zero plus the first block's product. -/
theorem accAt_first (c : Dev nD) (t : Fin cfg3.N) (h : t.val = 0) :
    accAt V c t.val t.isLt = k3_pay2 (iblk V c 0 t) (iblk V c 1 t) (k3_pay1 (F := F)) := by
  obtain ⟨n, hn⟩ := t
  cases n with
  | zero => rfl
  | succ n => exact absurd h (Nat.succ_ne_zero n)

/-- The sum after a later point: the previous sum plus this block's product. -/
theorem accAt_later (c : Dev nD) (t : Fin cfg3.N) (h : t.val ≠ 0) :
    accAt V c t.val t.isLt
      = k3_pay2 (iblk V c 0 t) (iblk V c 1 t) (accAt V c (t.val - 1) (Nat.lt_of_le_of_lt (Nat.sub_le _ _) t.isLt)) := by
  obtain ⟨n, hn⟩ := t
  cases n with
  | zero => exact absurd rfl h
  | succ n => rfl

/-! ## The windows' buffers before and after the body -/

/-- Each input's current staging buffer holds its block at every point, fetched there or not. -/
theorem before_0 (c : Dev nD) (t : Fin cfg3.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg3.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The inputs are left at their blocks. -/
theorem leaves_0 (c : Dev nD) (t : Fin cfg3.N) :
    (dat V c).leavesExact 0 t = owns (c : Thread nD τ) (win3_0.stage (cfg3.slots t 0)) fullShare (iblk V c 0 t) := by
  unfold Dat.leavesExact; rw [show cfg3.idle 0 (cfg3.grid.coords t) = false from rfl, after_0]

theorem leaves_1 (c : Dev nD) (t : Fin cfg3.N) :
    (dat V c).leavesExact 1 t = owns (c : Thread nD τ) (win3_1.stage (cfg3.slots t 1)) fullShare (iblk V c 1 t) := by
  unfold Dat.leavesExact; rw [show cfg3.idle 1 (cfg3.grid.coords t) = false from rfl, after_1]

/-- Where the copy to the output is not taken, the output window is idle and not written back: handed back as found. -/
theorem leaves_2_idle (c : Dev nD) (t : Fin cfg3.N) (h : ¬k3_cond2 (grid3.coords t) = 1#1) :
    (dat V c).leavesExact 2 t
      = iprop(∃ d, owns (c : Thread nD τ) (win3_2.stage (cfg3.slots t 2)) fullShare ((dat V c).before 2 t d)) := by
  have hi : cfg3.idle 2 (cfg3.grid.coords t) = true := by
    show (!(k3_cond2 (grid3.coords t) == 1#1)) = true
    simp only [Bool.not_eq_true', beq_eq_false_iff_ne, ne_eq]; exact h
  have hf : (cfg3.win 2).flush t = false := by
    have hN : t.val < 5 := lt_of_lt_of_eq t.isLt N_3
    have := flush3_2 t
    have h4 : ¬t.val = 4 := fun e => h ((isLast_iff t).mpr e)
    cases hfl : (cfg3.win 2).flush t with
    | false => rfl
    | true => exact absurd (this.mp hfl) (by omega)
  exact Dat.leavesExact_idle (dat V c) 2 t hi hf

/-- Where it is taken, the output buffer is left at the accumulated sum. -/
theorem leaves_2_last (c : Dev nD) (t : Fin cfg3.N) (h : k3_cond2 (grid3.coords t) = 1#1) :
    (dat V c).leavesExact 2 t
      = owns (c : Thread nD τ) (win3_2.stage (cfg3.slots t 2)) fullShare (accAt V c t.val t.isLt) := by
  have hi : cfg3.idle 2 (cfg3.grid.coords t) = false := by
    show (!(k3_cond2 (grid3.coords t) == 1#1)) = false
    rw [h]; rfl
  unfold Dat.leavesExact; rw [hi, after_2]

/-! ## The body obligation at a point -/

/-- What the body is called with at point `t`, the windows one by one, -/
def handed (c : Dev nD) (t : Fin cfg3.N) : sProp 𝕄 :=
  iprop((dat V c).Φ t.castSucc ∗ (dat V c).owesAt () t.castSucc
    ∗ (∃ d, owns (c : Thread nD τ) (win3_0.stage (cfg3.slots t 0)) fullShare ((dat V c).before 0 t d))
    ∗ (∃ d, owns (c : Thread nD τ) (win3_1.stage (cfg3.slots t 1)) fullShare ((dat V c).before 1 t d))
    ∗ (∃ d, owns (c : Thread nD τ) (win3_2.stage (cfg3.slots t 2)) fullShare ((dat V c).before 2 t d)))

/-- and what it returns. -/
def returned (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the position says which of the three cases the point is
    in; the invariant hands the body the accumulator (at anything at the first point, at the previous sum later) and takes
    it back at this point's sum, the other scoped buffers and the generator register riding along untouched. -/
theorem body_at (c : Dev nD) (t : Fin cfg3.N) :
    handed V c t ⊢ wp frame (wpE (defs₀ (F := F)) Variants.none c none) Set.univ (bodyAt3 t) (fun _ => returned V c t) := by
  unfold handed returned bodyAt3
  simp only [before_0, before_1]
  rw [show (dat V c).owesAt () t.succ = (dat V c).owesAt () t.castSucc from rfl]
  rw [show (dat V c).Φ t.succ = PhiS V c (t.val + 1) t.isLt from rfl, PhiS_after]
  rw [leaves_0, leaves_1, Phi_at]
  have hN : t.val < 5 := lt_of_lt_of_eq t.isLt N_3
  by_cases h0 : t.val = 0
  · have hc0 : isFirst (grid3.coords t) := (isFirst_iff t).mpr h0
    have hc1 : ¬k3_cond2 (grid3.coords t) = 1#1 := fun h => by have := (isLast_iff t).mp h; omega
    rw [leaves_2_idle V c t hc1, PhiS_start V c _ _ h0, classInv_split, accAt_first V c t h0]
    iintro ⟨⟨⟨HS, HR⟩, Hg⟩, Ho, ⟨%d0, H0⟩, ⟨%d1, H1⟩, ⟨%d2, H2⟩⟩
    iapply (run_first c (grid3.coords t) _ _ _ _ _ _ _ _ hc0 hc1 (iblk V c 0 t) (iblk V c 1 t) ((dat V c).before 2 t d2) Set.univ _)
    isplitl [H0]; · iexact H0
    isplitl [H1]; · iexact H1
    isplitl [H2]; · iexact H2
    isplitl [HS]; · iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexists _; iexact H2
  · have hc0 : ¬isFirst (grid3.coords t) := fun h => h0 ((isFirst_iff t).mp h)
    rw [PhiS_before V c _ _ h0, accAt_later V c t h0]
    by_cases h4 : t.val = 4
    · have hc1 : k3_cond2 (grid3.coords t) = 1#1 := (isLast_iff t).mpr h4
      rw [leaves_2_last V c t hc1, accAt_later V c t h0]
      iintro ⟨⟨HR, HS, Hg⟩, Ho, ⟨%d0, H0⟩, ⟨%d1, H1⟩, ⟨%d2, H2⟩⟩
      iapply (run_last c (grid3.coords t) _ _ _ _ _ _ _ _ hc0 hc1 (iblk V c 0 t) (iblk V c 1 t)
        (accAt V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexact H2
    · have hc1 : ¬k3_cond2 (grid3.coords t) = 1#1 := fun h => h4 ((isLast_iff t).mp h)
      rw [leaves_2_idle V c t hc1]
      iintro ⟨⟨HR, HS, Hg⟩, Ho, ⟨%d0, H0⟩, ⟨%d1, H1⟩, ⟨%d2, H2⟩⟩
      iapply (run_mid c (grid3.coords t) _ _ _ _ _ _ _ _ hc0 hc1 (iblk V c 0 t) (iblk V c 1 t) ((dat V c).before 2 t d2)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2

/-- The kernel body meets the pipeline's obligation at every grid point. -/
theorem body_obligation (c : Dev nD) : BodyObligation (dat (F := F) V c) (defs₀ (F := F)) Variants.none () Set.univ := fun t => by
  rw [bigSep_W3, bigSep_W3]
  exact body_at V c t

/-- Entering the region: the class invariant is the invariant before the first point. -/
theorem hin (c : Dev nD) : Pipeline.ΦA spec3 c ⊢ (dat (F := F) V c).Φ 0 := by
  rw [show (dat V c).Φ 0 = PhiS V c 0 (Nat.zero_le _) from rfl, PhiS_start V c 0 _ rfl]

/-- Leaving the region: the invariant after the last point gives the class invariant back. -/
theorem hout (c : Dev nD) : (dat (F := F) V c).Φ (Fin.last cfg3.N) ⊢ Pipeline.ΦA spec3 c := by
  rw [show (dat V c).Φ (Fin.last cfg3.N) = PhiS V c (Fin.last cfg3.N).val (Nat.le_of_lt_succ (Fin.last cfg3.N).isLt) from rfl,
    PhiS_before V c _ _ (by rw [Fin.val_last]; have : cfg3.N = 5 := N_3; omega), classInv_split]
  iintro ⟨HR, HS, Hg⟩
  isplitl [HR HS]
  · isplitl [HS]
    · iexists _; iexact HS
    iexact HR
  iexact Hg

end Cert.KernelIdeal.Pool

end
-- ==== Proof.KI.Run.lean ====
import proofs.«418734_j62998580298149_1_alg».proof.Proof.Gen.KernelIdeal.Regions
import proofs.«418734_j62998580298149_1_alg».proof.Proof.KI.Mm0
import proofs.«418734_j62998580298149_1_alg».proof.Proof.KI.Mm1
import proofs.«418734_j62998580298149_1_alg».proof.Proof.KI.Mm2
import proofs.«418734_j62998580298149_1_alg».proof.Proof.KI.Pool
import Idealize.ShloMosaic.Lib.Pipeline.Frame
import Idealize.ShloMosaic.Lib.Pipeline.Regions
import Idealize.ShloMosaic.Lib.Pipeline.RegionsLoop
import Idealize.ShloMosaic.Lib.Pipeline.FrameSuffix

/-! The whole program's run: ten items in order (host stretch, host stretch, region, stretch, region, stretch, region,
    stretch, region, stretch). Between two items every unscoped buffer holds a named value: the launch contents carried
    through the host stretches, each region's output array replaced by what that region's pipeline leaves. Every weakly
    fair execution terminates, the nine argument arrays end as launched, and the result array ends at the last named
    value. -/

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references: what a region's proof data take. -/
abbrev rd (W : Dev nD → Valuation τ sig (Elt F)) : (c : Dev nD) → (b : Ref sig .tc) → Buf (Elt F) ((c : Thread nD τ).loc b) :=
  fun c b => W c b

/-- The contents the regions leave in their output arrays are the ones their pipelines compute, each from the
    contents the region is entered with. -/
def OutsOk (outs : Outs (F := F)) : Prop :=
  (∀ c : Dev nD, outs 3 main_v17 c = (Mm0.dat (rd (V2 m)) c).arrAt 2 cfg0.N)
  ∧ (∀ c : Dev nD, outs 5 main_v49 c = (Mm1.dat (rd (V4 m outs)) c).arrAt 2 cfg1.N)
  ∧ (∀ c : Dev nD, outs 7 main_v81 c = (Mm2.dat (rd (V6 m outs)) c).arrAt 2 cfg2.N)
  ∧ (∀ c : Dev nD, outs 9 main_v122 c = (Pool.dat (rd (V8 m outs)) c).arrAt 2 cfg3.N)

/-! ## What rides beside the buffers, and the regions' proof data -/

/-- No pair of cores owes one another anything: no level is assigned. -/
abbrev noPairs : GSem nD τ sig → Finset Unit := fun _ => ∅
abbrev levelZero : GSem nD τ sig → Unit → ℕ := fun _ _ => 0

/-- Beside the unscoped buffers a core carries, between any two items, its generator register at some state and the
    fact that it owes nothing. -/
abbrev beside (c : Dev nD) : sProp 𝕄 :=
  iprop((∃ r, prngReg c r) ∗ ∃ W, owes (c : Thread nD τ) (0 : CellTallies nD τ sig Unit) W)

/-- The same at each of the five places between a region and the next. -/
abbrev besideAt : Fin 5 → Dev nD → sProp 𝕄 := fun _ c => beside (F := F) c

/-- Every region's proof data, each at the contents its region is entered with. -/
def pdats (outs : Outs (F := F)) :
    (p : Fin 4) → (c : Dev nD) → Dat τ (Elt F) Unit ℕ (UR sig nD τ) ℕ (Pipeline.pin (pcfgs (F := F)) adm p) c
  | ⟨0, _⟩ => fun c => Mm0.dat (rd (V2 m)) c
  | ⟨1, _⟩ => fun c => Mm1.dat (rd (V4 m outs)) c
  | ⟨2, _⟩ => fun c => Mm2.dat (rd (V6 m outs)) c
  | ⟨3, _⟩ => fun c => Pool.dat (rd (V8 m outs)) c

/-- An unscoped TensorCore reference is among those the thread state holds. -/
theorem mem_unscoped (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## Region 0: the first projection -/

/-- When region 0 is left each of its arrays holds what the valuation after it says: the two inputs what they held
    (an input array ends as entered, and the update is elsewhere), the output what the pipeline computed. -/
theorem exit0_arr (outs : Outs (F := F)) (h : OutsOk m outs) (c : Dev nD) (w : Fin cfg0.W) :
    (Mm0.dat (rd (V2 m)) c).arrAt w cfg0.N = rd (V3 m outs) c (Pipeline.arrRef spec0 w) := by
  match w with
  | ⟨0, _⟩ =>
    exact ((Mm0.dat (rd (V2 m)) c).arrAt_in 0 rfl _).trans
      ((Mm0.A_eq (rd (V2 m)) c 0).trans (V3_of m outs c (Pipeline.arrRef spec0 0) (by decide)).symm)
  | ⟨1, _⟩ =>
    exact ((Mm0.dat (rd (V2 m)) c).arrAt_in 1 rfl _).trans
      ((Mm0.A_eq (rd (V2 m)) c 1).trans (V3_of m outs c (Pipeline.arrRef spec0 1) (by decide)).symm)
  | ⟨2, _⟩ =>
    refine (h.1 c).symm.trans ?_
    show outs 3 main_v17 c
      = Function.update (V2 m c) (Proc.devRef .tc main_v17 : DevRef τ sig) (outs 3 main_v17 c) (Proc.devRef .tc main_v17)
    exact (Function.update_self (Proc.devRef .tc main_v17 : DevRef τ sig) (outs 3 main_v17 c) (V2 m c)).symm

/-- Every buffer that is no array of region 0 is left as entered. -/
theorem exit0_rest (outs : Outs (F := F)) (c : Dev nD) :
    ∀ b, b ∉ Finset.univ.image (Pipeline.arrRef spec0) → rd (V3 m outs) c b = rd (V2 m) c b :=
  fun b hb => V3_of m outs c b fun hmem => hb (by
    rw [List.mem_singleton] at hmem; subst hmem
    exact Finset.mem_image.mpr ⟨2, Finset.mem_univ _, rfl⟩)

set_option backward.isDefEq.respectTransparency.types false in
/-- Region 0 as an item of the run: entered with every unscoped buffer at the valuation before it, left with them at
    the valuation after it. Its arrays are taken out of the unscoped buffers and put back at their exit contents; the
    generator register goes into the pipeline's invariant and comes back; nothing is owed throughout. -/
def reg0 (outs : Outs (F := F)) (h : OutsOk m outs) :
    RegionSeg (pcfgs (F := F)) adm (pdats m outs) () defs₀ Variants.none noPairs levelZero 0 where
  win := launch0.win.to₀
  block_pos := launch0.block_pos
  stage_whole := launch0.stage_whole
  K := PEmpty
  osem k := k.elim
  ho := Pipeline.OwnSemFacts.none _
  hbody c := (Mm0.body_obligation (rd (V2 m)) c).loose
  hwaits := Pipeline.hwaits_of_owed_zero _ _ _ _ noPairs levelZero 0 fun _ _ => rfl
  pre c := iprop(StableHlo.held (c : Thread nD τ) (Pipeline.ucRefs τ sig) (V2 m c) ∗ beside (F := F) c)
  post c := iprop(StableHlo.held (c : Thread nD τ) (Pipeline.ucRefs τ sig) (V3 m outs c) ∗ beside (F := F) c)
  X c := iprop(∃ r, prngReg c r)
  Y c := iprop(∃ r, prngReg c r)
  Z c := Pipeline.unscopedRest (Ix := Unit) (Name := ℕ) (U := UR sig nD τ) (Lvl := ℕ) spec0 c (rd (V2 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (rd (V2 m) c) fun _ => rfl
    rw [Pipeline.unscopedBufs_held] at hsplit
    iintro ⟨⟨Hbufs, Hgen, Howes⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hothers
  hin c := by
    rw [show (pdats m outs 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m outs 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (rd (V2 m) c) (rd (V3 m outs) c) ((pdats m outs 0 c).arrAt · cfg0.N) (exit0_arr m outs h c) (exit0_rest m outs c)
    rw [Pipeline.unscopedBufs_held] at hjoin
    iintro ⟨Harr, Howes, Hgen, Hothers⟩
    imodintro
    isplitl [Harr Hothers]
    · iapply hjoin; isplitl [Harr] <;> iassumption
    isplitl [Hgen]; · iexact Hgen
    unfold Pipeline.Dat.owesAt Pipeline.owesWithin
    icases Howes with ⟨%W, -, Howes⟩; iexists W; iexact Howes

/-! ## Region 1: the second projection -/

/-- When region 1 is left each of its arrays holds what the valuation after it says: the two inputs what they held
    (an input array ends as entered, and the update is elsewhere), the output what the pipeline computed. -/
theorem exit1_arr (outs : Outs (F := F)) (h : OutsOk m outs) (c : Dev nD) (w : Fin cfg1.W) :
    (Mm1.dat (rd (V4 m outs)) c).arrAt w cfg1.N = rd (V5 m outs) c (Pipeline.arrRef spec1 w) := by
  match w with
  | ⟨0, _⟩ =>
    exact ((Mm1.dat (rd (V4 m outs)) c).arrAt_in 0 rfl _).trans
      ((Mm1.A_eq (rd (V4 m outs)) c 0).trans (V5_of m outs c (Pipeline.arrRef spec1 0) (by decide)).symm)
  | ⟨1, _⟩ =>
    exact ((Mm1.dat (rd (V4 m outs)) c).arrAt_in 1 rfl _).trans
      ((Mm1.A_eq (rd (V4 m outs)) c 1).trans (V5_of m outs c (Pipeline.arrRef spec1 1) (by decide)).symm)
  | ⟨2, _⟩ =>
    refine (h.2.1 c).symm.trans ?_
    show outs 5 main_v49 c
      = Function.update (V4 m outs c) (Proc.devRef .tc main_v49 : DevRef τ sig) (outs 5 main_v49 c) (Proc.devRef .tc main_v49)
    exact (Function.update_self (Proc.devRef .tc main_v49 : DevRef τ sig) (outs 5 main_v49 c) (V4 m outs c)).symm

/-- Every buffer that is no array of region 1 is left as entered. -/
theorem exit1_rest (outs : Outs (F := F)) (c : Dev nD) :
    ∀ b, b ∉ Finset.univ.image (Pipeline.arrRef spec1) → rd (V5 m outs) c b = rd (V4 m outs) c b :=
  fun b hb => V5_of m outs c b fun hmem => hb (by
    rw [List.mem_singleton] at hmem; subst hmem
    exact Finset.mem_image.mpr ⟨2, Finset.mem_univ _, rfl⟩)

set_option backward.isDefEq.respectTransparency.types false in
/-- Region 1 as an item of the run: entered with every unscoped buffer at the valuation before it, left with them at
    the valuation after it. Its arrays are taken out of the unscoped buffers and put back at their exit contents; the
    generator register goes into the pipeline's invariant and comes back; nothing is owed throughout. -/
def reg1 (outs : Outs (F := F)) (h : OutsOk m outs) :
    RegionSeg (pcfgs (F := F)) adm (pdats m outs) () defs₀ Variants.none noPairs levelZero 1 where
  win := launch1.win.to₀
  block_pos := launch1.block_pos
  stage_whole := launch1.stage_whole
  K := PEmpty
  osem k := k.elim
  ho := Pipeline.OwnSemFacts.none _
  hbody c := (Mm1.body_obligation (rd (V4 m outs)) c).loose
  hwaits := Pipeline.hwaits_of_owed_zero _ _ _ _ noPairs levelZero 1 fun _ _ => rfl
  pre c := iprop(StableHlo.held (c : Thread nD τ) (Pipeline.ucRefs τ sig) (V4 m outs c) ∗ beside (F := F) c)
  post c := iprop(StableHlo.held (c : Thread nD τ) (Pipeline.ucRefs τ sig) (V5 m outs c) ∗ beside (F := F) c)
  X c := iprop(∃ r, prngReg c r)
  Y c := iprop(∃ r, prngReg c r)
  Z c := Pipeline.unscopedRest (Ix := Unit) (Name := ℕ) (U := UR sig nD τ) (Lvl := ℕ) spec1 c (rd (V4 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (rd (V4 m outs) c) fun _ => rfl
    rw [Pipeline.unscopedBufs_held] at hsplit
    iintro ⟨⟨Hbufs, Hgen, Howes⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hothers
  hin c := by
    rw [show (pdats m outs 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (pdats m outs 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (rd (V4 m outs) c) (rd (V5 m outs) c) ((pdats m outs 1 c).arrAt · cfg1.N) (exit1_arr m outs h c) (exit1_rest m outs c)
    rw [Pipeline.unscopedBufs_held] at hjoin
    iintro ⟨Harr, Howes, Hgen, Hothers⟩
    imodintro
    isplitl [Harr Hothers]
    · iapply hjoin; isplitl [Harr] <;> iassumption
    isplitl [Hgen]; · iexact Hgen
    unfold Pipeline.Dat.owesAt Pipeline.owesWithin
    icases Howes with ⟨%W, -, Howes⟩; iexists W; iexact Howes

/-! ## Region 2: the third projection -/

/-- When region 2 is left each of its arrays holds what the valuation after it says: the two inputs what they held
    (an input array ends as entered, and the update is elsewhere), the output what the pipeline computed. -/
theorem exit2_arr (outs : Outs (F := F)) (h : OutsOk m outs) (c : Dev nD) (w : Fin cfg2.W) :
    (Mm2.dat (rd (V6 m outs)) c).arrAt w cfg2.N = rd (V7 m outs) c (Pipeline.arrRef spec2 w) := by
  match w with
  | ⟨0, _⟩ =>
    exact ((Mm2.dat (rd (V6 m outs)) c).arrAt_in 0 rfl _).trans
      ((Mm2.A_eq (rd (V6 m outs)) c 0).trans (V7_of m outs c (Pipeline.arrRef spec2 0) (by decide)).symm)
  | ⟨1, _⟩ =>
    exact ((Mm2.dat (rd (V6 m outs)) c).arrAt_in 1 rfl _).trans
      ((Mm2.A_eq (rd (V6 m outs)) c 1).trans (V7_of m outs c (Pipeline.arrRef spec2 1) (by decide)).symm)
  | ⟨2, _⟩ =>
    refine (h.2.2.1 c).symm.trans ?_
    show outs 7 main_v81 c
      = Function.update (V6 m outs c) (Proc.devRef .tc main_v81 : DevRef τ sig) (outs 7 main_v81 c) (Proc.devRef .tc main_v81)
    exact (Function.update_self (Proc.devRef .tc main_v81 : DevRef τ sig) (outs 7 main_v81 c) (V6 m outs c)).symm

/-- Every buffer that is no array of region 2 is left as entered. -/
theorem exit2_rest (outs : Outs (F := F)) (c : Dev nD) :
    ∀ b, b ∉ Finset.univ.image (Pipeline.arrRef spec2) → rd (V7 m outs) c b = rd (V6 m outs) c b :=
  fun b hb => V7_of m outs c b fun hmem => hb (by
    rw [List.mem_singleton] at hmem; subst hmem
    exact Finset.mem_image.mpr ⟨2, Finset.mem_univ _, rfl⟩)

set_option backward.isDefEq.respectTransparency.types false in
/-- Region 2 as an item of the run: entered with every unscoped buffer at the valuation before it, left with them at
    the valuation after it. Its arrays are taken out of the unscoped buffers and put back at their exit contents; the
    generator register goes into the pipeline's invariant and comes back; nothing is owed throughout. -/
def reg2 (outs : Outs (F := F)) (h : OutsOk m outs) :
    RegionSeg (pcfgs (F := F)) adm (pdats m outs) () defs₀ Variants.none noPairs levelZero 2 where
  win := launch2.win.to₀
  block_pos := launch2.block_pos
  stage_whole := launch2.stage_whole
  K := PEmpty
  osem k := k.elim
  ho := Pipeline.OwnSemFacts.none _
  hbody c := (Mm2.body_obligation (rd (V6 m outs)) c).loose
  hwaits := Pipeline.hwaits_of_owed_zero _ _ _ _ noPairs levelZero 2 fun _ _ => rfl
  pre c := iprop(StableHlo.held (c : Thread nD τ) (Pipeline.ucRefs τ sig) (V6 m outs c) ∗ beside (F := F) c)
  post c := iprop(StableHlo.held (c : Thread nD τ) (Pipeline.ucRefs τ sig) (V7 m outs c) ∗ beside (F := F) c)
  X c := iprop(∃ r, prngReg c r)
  Y c := iprop(∃ r, prngReg c r)
  Z c := Pipeline.unscopedRest (Ix := Unit) (Name := ℕ) (U := UR sig nD τ) (Lvl := ℕ) spec2 c (rd (V6 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (rd (V6 m outs) c) fun _ => rfl
    rw [Pipeline.unscopedBufs_held] at hsplit
    iintro ⟨⟨Hbufs, Hgen, Howes⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hothers
  hin c := by
    rw [show (pdats m outs 2 c).Φ 0 = Pipeline.ΦA spec2 c from rfl]; unfold Pipeline.ΦA
    iintro ⟨Hgen, -, Hscoped⟩
    isplitl [Hscoped]; · iexact Hscoped
    iexact Hgen
  hout c := by
    rw [Pipeline.ownSems0_none, show (pdats m outs 2 c).Φ (Fin.last _) = Pipeline.ΦA spec2 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (rd (V6 m outs) c) (rd (V7 m outs) c) ((pdats m outs 2 c).arrAt · cfg2.N) (exit2_arr m outs h c) (exit2_rest m outs c)
    rw [Pipeline.unscopedBufs_held] at hjoin
    iintro ⟨Harr, Howes, Hgen, Hothers⟩
    imodintro
    isplitl [Harr Hothers]
    · iapply hjoin; isplitl [Harr] <;> iassumption
    isplitl [Hgen]; · iexact Hgen
    unfold Pipeline.Dat.owesAt Pipeline.owesWithin
    icases Howes with ⟨%W, -, Howes⟩; iexists W; iexact Howes

/-! ## Region 3: the pooling -/

/-- When region 3 is left each of its arrays holds what the valuation after it says: the two inputs what they held
    (an input array ends as entered, and the update is elsewhere), the output what the pipeline computed. -/
theorem exit3_arr (outs : Outs (F := F)) (h : OutsOk m outs) (c : Dev nD) (w : Fin cfg3.W) :
    (Pool.dat (rd (V8 m outs)) c).arrAt w cfg3.N = rd (V9 m outs) c (Pipeline.arrRef spec3 w) := by
  match w with
  | ⟨0, _⟩ =>
    exact ((Pool.dat (rd (V8 m outs)) c).arrAt_in 0 rfl _).trans
      ((Pool.A_eq (rd (V8 m outs)) c 0).trans (V9_of m outs c (Pipeline.arrRef spec3 0) (by decide)).symm)
  | ⟨1, _⟩ =>
    exact ((Pool.dat (rd (V8 m outs)) c).arrAt_in 1 rfl _).trans
      ((Pool.A_eq (rd (V8 m outs)) c 1).trans (V9_of m outs c (Pipeline.arrRef spec3 1) (by decide)).symm)
  | ⟨2, _⟩ =>
    refine (h.2.2.2 c).symm.trans ?_
    show outs 9 main_v122 c
      = Function.update (V8 m outs c) (Proc.devRef .tc main_v122 : DevRef τ sig) (outs 9 main_v122 c) (Proc.devRef .tc main_v122)
    exact (Function.update_self (Proc.devRef .tc main_v122 : DevRef τ sig) (outs 9 main_v122 c) (V8 m outs c)).symm

/-- Every buffer that is no array of region 3 is left as entered. -/
theorem exit3_rest (outs : Outs (F := F)) (c : Dev nD) :
    ∀ b, b ∉ Finset.univ.image (Pipeline.arrRef spec3) → rd (V9 m outs) c b = rd (V8 m outs) c b :=
  fun b hb => V9_of m outs c b fun hmem => hb (by
    rw [List.mem_singleton] at hmem; subst hmem
    exact Finset.mem_image.mpr ⟨2, Finset.mem_univ _, rfl⟩)

set_option backward.isDefEq.respectTransparency.types false in
/-- Region 3 as an item of the run: entered with every unscoped buffer at the valuation before it, left with them at
    the valuation after it. Its arrays are taken out of the unscoped buffers and put back at their exit contents; the
    generator register goes into the pipeline's invariant and comes back; nothing is owed throughout. -/
def reg3 (outs : Outs (F := F)) (h : OutsOk m outs) :
    RegionSeg (pcfgs (F := F)) adm (pdats m outs) () defs₀ Variants.none noPairs levelZero 3 where
  win := launch3.win.to₀
  block_pos := launch3.block_pos
  stage_whole := launch3.stage_whole
  K := PEmpty
  osem k := k.elim
  ho := Pipeline.OwnSemFacts.none _
  hbody c := (Pool.body_obligation (rd (V8 m outs)) c).loose
  hwaits := Pipeline.hwaits_of_owed_zero _ _ _ _ noPairs levelZero 3 fun _ _ => rfl
  pre c := iprop(StableHlo.held (c : Thread nD τ) (Pipeline.ucRefs τ sig) (V8 m outs c) ∗ beside (F := F) c)
  post c := iprop(StableHlo.held (c : Thread nD τ) (Pipeline.ucRefs τ sig) (V9 m outs c) ∗ beside (F := F) c)
  X c := iprop(∃ r, prngReg c r)
  Y c := iprop(∃ r, prngReg c r)
  Z c := Pipeline.unscopedRest (Ix := Unit) (Name := ℕ) (U := UR sig nD τ) (Lvl := ℕ) spec3 c (rd (V8 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (rd (V8 m outs) c) fun _ => rfl
    rw [Pipeline.unscopedBufs_held] at hsplit
    iintro ⟨⟨Hbufs, Hgen, Howes⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hothers
  hin c := by
    refine .trans ?_ (Pool.hin (rd (V8 m outs)) c)
    unfold Pipeline.ΦA
    iintro ⟨Hgen, -, Hscoped⟩
    isplitl [Hscoped]; · iexact Hscoped
    iexact Hgen
  hout c := by
    rw [Pipeline.ownSems0_none]
    refine (Pool.hout (rd (V8 m outs)) c).trans ?_
    unfold Pipeline.ΦA
    iintro ⟨Hscoped, Hgen⟩
    isplitl [Hgen]; · iexact Hgen
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (rd (V8 m outs) c) (rd (V9 m outs) c) ((pdats m outs 3 c).arrAt · cfg3.N) (exit3_arr m outs h c) (exit3_rest m outs c)
    rw [Pipeline.unscopedBufs_held] at hjoin
    iintro ⟨Harr, Howes, Hgen, Hothers⟩
    imodintro
    isplitl [Harr Hothers]
    · iapply hjoin; isplitl [Harr] <;> iassumption
    isplitl [Hgen]; · iexact Hgen
    unfold Pipeline.Dat.owesAt Pipeline.owesWithin
    icases Howes with ⟨%W, -, Howes⟩; iexists W; iexact Howes

/-! ## Contents the regions can leave

They are defined region by region: region 0's output from the launch contents; region 1's from the valuation that has
region 0's output in place; and so on. A valuation before a region depends on the unknown contents only through the
outputs of the regions before it, so putting a later output in place does not change it. -/

/-- The valuation before region 1 reads the unknown contents only at region 0's output. -/
theorem V4_eq_of (outs outs' : Outs (F := F)) (e3 : ∀ c, outs 3 main_v17 c = outs' 3 main_v17 c) :
    V4 m outs = V4 m outs' := by
  funext c
  show StableHlo.after hostOps1 (Function.update (V2 m c) (Proc.devRef .tc main_v17 : DevRef τ sig) (outs 3 main_v17 c))
    = StableHlo.after hostOps1 (Function.update (V2 m c) (Proc.devRef .tc main_v17 : DevRef τ sig) (outs' 3 main_v17 c))
  rw [e3 c]

/-- The valuation before region 2 reads them only at the outputs of regions 0 and 1. -/
theorem V6_eq_of (outs outs' : Outs (F := F)) (e3 : ∀ c, outs 3 main_v17 c = outs' 3 main_v17 c)
    (e5 : ∀ c, outs 5 main_v49 c = outs' 5 main_v49 c) : V6 m outs = V6 m outs' := by
  funext c
  have e4 : V4 m outs c = V4 m outs' c := congrFun (V4_eq_of m outs outs' e3) c
  show StableHlo.after hostOps2 (Function.update (V4 m outs c) (Proc.devRef .tc main_v49 : DevRef τ sig) (outs 5 main_v49 c))
    = StableHlo.after hostOps2 (Function.update (V4 m outs' c) (Proc.devRef .tc main_v49 : DevRef τ sig) (outs' 5 main_v49 c))
  rw [e4, e5 c]

/-- The valuation before region 3 reads them only at the outputs of regions 0, 1 and 2. -/
theorem V8_eq_of (outs outs' : Outs (F := F)) (e3 : ∀ c, outs 3 main_v17 c = outs' 3 main_v17 c)
    (e5 : ∀ c, outs 5 main_v49 c = outs' 5 main_v49 c) (e7 : ∀ c, outs 7 main_v81 c = outs' 7 main_v81 c) :
    V8 m outs = V8 m outs' := by
  funext c
  have e6 : V6 m outs c = V6 m outs' c := congrFun (V6_eq_of m outs outs' e3 e5) c
  show StableHlo.after hostOps3 (Function.update (V6 m outs c) (Proc.devRef .tc main_v81 : DevRef τ sig) (outs 7 main_v81 c))
    = StableHlo.after hostOps3 (Function.update (V6 m outs' c) (Proc.devRef .tc main_v81 : DevRef τ sig) (outs' 7 main_v81 c))
  rw [e6, e7 c]

/-- What region 0's pipeline leaves in its output array. -/
def made0 (c : Dev nD) : Buf (Elt F) ((c : Thread nD τ).loc main_v17) := (Mm0.dat (rd (V2 m)) c).arrAt 2 cfg0.N
/-- Contents with region 0's output in place (every other reference at its launch contents: never read). -/
def upTo0 : Outs (F := F) := fun _ r c =>
  Function.update (fun r : Ref sig .tc => m ((c : Thread nD τ).loc r)) main_v17 (made0 m c) r
/-- What region 1's pipeline leaves in its output array, entered after region 0's output is in place. -/
def made1 (c : Dev nD) : Buf (Elt F) ((c : Thread nD τ).loc main_v49) := (Mm1.dat (rd (V4 m (upTo0 m))) c).arrAt 2 cfg1.N
/-- Contents with the outputs of regions 0 and 1 in place. -/
def upTo1 : Outs (F := F) := fun _ r c =>
  Function.update (fun r : Ref sig .tc => upTo0 m 0 r c) main_v49 (made1 m c) r
/-- What region 2's pipeline leaves in its output array. -/
def made2 (c : Dev nD) : Buf (Elt F) ((c : Thread nD τ).loc main_v81) := (Mm2.dat (rd (V6 m (upTo1 m))) c).arrAt 2 cfg2.N
/-- Contents with the outputs of regions 0, 1 and 2 in place. -/
def upTo2 : Outs (F := F) := fun _ r c =>
  Function.update (fun r : Ref sig .tc => upTo1 m 0 r c) main_v81 (made2 m c) r
/-- What region 3's pipeline leaves in its output array. -/
def made3 (c : Dev nD) : Buf (Elt F) ((c : Thread nD τ).loc main_v122) := (Pool.dat (rd (V8 m (upTo2 m))) c).arrAt 2 cfg3.N
/-- Contents with all four outputs in place. -/
def upTo3 : Outs (F := F) := fun _ r c =>
  Function.update (fun r : Ref sig .tc => upTo2 m 0 r c) main_v122 (made3 m c) r

theorem upTo0_v17 (j : ℕ) (c : Dev nD) : upTo0 m j main_v17 c = made0 m c := by
  unfold upTo0; exact Function.update_self _ _ _
theorem upTo1_v17 (j : ℕ) (c : Dev nD) : upTo1 m j main_v17 c = made0 m c := by
  unfold upTo1; rw [Function.update_of_ne (by decide : (main_v17 : Ref sig .tc) ≠ main_v49)]; exact upTo0_v17 m 0 c
theorem upTo1_v49 (j : ℕ) (c : Dev nD) : upTo1 m j main_v49 c = made1 m c := by
  unfold upTo1; exact Function.update_self _ _ _
theorem upTo2_v17 (j : ℕ) (c : Dev nD) : upTo2 m j main_v17 c = made0 m c := by
  unfold upTo2; rw [Function.update_of_ne (by decide : (main_v17 : Ref sig .tc) ≠ main_v81)]; exact upTo1_v17 m 0 c
theorem upTo2_v49 (j : ℕ) (c : Dev nD) : upTo2 m j main_v49 c = made1 m c := by
  unfold upTo2; rw [Function.update_of_ne (by decide : (main_v49 : Ref sig .tc) ≠ main_v81)]; exact upTo1_v49 m 0 c
theorem upTo2_v81 (j : ℕ) (c : Dev nD) : upTo2 m j main_v81 c = made2 m c := by
  unfold upTo2; exact Function.update_self _ _ _
theorem upTo3_v17 (j : ℕ) (c : Dev nD) : upTo3 m j main_v17 c = made0 m c := by
  unfold upTo3; rw [Function.update_of_ne (by decide : (main_v17 : Ref sig .tc) ≠ main_v122)]; exact upTo2_v17 m 0 c
theorem upTo3_v49 (j : ℕ) (c : Dev nD) : upTo3 m j main_v49 c = made1 m c := by
  unfold upTo3; rw [Function.update_of_ne (by decide : (main_v49 : Ref sig .tc) ≠ main_v122)]; exact upTo2_v49 m 0 c
theorem upTo3_v81 (j : ℕ) (c : Dev nD) : upTo3 m j main_v81 c = made2 m c := by
  unfold upTo3; rw [Function.update_of_ne (by decide : (main_v81 : Ref sig .tc) ≠ main_v122)]; exact upTo2_v81 m 0 c
theorem upTo3_v122 (j : ℕ) (c : Dev nD) : upTo3 m j main_v122 c = made3 m c := by
  unfold upTo3; exact Function.update_self _ _ _

/-! ## The run -/

/-- The ten items on a core: the host stretches over the valuations, the four regions' records between them. -/
abbrev items (outs : Outs (F := F)) (h : OutsOk m outs) (c : Dev nD) :
    List (Seg (pcfgs (F := F)) adm (pdats m outs) () defs₀ Variants.none noPairs levelZero) :=
  segs m outs Variants.none noPairs levelZero (besideAt (F := F)) () (pdats m outs) (reg0 m outs h) (reg1 m outs h) (reg2 m outs h) (reg3 m outs h) c

/-- Such contents exist: they are defined region by region, each from the ones before. -/
theorem exists_outs : ∃ outs : Outs (F := F), OutsOk m outs := by
  refine ⟨upTo3 m, fun c => upTo3_v17 m 3 c, fun c => ?_, fun c => ?_, fun c => ?_⟩
  · rw [V4_eq_of m (upTo3 m) (upTo0 m) fun c => (upTo3_v17 m 3 c).trans (upTo0_v17 m 3 c).symm]
    exact upTo3_v49 m 5 c
  · rw [V6_eq_of m (upTo3 m) (upTo1 m) (fun c => (upTo3_v17 m 3 c).trans (upTo1_v17 m 3 c).symm)
      (fun c => (upTo3_v49 m 5 c).trans (upTo1_v49 m 5 c).symm)]
    exact upTo3_v81 m 7 c
  · rw [V8_eq_of m (upTo3 m) (upTo2 m) (fun c => (upTo3_v17 m 3 c).trans (upTo2_v17 m 3 c).symm)
      (fun c => (upTo3_v49 m 5 c).trans (upTo2_v49 m 5 c).symm) (fun c => (upTo3_v81 m 7 c).trans (upTo2_v81 m 7 c).symm)]
    exact upTo3_v122 m 9 c

set_option backward.isDefEq.respectTransparency.types false in
/-- The run, with the result array named. -/
theorem run_named (outs : Outs (F := F)) (h : OutsOk m outs) :
    θ_run defs (onTc (τ := τ) (main (F := F))) ⟨m, fun _ => 0, ρ⟩ (fun r => ∀ c : Dev nD,
      r.2.mem ((c.tc : Thread nD τ).loc main_v127) = V10 m outs c main_v127
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m outs) () cellOf_inj emb₁ defs₀ Variants.none noPairs levelZero m ρ main
    (items m outs h)
    (fun c Q => by
      rewrite [main_chain c, Seg.run_eq_chain,
        show (items m outs h c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ beside (F := F) c))
    (Tₙ := fun c => StableHlo.held (c : Thread nD τ) (Pipeline.ucRefs τ sig) (V10 m outs c))
    (hch := fun c => ⟨.rfl, .rfl, .rfl, .rfl, .rfl, .rfl, .rfl, .rfl, .rfl, .rfl,
      sep_mono .rfl (by iintro ⟨-, Howes⟩; iexact Howes)⟩)
    (hinit := ?_)
    (QY := fun c s => s.mem ((c.tc : Thread nD τ).loc main_v127) = V10 m outs c main_v127
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ hall => hall)
  · -- the launch element is the pipelines' own; no further ghost resource is dealt
    iintro Hlaunch; imodintro
    isplitl [Hlaunch]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hlaunch
    iapply (show (BI.emp : sProp 𝕄) ⊢ bigSep Finset.univ (fun _ : Dev nD => (BI.emp : sProp 𝕄)) from by rw [BI.bigSep_emp_const])
    iempintro
  · -- the launch, core by core: the unscoped buffers are held at the launch contents, the generator register is at its
    -- launch state, nothing is owed
    refine Pipeline.initEach noPairs levelZero fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hbufs, -, Howes, -, Hgen, -⟩, -⟩
    imodintro
    isplitl [Hbufs]; · iexact Hbufs
    isplitl [Hgen]; · iexists _; iexact Hgen
    iexists ∅; iexact Howes
  · -- the end: the result and each argument read off the last valuation
    unfold StableHlo.held
    iintro ⟨Hbufs, HSI⟩
    ihave Hr := (pointsTo_read_all (Pipeline.ucRefs τ sig) (fun b => ((c : Thread nD τ).1, b)) (V10 m outs c) s') $$ [Hbufs HSI]
    · isplitl [Hbufs] <;> iassumption
    icases Hr with ⟨%hread, HSI⟩
    imodintro
    isplitr
    · ipureintro
      exact ⟨hread (Proc.devRef .tc main_v127) (mem_unscoped main_v127 (by decide)),
        (hread (Proc.devRef .tc main_arg0) (mem_unscoped main_arg0 (by decide))).trans (V10_main_arg0 m outs c),
        (hread (Proc.devRef .tc main_arg1) (mem_unscoped main_arg1 (by decide))).trans (V10_main_arg1 m outs c),
        (hread (Proc.devRef .tc main_arg2) (mem_unscoped main_arg2 (by decide))).trans (V10_main_arg2 m outs c),
        (hread (Proc.devRef .tc main_arg3) (mem_unscoped main_arg3 (by decide))).trans (V10_main_arg3 m outs c),
        (hread (Proc.devRef .tc main_arg4) (mem_unscoped main_arg4 (by decide))).trans (V10_main_arg4 m outs c),
        (hread (Proc.devRef .tc main_arg5) (mem_unscoped main_arg5 (by decide))).trans (V10_main_arg5 m outs c),
        (hread (Proc.devRef .tc main_arg6) (mem_unscoped main_arg6 (by decide))).trans (V10_main_arg6 m outs c),
        (hread (Proc.devRef .tc main_arg7) (mem_unscoped main_arg7 (by decide))).trans (V10_main_arg7 m outs c),
        (hread (Proc.devRef .tc main_arg8) (mem_unscoped main_arg8 (by decide))).trans (V10_main_arg8 m outs c)⟩
    · iexact HSI

end Cert.KernelIdeal.Run

end
-- ==== Proof.KI.Spec.lean ====
import proofs.«418734_j62998580298149_1_alg».proof.Proof.Gen.KernelIdeal
import Idealize.ShloMosaic.Lib.ValueIdx
import Idealize.ShloMosaic.PureOps.Ideal

/-! The mean-pooling tail of the kernel's host code, as pure functions of its operands: the one-hot matrix of the
    graph indices (entry (n, g) is one when node n belongs to graph g, else zero), the per-graph node counts as its
    column sums, the divisor max(count, 1) spread over the feature axis, and the pooled sums: entry (g, d) is the sum
    over the nodes n of onehot(n, g) times feature(n, d). -/

noncomputable section

namespace Cert.KernelIdeal.Spec

open Idealize.ShloMosaic Idealize.ShloMosaic.ValueIdx Cert.KernelIdeal Cert.KernelIdeal.Facts₀ Cert.KernelIdeal.Facts
open scoped BigOperators

variable {F : FTy → Type} [FloatOps F]

/-- The one-hot matrix of the graph indices: the index of node n spread along the 64 graphs, compared for equality
    with the graph number, the truth value turned into a float. -/
def onehot (x2 : (⟨S50000, .i32⟩ : BufTy).Contents (Elt F)) : (⟨S50000x64, .bf16⟩ : BufTy).Contents (Elt F) :=
  uitofp (F := F) .bf16
    (cmpi .eq
      (broadcastInDim S50000x64 ![0, 1] bcast_S50000x1_S50000x64_0_1 (broadcastInDim S50000x1 ![0] bcast_S50000_S50000x1_0 x2))
      (broadcastInDim S50000x64 ![0, 1] bcast_S1x64_S50000x64_0_1 (broadcastInDim S1x64 ![1] bcast_S64_S1x64_1 (iotaInDim S64 32 0))))

/-- The number of nodes of each graph: the column sums of the one-hot matrix. -/
def counts (x2 : (⟨S50000, .i32⟩ : BufTy).Contents (Elt F)) : (⟨S64, .f32⟩ : BufTy).Contents (Elt F) :=
  Host.reduceAdd (extf .f32 (onehot x2) bitsLt_bf16_f32) (constant S_ .f32 0x00000000#32) reducesTo_S50000x64_S64_d0 h_S_

/-- The divisor of the mean: max(count, 1), the same along the feature axis. -/
def denom (cnt : (⟨S64, .f32⟩ : BufTy).Contents (Elt F)) : (⟨S64x192, .f32⟩ : BufTy).Contents (Elt F) :=
  broadcastInDim S64x192 ![0, 1] bcast_S64x1_S64x192_0_1
    (broadcastInDim S64x1 ![0] bcast_S64_S64x1_0
      (maximumf cnt (broadcastInDim S64 ![] bcast_S_S64 (constant S_ .f32 0x3F800000#32))))

/-- The pooled sums over the extended reals: entry (g, d) is the sum over the nodes of onehot(n, g) · feature(n, d). -/
def poolSum (oh : (⟨S50000x64, .bf16⟩ : BufTy).Contents (Elt Ideal)) (X : (⟨S50000x192, .f32⟩ : BufTy).Contents (Elt Ideal)) :
    (⟨S64x192, .f32⟩ : BufTy).Contents (Elt Ideal) :=
  fun i => ∑ n : Fin 50000, ((oh (ix2 n (i 0 : Fin 64)) : EReal) * (X (ix2 n (i 1 : Fin 192)) : EReal))

end Cert.KernelIdeal.Spec

end
-- ==== Proof.KI.Stretch.lean ====
import proofs.«418734_j62998580298149_1_alg».proof.Proof.Gen.KernelIdeal.Regions
import proofs.«418734_j62998580298149_1_alg».proof.Proof.RefRead
import proofs.«418734_j62998580298149_1_alg».proof.Proof.KI.Spec
import Idealize.ShloMosaic.Lib.StableHlo.Run

/-! The host code between the kernel regions is, operation for operation, the reference's: the degree normalisation
    and the two index vectors, then per layer the gather of the projected rows at the source indices, the scaling by
    the normalisation of both ends, the scatter-add at the destination indices and the bias. So each stretch takes
    the reference's value of a projection to the reference's value of the layer's output; the last stretch also builds
    the one-hot matrix and the counts, and the tail divides the pooled sums by the divisor. -/

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (outs : Outs (F := F)) (c : Dev nD)

/-- The nine argument arrays as launched. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)

/-! ## The arguments where they are read -/

/-- No host stretch and no region writes an argument: each is found as launched wherever it is read. -/
theorem arg0_at2 : V2 m c main_arg0 = a0 m c :=
  (V2_of m c main_arg0 (by decide)).trans <| (V1_of m c main_arg0 (by decide)).trans rfl
theorem arg3_at2 : V2 m c main_arg3 = a3 m c :=
  (V2_of m c main_arg3 (by decide)).trans <| (V1_of m c main_arg3 (by decide)).trans rfl
theorem arg4_at2 : V2 m c main_arg4 = a4 m c :=
  (V2_of m c main_arg4 (by decide)).trans <| (V1_of m c main_arg4 (by decide)).trans rfl
theorem arg6_at2 : V2 m c main_arg6 = a6 m c :=
  (V2_of m c main_arg6 (by decide)).trans <| (V1_of m c main_arg6 (by decide)).trans rfl
theorem arg8_at2 : V2 m c main_arg8 = a8 m c :=
  (V2_of m c main_arg8 (by decide)).trans <| (V1_of m c main_arg8 (by decide)).trans rfl
theorem arg2_at2 : V2 m c main_arg2 = a2 m c :=
  (V2_of m c main_arg2 (by decide)).trans <| (V1_of m c main_arg2 (by decide)).trans rfl
theorem arg5_at4 : V4 m outs c main_arg5 = a5 m c :=
  (V4_of m outs c main_arg5 (by decide)).trans <| (V3_of m outs c main_arg5 (by decide)).trans <|
    (V2_of m c main_arg5 (by decide)).trans <| (V1_of m c main_arg5 (by decide)).trans rfl
theorem arg7_at6 : V6 m outs c main_arg7 = a7 m c :=
  (V6_of m outs c main_arg7 (by decide)).trans <| (V5_of m outs c main_arg7 (by decide)).trans <|
    (V4_of m outs c main_arg7 (by decide)).trans <| (V3_of m outs c main_arg7 (by decide)).trans <|
    (V2_of m c main_arg7 (by decide)).trans <| (V1_of m c main_arg7 (by decide)).trans rfl

/-! ## The first stretch: the index vectors and the degree normalisation -/

section First
open Cert.ReferenceIdeal.ReadP

/-- The source indices with the self loops appended: the first row of the edge list, then 0 … 49999. -/
theorem src_at2 : V2 m c main_v3 = val_main_v3 (F := F) (a1 m c) := by
  refine (V2_of m c main_v3 (by decide)).trans ?_
  show StableHlo.after hostOps0 (V0 m c) (Proc.devRef .tc main_v3) = _
  after_results
  unfold val_main_v3 val_main_v2 val_main_v1 val_main_v0
  rfl

/-- The destination indices with the self loops appended: the second row of the edge list, then 0 … 49999. -/
theorem dst_at2 : V2 m c main_v6 = val_main_v6 (F := F) (a1 m c) := by
  refine (V2_of m c main_v6 (by decide)).trans ?_
  show StableHlo.after hostOps0 (V0 m c) (Proc.devRef .tc main_v6) = _
  after_results
  unfold val_main_v6 val_main_v5 val_main_v4 val_main_v0
  rfl

/-- Which nodes have a positive degree (the scatter-add of ones at the destination indices, compared with zero). -/
theorem pos_at1 : V1 m c main_v12 = val_main_v12 (F := F) (a1 m c) := by
  show StableHlo.after hostOps0 (V0 m c) (Proc.devRef .tc main_v12) = _
  after_results
  unfold val_main_v12 val_main_v11 val_main_cst_1 val_main_v10 val_main_v9 val_main_v8 val_main_cst_0 val_main_v7 val_main_cst
    val_main_v6 val_main_v5 val_main_v4 val_main_v0
  rfl

/-- The inverse square root of the degree, the degree kept away from zero. -/
theorem rsq_at1 : V1 m c main_v15 = val_main_v15 (F := F) (a1 m c) := by
  show StableHlo.after hostOps0 (V0 m c) (Proc.devRef .tc main_v15) = _
  after_results
  unfold val_main_v15 val_main_v14 val_main_v13 val_main_cst_2 val_main_v10 val_main_v9 val_main_v8 val_main_cst_0 val_main_v7 val_main_cst
    val_main_v6 val_main_v5 val_main_v4 val_main_v0
  rfl

/-- The zero the normalisation takes at a node of degree zero. -/
theorem zero_at1 : V1 m c main_cst_3 = val_main_cst_3 (F := F) := by
  show StableHlo.after hostOps0 (V0 m c) (Proc.devRef .tc main_cst_3) = _
  after_results
  rfl

/-- The degree normalisation: the inverse square root of the degree where it is positive, zero elsewhere. -/
theorem norm_at2 : V2 m c main_v16 = val_main_v16 (F := F) (a1 m c) := by
  show StableHlo.after hostOps0_1 (V1 m c) (Proc.devRef .tc main_v16) = _
  generalize hW : V1 m c = W
  after_results_simp
  simp only [TRef.ofBuf, TRef.toBuf, cast_eq]
  subst hW
  rw [pos_at1, rsq_at1, zero_at1]
  unfold val_main_v16 val_main_call0_v1 val_main_call0_v0
  rfl

end First

/-! ## The first layer -/

section Layer1
open Cert.ReferenceIdeal.ReadP

theorem proj_at3 : V3 m outs c main_v17 = outs 3 main_v17 c := by
  simp only [V3, Function.update_self]
theorem src_at3 : V3 m outs c main_v3 = val_main_v3 (F := F) (a1 m c) :=
  (V3_of m outs c main_v3 (by decide)).trans (src_at2 m c)
theorem dst_at3 : V3 m outs c main_v6 = val_main_v6 (F := F) (a1 m c) :=
  (V3_of m outs c main_v6 (by decide)).trans (dst_at2 m c)
theorem norm_at3 : V3 m outs c main_v16 = val_main_v16 (F := F) (a1 m c) :=
  (V3_of m outs c main_v16 (by decide)).trans (norm_at2 m c)
theorem arg4_at3 : V3 m outs c main_arg4 = a4 m c :=
  (V3_of m outs c main_arg4 (by decide)).trans (arg4_at2 m c)

/-- First layer: from the first projection to the layer's output. -/
theorem layer1 (h : outs 3 main_v17 c = Cert.ReferenceIdeal.ReadP.val_main_v17 (F := F) (a0 m c) (a3 m c)) :
    V4 m outs c main_v48 = Cert.ReferenceIdeal.ReadP.val_main_v48 (F := F) (a0 m c) (a1 m c) (a3 m c) (a4 m c) := by
  show StableHlo.after hostOps1 (V3 m outs c) (Proc.devRef .tc main_v48) = _
  generalize hW : V3 m outs c = W
  after_results_simp
  subst hW
  rw [proj_at3, src_at3, dst_at3, norm_at3, arg4_at3, h]
  unfold val_main_v48 val_main_v47 val_main_v46 val_main_v45 val_main_v44 val_main_v43 val_main_cst_9 val_main_v42 val_main_v41
    val_main_v40 val_main_v39 val_main_v38 val_main_v37 val_main_v36 val_main_v35 val_main_c_8 val_main_v34 val_main_v33 val_main_c_7
    val_main_v32 val_main_v31 val_main_v30 val_main_v29 val_main_v28 val_main_v27 val_main_c_6 val_main_v26 val_main_v25 val_main_c_5
    val_main_v24 val_main_v23 val_main_v22 val_main_v21 val_main_v20 val_main_c_4 val_main_v19 val_main_v18 val_main_c
  generalize val_main_v3 (F := F) (a1 m c) = s
  generalize val_main_v6 (F := F) (a1 m c) = d
  generalize val_main_v16 (F := F) (a1 m c) = nrm
  generalize val_main_v17 (F := F) (a0 m c) (a3 m c) = p
  generalize a4 m c = b
  rfl

end Layer1

/-! ## The second layer -/

section Layer2
open Cert.ReferenceIdeal.ReadP

theorem proj_at5 : V5 m outs c main_v49 = outs 5 main_v49 c := by
  simp only [V5, Function.update_self]
theorem src_at5 : V5 m outs c main_v3 = val_main_v3 (F := F) (a1 m c) :=
  (V5_of m outs c main_v3 (by decide)).trans <| (V4_of m outs c main_v3 (by decide)).trans (src_at3 m outs c)
theorem dst_at5 : V5 m outs c main_v6 = val_main_v6 (F := F) (a1 m c) :=
  (V5_of m outs c main_v6 (by decide)).trans <| (V4_of m outs c main_v6 (by decide)).trans (dst_at3 m outs c)
theorem norm_at5 : V5 m outs c main_v16 = val_main_v16 (F := F) (a1 m c) :=
  (V5_of m outs c main_v16 (by decide)).trans <| (V4_of m outs c main_v16 (by decide)).trans (norm_at3 m outs c)
theorem arg6_at5 : V5 m outs c main_arg6 = a6 m c :=
  (V5_of m outs c main_arg6 (by decide)).trans <| (V4_of m outs c main_arg6 (by decide)).trans <|
    (V3_of m outs c main_arg6 (by decide)).trans (arg6_at2 m c)

/-- Second layer. -/
theorem layer2 (h : outs 5 main_v49 c = Cert.ReferenceIdeal.ReadP.val_main_v49 (F := F) (a0 m c) (a1 m c) (a3 m c) (a4 m c) (a5 m c)) :
    V6 m outs c main_v80 = Cert.ReferenceIdeal.ReadP.val_main_v80 (F := F) (a0 m c) (a1 m c) (a3 m c) (a4 m c) (a5 m c) (a6 m c) := by
  show StableHlo.after hostOps2 (V5 m outs c) (Proc.devRef .tc main_v80) = _
  generalize hW : V5 m outs c = W
  after_results_simp
  subst hW
  rw [proj_at5, src_at5, dst_at5, norm_at5, arg6_at5, h]
  unfold val_main_v80 val_main_v79 val_main_v78 val_main_v77 val_main_v76 val_main_v75 val_main_cst_16 val_main_v74 val_main_v73
    val_main_v72 val_main_v71 val_main_v70 val_main_v69 val_main_v68 val_main_v67 val_main_c_15 val_main_v66 val_main_v65 val_main_c_14
    val_main_v64 val_main_v63 val_main_v62 val_main_v61 val_main_v60 val_main_v59 val_main_c_13 val_main_v58 val_main_v57 val_main_c_12
    val_main_v56 val_main_v55 val_main_v54 val_main_v53 val_main_v52 val_main_c_11 val_main_v51 val_main_v50 val_main_c_10
  generalize val_main_v3 (F := F) (a1 m c) = s
  generalize val_main_v6 (F := F) (a1 m c) = d
  generalize val_main_v16 (F := F) (a1 m c) = nrm
  generalize val_main_v49 (F := F) (a0 m c) (a1 m c) (a3 m c) (a4 m c) (a5 m c) = p
  generalize a6 m c = b
  rfl

end Layer2

/-! ## The third layer, the one-hot matrix and the counts -/

section Layer3
open Cert.ReferenceIdeal.ReadP

theorem proj_at7 : V7 m outs c main_v81 = outs 7 main_v81 c := by
  simp only [V7, Function.update_self]
theorem src_at7 : V7 m outs c main_v3 = val_main_v3 (F := F) (a1 m c) :=
  (V7_of m outs c main_v3 (by decide)).trans <| (V6_of m outs c main_v3 (by decide)).trans (src_at5 m outs c)
theorem dst_at7 : V7 m outs c main_v6 = val_main_v6 (F := F) (a1 m c) :=
  (V7_of m outs c main_v6 (by decide)).trans <| (V6_of m outs c main_v6 (by decide)).trans (dst_at5 m outs c)
theorem norm_at7 : V7 m outs c main_v16 = val_main_v16 (F := F) (a1 m c) :=
  (V7_of m outs c main_v16 (by decide)).trans <| (V6_of m outs c main_v16 (by decide)).trans (norm_at5 m outs c)
theorem arg8_at7 : V7 m outs c main_arg8 = a8 m c :=
  (V7_of m outs c main_arg8 (by decide)).trans <| (V6_of m outs c main_arg8 (by decide)).trans <|
    (V5_of m outs c main_arg8 (by decide)).trans <| (V4_of m outs c main_arg8 (by decide)).trans <|
    (V3_of m outs c main_arg8 (by decide)).trans (arg8_at2 m c)
theorem arg2_at7 : V7 m outs c main_arg2 = a2 m c :=
  (V7_of m outs c main_arg2 (by decide)).trans <| (V6_of m outs c main_arg2 (by decide)).trans <|
    (V5_of m outs c main_arg2 (by decide)).trans <| (V4_of m outs c main_arg2 (by decide)).trans <|
    (V3_of m outs c main_arg2 (by decide)).trans (arg2_at2 m c)

/-- Third layer. -/
theorem layer3 (h : outs 7 main_v81 c = Cert.ReferenceIdeal.ReadP.val_main_v81 (F := F) (a0 m c) (a1 m c) (a3 m c) (a4 m c) (a5 m c) (a6 m c) (a7 m c)) :
    V8 m outs c main_v112 = Cert.ReferenceIdeal.ReadP.val_main_v112 (F := F) (a0 m c) (a1 m c) (a3 m c) (a4 m c) (a5 m c) (a6 m c) (a7 m c) (a8 m c) := by
  show StableHlo.after hostOps3 (V7 m outs c) (Proc.devRef .tc main_v112) = _
  generalize hW : V7 m outs c = W
  after_results_simp
  subst hW
  rw [proj_at7, src_at7, dst_at7, norm_at7, arg8_at7, h]
  unfold val_main_v112 val_main_v111 val_main_v110 val_main_v109 val_main_v108 val_main_v107 val_main_cst_23 val_main_v106 val_main_v105
    val_main_v104 val_main_v103 val_main_v102 val_main_v101 val_main_v100 val_main_v99 val_main_c_22 val_main_v98 val_main_v97 val_main_c_21
    val_main_v96 val_main_v95 val_main_v94 val_main_v93 val_main_v92 val_main_v91 val_main_c_20 val_main_v90 val_main_v89 val_main_c_19
    val_main_v88 val_main_v87 val_main_v86 val_main_v85 val_main_v84 val_main_c_18 val_main_v83 val_main_v82 val_main_c_17
  generalize val_main_v3 (F := F) (a1 m c) = s
  generalize val_main_v6 (F := F) (a1 m c) = d
  generalize val_main_v16 (F := F) (a1 m c) = nrm
  generalize val_main_v81 (F := F) (a0 m c) (a1 m c) (a3 m c) (a4 m c) (a5 m c) (a6 m c) (a7 m c) = p
  generalize a8 m c = b
  rfl

end Layer3

/-- The one-hot matrix the pooling region is handed. -/
theorem onehot_at8 : V8 m outs c main_v119 = Spec.onehot (F := F) (a2 m c) := by
  show StableHlo.after hostOps3 (V7 m outs c) (Proc.devRef .tc main_v119) = _
  generalize hW : V7 m outs c = W
  after_results_simp
  subst hW
  rw [arg2_at7]
  unfold Spec.onehot
  rfl

/-- The counts the tail divides by. -/
theorem counts_at8 : V8 m outs c main_v121 = Spec.counts (F := F) (a2 m c) := by
  show StableHlo.after hostOps3 (V7 m outs c) (Proc.devRef .tc main_v121) = _
  generalize hW : V7 m outs c = W
  after_results_simp
  subst hW
  rw [arg2_at7]
  unfold Spec.counts Spec.onehot
  rfl

/-! ## The tail -/

theorem pooled_at9 : V9 m outs c main_v122 = outs 9 main_v122 c := by
  simp only [V9, Function.update_self]
theorem counts_at9 : V9 m outs c main_v121 = Spec.counts (F := F) (a2 m c) :=
  (V9_of m outs c main_v121 (by decide)).trans (counts_at8 m outs c)

/-- The result: the pooled sums the last region leaves, divided by the divisor. -/
theorem result_at10 : V10 m outs c main_v127 = Host.divf (outs 9 main_v122 c) (Spec.denom (F := F) (Spec.counts (F := F) (a2 m c))) := by
  show StableHlo.after hostOps4 (V9 m outs c) (Proc.devRef .tc main_v127) = _
  generalize hW : V9 m outs c = W
  after_results_simp
  subst hW
  rw [pooled_at9, counts_at9]
  unfold Spec.denom
  rfl

end Cert.KernelIdeal.Stretch

end
-- ==== Proof.KI.Bridge.lean ====
import proofs.«418734_j62998580298149_1_alg».proof.Proof.KI.Spec
import proofs.«418734_j62998580298149_1_alg».proof.Proof.RefRead
import Idealize.ShloMosaic.Lib.ValueIdx
import Idealize.ShloMosaic.PureOps.Ideal.Laws

/-! Over the extended reals, pooling by a one-hot matrix is pooling by a scatter-add: the sum over all nodes of
    onehot(n, g) · x(n, d) keeps exactly the nodes whose graph index is g (a zero factor annihilates every extended
    real, a one leaves it), and the scatter-add of the rows of x at the graph indices adds exactly those rows into
    row g, an index outside 0..63 being dropped by the scatter and matched by no column of the one-hot matrix. The
    same for the counts: the column sums of the one-hot matrix are the scatter-add of ones. -/

noncomputable section

namespace Cert.KernelIdeal.Bridge

open Idealize.ShloMosaic Idealize.ShloMosaic.ValueIdx
open scoped BigOperators

/-- The equality compare of two words, read as a natural number: one when they are equal, else zero. -/
theorem cmpi_eq_toNat {w : Nat} (a b : BitVec w) : (IntOp.cmpi .eq a b).toNat = if a = b then 1 else 0 := by
  unfold IntOp.cmpi
  by_cases h : a = b
  · subst h; simp
  · simp [h]

open Cert.KernelIdeal Cert.KernelIdeal.Facts₀ Cert.KernelIdeal.Facts in
/-- Entry (n, g) of the one-hot matrix: one when node n's graph index is the word g, else zero. -/
theorem onehot_apply (x2 : (⟨Cert.KernelIdeal.S50000, .i32⟩ : BufTy).Contents (Elt Ideal)) (n : Fin 50000) (g : Fin 64) :
    (Cert.KernelIdeal.Spec.onehot (F := Ideal) x2 (ix2 n g) : EReal)
      = if x2 (ix1 n) = BitVec.ofNat 32 g.val then (1 : EReal) else 0 := by
  unfold Cert.KernelIdeal.Spec.onehot
  have hA : broadcastInDim S50000x64 ![0, 1] bcast_S50000x1_S50000x64_0_1 (broadcastInDim S50000x1 ![0] bcast_S50000_S50000x1_0 x2) (ix2 n g) = x2 (ix1 n) := by
    rw [broadcastInDim_apply _ bcast_S50000x1_S50000x64_0_1 _ (ix2 n g) (ix2 n (0 : Fin 1)) (fun a => match a with
      | ⟨0, _⟩ => by show n.val = if (50000 : Nat) = 1 then 0 else n.val; rw [if_neg (by decide)]
      | ⟨1, _⟩ => by show 0 = if (1 : Nat) = 1 then 0 else g.val; rw [if_pos rfl])]
    exact broadcastInDim_apply _ bcast_S50000_S50000x1_0 x2 (ix2 n (0 : Fin 1)) (ix1 n) (fun a => match a with
      | ⟨0, _⟩ => by show n.val = if (50000 : Nat) = 1 then 0 else n.val; rw [if_neg (by decide)])
  have hB : broadcastInDim S50000x64 ![0, 1] bcast_S1x64_S50000x64_0_1 (broadcastInDim S1x64 ![1] bcast_S64_S1x64_1 (iotaInDim S64 32 0)) (ix2 n g) = BitVec.ofNat 32 g.val := by
    rw [broadcastInDim_apply _ bcast_S1x64_S50000x64_0_1 _ (ix2 n g) (ix2 (0 : Fin 1) g) (fun a => match a with
      | ⟨0, _⟩ => by show 0 = if (1 : Nat) = 1 then 0 else n.val; rw [if_pos rfl]
      | ⟨1, _⟩ => by show g.val = if (64 : Nat) = 1 then 0 else g.val; rw [if_neg (by decide)])]
    rw [broadcastInDim_apply _ bcast_S64_S1x64_1 _ (ix2 (0 : Fin 1) g) (ix1 g) (fun a => match a with
      | ⟨0, _⟩ => by show g.val = if (64 : Nat) = 1 then 0 else g.val; rw [if_neg (by decide)])]
    rfl
  show (((IntOp.cmpi .eq _ _).toNat : ℝ) : EReal) = _
  rw [hA, hB]
  rw [cmpi_eq_toNat]
  by_cases h : x2 (ix1 n) = BitVec.ofNat 32 g.val
  · rw [if_pos h, if_pos h]; norm_num
  · rw [if_neg h, if_neg h]; norm_num

open Cert.ReferenceIdeal in
/-- On the row axis the window of update (n, d') starts at node n's index word, read signed. -/
theorem startP0 {w : Nat} (j : S50000x192.Idx) (idx : IVec S50000x1 w) :
    scatter_S64x192_S50000x1_S50000x192_1_0_0_1.start j idx (0 : Fin 2) = (idx (ix2 (j 0) (0 : Fin 1))).toInt := by
  unfold ScatterDims.start
  have h : (0 : Fin 2) ∈ scatter_S64x192_S50000x1_S50000x192_1_0_0_1.scatterDimsToOperandDims := List.mem_singleton.2 rfl
  rw [dif_pos h]
  congr 2
  funext b
  match b with
  | ⟨0, _⟩ => rfl
  | ⟨1, _⟩ => rfl

open Cert.ReferenceIdeal in
/-- On the feature axis the window starts at zero. -/
theorem startP1 {w : Nat} (j : S50000x192.Idx) (idx : IVec S50000x1 w) :
    scatter_S64x192_S50000x1_S50000x192_1_0_0_1.start j idx (1 : Fin 2) = 0 := by
  unfold ScatterDims.start
  have h : ¬ (1 : Fin 2) ∈ scatter_S64x192_S50000x1_S50000x192_1_0_0_1.scatterDimsToOperandDims := by
    show ¬ (1 : Fin 2) ∈ [(0 : Fin 2)]
    decide
  rw [dif_neg h]

open Cert.ReferenceIdeal in
/-- The row axis is an inserted axis: the window coordinate there is zero. -/
theorem windowP0 (j : S50000x192.Idx) :
    scatter_S64x192_S50000x1_S50000x192_1_0_0_1.window j (0 : Fin 2) = 0 := by
  unfold ScatterDims.window
  have h : ¬ (0 : Fin 2) ∈ scatter_S64x192_S50000x1_S50000x192_1_0_0_1.sKept := by
    show ¬ (0 : Fin 2) ∈ [(1 : Fin 2)]
    decide
  rw [dif_neg h]

open Cert.ReferenceIdeal in
/-- On the feature axis the window coordinate is the update's own feature coordinate. -/
theorem windowP1 (j : S50000x192.Idx) :
    scatter_S64x192_S50000x1_S50000x192_1_0_0_1.window j (1 : Fin 2) = (j 1).val := by
  unfold ScatterDims.window
  have h : (1 : Fin 2) ∈ scatter_S64x192_S50000x1_S50000x192_1_0_0_1.sKept := by
    show (1 : Fin 2) ∈ [(1 : Fin 2)]
    decide
  rw [dif_pos h]
  rfl

open Cert.ReferenceIdeal in
/-- Update (n, d') lands on entry (g, d) exactly when node n's index word, read signed, is g and d' is d. -/
theorem resultP_iff {w : Nat} (idx : IVec S50000x1 w) (n : Fin 50000) (d' : Fin 192) (g : Fin 64) (d : Fin 192) :
    scatter_S64x192_S50000x1_S50000x192_1_0_0_1.resultIdx? (ix2 n d') idx = some (ix2 g d)
      ↔ (idx (ix2 n (0 : Fin 1))).toInt = (g.val : ℤ) ∧ d' = d := by
  have hg := g.isLt
  have hd := d.isLt
  have hd' := d'.isLt
  have s0 : scatter_S64x192_S50000x1_S50000x192_1_0_0_1.start (ix2 n d') idx (0 : Fin 2)
      + (scatter_S64x192_S50000x1_S50000x192_1_0_0_1.window (ix2 n d') (0 : Fin 2) : ℤ) = (idx (ix2 n (0 : Fin 1))).toInt := by
    rw [startP0, windowP0]; exact Int.add_zero _
  have s1 : scatter_S64x192_S50000x1_S50000x192_1_0_0_1.start (ix2 n d') idx (1 : Fin 2)
      + (scatter_S64x192_S50000x1_S50000x192_1_0_0_1.window (ix2 n d') (1 : Fin 2) : ℤ) = (d'.val : ℤ) := by
    rw [startP1, windowP1]; exact Int.zero_add _
  unfold ScatterDims.resultIdx?
  split
  · next h =>
    have h0 := h 0
    have h1 := h 1
    rw [s0] at h0
    rw [s1] at h1
    change 0 ≤ (idx (ix2 n (0 : Fin 1))).toInt ∧ (idx (ix2 n (0 : Fin 1))).toInt < ((64 : ℕ) : ℤ) at h0
    constructor
    · intro e
      have e' := Option.some.inj e
      have e0 := congrArg (fun f => (f 0).val) e'
      have e1 := congrArg (fun f => (f 1).val) e'
      simp only [s0, s1] at e0 e1
      change (idx (ix2 n (0 : Fin 1))).toInt.toNat = g.val at e0
      change ((d'.val : ℕ) : ℤ).toNat = d.val at e1
      exact ⟨by omega, Fin.ext (by omega)⟩
    · rintro ⟨e0, e1⟩
      congr 1
      funext a
      match a with
      | ⟨0, _⟩ =>
        apply Fin.ext
        show (scatter_S64x192_S50000x1_S50000x192_1_0_0_1.start (ix2 n d') idx (0 : Fin 2)
          + (scatter_S64x192_S50000x1_S50000x192_1_0_0_1.window (ix2 n d') (0 : Fin 2) : ℤ)).toNat = g.val
        rw [s0]; omega
      | ⟨1, _⟩ =>
        apply Fin.ext
        show (scatter_S64x192_S50000x1_S50000x192_1_0_0_1.start (ix2 n d') idx (1 : Fin 2)
          + (scatter_S64x192_S50000x1_S50000x192_1_0_0_1.window (ix2 n d') (1 : Fin 2) : ℤ)).toNat = d.val
        rw [s1, e1]; omega
  · next h =>
    constructor
    · intro e; cases e
    · rintro ⟨e0, e1⟩
      exfalso
      apply h
      intro a
      match a with
      | ⟨0, _⟩ =>
        show 0 ≤ scatter_S64x192_S50000x1_S50000x192_1_0_0_1.start (ix2 n d') idx (0 : Fin 2)
            + (scatter_S64x192_S50000x1_S50000x192_1_0_0_1.window (ix2 n d') (0 : Fin 2) : ℤ)
          ∧ scatter_S64x192_S50000x1_S50000x192_1_0_0_1.start (ix2 n d') idx (0 : Fin 2)
            + (scatter_S64x192_S50000x1_S50000x192_1_0_0_1.window (ix2 n d') (0 : Fin 2) : ℤ) < ((64 : ℕ) : ℤ)
        rw [s0]; omega
      | ⟨1, _⟩ =>
        show 0 ≤ scatter_S64x192_S50000x1_S50000x192_1_0_0_1.start (ix2 n d') idx (1 : Fin 2)
            + (scatter_S64x192_S50000x1_S50000x192_1_0_0_1.window (ix2 n d') (1 : Fin 2) : ℤ)
          ∧ scatter_S64x192_S50000x1_S50000x192_1_0_0_1.start (ix2 n d') idx (1 : Fin 2)
            + (scatter_S64x192_S50000x1_S50000x192_1_0_0_1.window (ix2 n d') (1 : Fin 2) : ℤ) < ((192 : ℕ) : ℤ)
        rw [s1]; omega

/-- For a graph number below 64, a word read signed is that number exactly when it is the number's 32-bit word. -/
theorem toInt_eq_iff (a : BitVec 32) (g : Fin 64) : a.toInt = (g.val : ℤ) ↔ a = BitVec.ofNat 32 g.val := by
  have hg := g.isLt
  constructor
  · intro h
    apply BitVec.eq_of_toNat_eq
    rw [BitVec.toNat_ofNat]
    rw [BitVec.toInt_eq_toNat_cond] at h
    have := a.isLt
    split at h <;> omega
  · intro h
    rw [h, BitVec.toInt_eq_toNat_cond, BitVec.toNat_ofNat]
    have : g.val % 2 ^ 32 = g.val := Nat.mod_eq_of_lt (by omega)
    rw [this, if_pos (by omega)]

open Cert.ReferenceIdeal in
/-- The index array of the scatter, at row n, is node n's graph index. -/
theorem idxcol_apply (x2 : (⟨Cert.KernelIdeal.S50000, .i32⟩ : BufTy).Contents (Elt Ideal)) (n : Fin 50000) :
    Cert.ReferenceIdeal.ReadP.val_main_v114 (F := Ideal) x2 (ix2 n (0 : Fin 1)) = x2 (ix1 n) := by
  rw [Cert.ReferenceIdeal.ReadP.val_main_v114_apply]
  congr 1
  funext a
  match a with
  | ⟨0, _⟩ => rfl

/-- The pooled sums through the one-hot matrix are the reference's scatter-add of the feature rows at the graph indices. -/
theorem pool_eq (x2 : (⟨Cert.KernelIdeal.S50000, .i32⟩ : BufTy).Contents (Elt Ideal))
    (X : (⟨Cert.KernelIdeal.S50000x192, .f32⟩ : BufTy).Contents (Elt Ideal)) :
    Cert.KernelIdeal.Spec.poolSum (Cert.KernelIdeal.Spec.onehot (F := Ideal) x2) X
      = Host.scatterAdd (F := Ideal) (φ := .f32) Cert.ReferenceIdeal.scatter_S64x192_S50000x1_S50000x192_1_0_0_1
          (Cert.ReferenceIdeal.ReadP.val_main_v113 (F := Ideal)) (Cert.ReferenceIdeal.ReadP.val_main_v114 (F := Ideal) x2) X := by
  funext i
  obtain ⟨g, d, rfl⟩ : ∃ (g : Fin 64) (d : Fin 192), i = ix2 g d := ⟨i 0, i 1, eq_ix2 i⟩
  show (∑ n : Fin 50000, ((Cert.KernelIdeal.Spec.onehot (F := Ideal) x2 (ix2 n g) : EReal) * (X (ix2 n d) : EReal)))
    = Cert.ReferenceIdeal.ReadP.val_main_v113 (F := Ideal) (ix2 g d)
      + ∑ j ∈ Finset.univ.filter (fun j => Cert.ReferenceIdeal.scatter_S64x192_S50000x1_S50000x192_1_0_0_1.resultIdx? j
          (Cert.ReferenceIdeal.ReadP.val_main_v114 (F := Ideal) x2) = some (ix2 g d)), X j
  have hz : Cert.ReferenceIdeal.ReadP.val_main_v113 (F := Ideal) (ix2 g d) = (0 : EReal) := by
    rw [Cert.ReferenceIdeal.ReadP.val_main_v113_apply]
    exact Ideal.ofBits_zero_f32
  rw [hz, zero_add, Finset.sum_filter, sum_idx2]
  refine Finset.sum_congr rfl fun n _ => ?_
  rw [onehot_apply]
  have inner : ∀ d' : Fin 192,
      (if Cert.ReferenceIdeal.scatter_S64x192_S50000x1_S50000x192_1_0_0_1.resultIdx? (ix2 n d')
          (Cert.ReferenceIdeal.ReadP.val_main_v114 (F := Ideal) x2) = some (ix2 g d) then (X (ix2 n d') : EReal) else 0)
        = if d' = d then (if x2 (ix1 n) = BitVec.ofNat 32 g.val then (X (ix2 n d) : EReal) else 0) else 0 := by
    intro d'
    by_cases hd : d' = d
    · subst hd
      rw [if_pos rfl]
      refine if_congr ?_ rfl rfl
      rw [resultP_iff, idxcol_apply, toInt_eq_iff]
      exact and_iff_left rfl
    · rw [if_neg hd, if_neg]
      rw [resultP_iff]
      exact fun h => hd h.2
  rw [Finset.sum_congr rfl fun d' _ => inner d', Finset.sum_ite_eq' Finset.univ d]
  rw [if_pos (Finset.mem_univ d)]
  by_cases h : x2 (ix1 n) = BitVec.ofNat 32 g.val
  · rw [if_pos h, if_pos h, one_mul]
  · rw [if_neg h, if_neg h, zero_mul]

open Cert.ReferenceIdeal in
/-- For the counts' scatter: update n starts, on the one axis, at node n's index word read signed. -/
theorem startC {w : Nat} (j : S50000.Idx) (idx : IVec S50000x1 w) :
    scatter_S64_S50000x1_S50000_n_0_0_1.start j idx (0 : Fin 1) = (idx (ix2 (j 0) (0 : Fin 1))).toInt := by
  unfold ScatterDims.start
  have h : (0 : Fin 1) ∈ scatter_S64_S50000x1_S50000_n_0_0_1.scatterDimsToOperandDims := List.mem_singleton.2 rfl
  rw [dif_pos h]
  congr 2
  funext b
  match b with
  | ⟨0, _⟩ => rfl
  | ⟨1, _⟩ => rfl

open Cert.ReferenceIdeal in
/-- The counts' scatter has no window axis: the window coordinate is zero. -/
theorem windowC (j : S50000.Idx) :
    scatter_S64_S50000x1_S50000_n_0_0_1.window j (0 : Fin 1) = 0 := by
  unfold ScatterDims.window
  have h : ¬ (0 : Fin 1) ∈ scatter_S64_S50000x1_S50000_n_0_0_1.sKept := by
    show ¬ (0 : Fin 1) ∈ ([] : List (Fin 1))
    decide
  rw [dif_neg h]

open Cert.ReferenceIdeal in
/-- Update n of the counts' scatter lands on entry g exactly when node n's index word, read signed, is g. -/
theorem resultC_iff {w : Nat} (idx : IVec S50000x1 w) (n : Fin 50000) (g : Fin 64) :
    scatter_S64_S50000x1_S50000_n_0_0_1.resultIdx? (ix1 n) idx = some (ix1 g)
      ↔ (idx (ix2 n (0 : Fin 1))).toInt = (g.val : ℤ) := by
  have hg := g.isLt
  have s0 : scatter_S64_S50000x1_S50000_n_0_0_1.start (ix1 n) idx (0 : Fin 1)
      + (scatter_S64_S50000x1_S50000_n_0_0_1.window (ix1 n) (0 : Fin 1) : ℤ) = (idx (ix2 n (0 : Fin 1))).toInt := by
    rw [startC, windowC]; exact Int.add_zero _
  unfold ScatterDims.resultIdx?
  split
  · next h =>
    have h0 := h 0
    rw [s0] at h0
    change 0 ≤ (idx (ix2 n (0 : Fin 1))).toInt ∧ (idx (ix2 n (0 : Fin 1))).toInt < ((64 : ℕ) : ℤ) at h0
    constructor
    · intro e
      have e' := Option.some.inj e
      have e0 := congrArg (fun f => (f 0).val) e'
      simp only [s0] at e0
      change (idx (ix2 n (0 : Fin 1))).toInt.toNat = g.val at e0
      omega
    · intro e0
      congr 1
      funext a
      match a with
      | ⟨0, _⟩ =>
        apply Fin.ext
        show (scatter_S64_S50000x1_S50000_n_0_0_1.start (ix1 n) idx (0 : Fin 1)
          + (scatter_S64_S50000x1_S50000_n_0_0_1.window (ix1 n) (0 : Fin 1) : ℤ)).toNat = g.val
        rw [s0]; omega
  · next h =>
    constructor
    · intro e; cases e
    · intro e0
      exfalso
      apply h
      intro a
      match a with
      | ⟨0, _⟩ =>
        show 0 ≤ scatter_S64_S50000x1_S50000_n_0_0_1.start (ix1 n) idx (0 : Fin 1)
            + (scatter_S64_S50000x1_S50000_n_0_0_1.window (ix1 n) (0 : Fin 1) : ℤ)
          ∧ scatter_S64_S50000x1_S50000_n_0_0_1.start (ix1 n) idx (0 : Fin 1)
            + (scatter_S64_S50000x1_S50000_n_0_0_1.window (ix1 n) (0 : Fin 1) : ℤ) < ((64 : ℕ) : ℤ)
        rw [s0]; omega

/-- A sum over a rank-1 index set is the sum over its coordinate range. -/
theorem sum_rank1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := ix1, invFun := fun i => i 0, left_inv := fun _ => rfl, right_inv := fun i => (eq_ix1 i).symm }
  exact (Equiv.sum_comp e f).symm

/-- The counts' index array, at row n, is node n's graph index. -/
theorem idxcolC_apply (x2 : (⟨Cert.KernelIdeal.S50000, .i32⟩ : BufTy).Contents (Elt Ideal)) (n : Fin 50000) :
    Cert.ReferenceIdeal.ReadP.val_main_v118 (F := Ideal) x2 (ix2 n (0 : Fin 1)) = x2 (ix1 n) := by
  rw [Cert.ReferenceIdeal.ReadP.val_main_v118_apply]
  congr 1
  funext a
  match a with
  | ⟨0, _⟩ => rfl

/-- The f32 pattern of one is the extended real one. -/
theorem one_f32 : Ideal.ofBits .f32 0x3F800000#32 = 1 := by
  rw [show (1 : EReal) = ((1 : ℝ) : EReal) by norm_cast]
  simp [Ideal.ofBits, Ideal.ieee, -EReal.coe_mul]; norm_num

open Cert.KernelIdeal Cert.KernelIdeal.Facts₀ Cert.KernelIdeal.Facts in
/-- The count of graph g, as the column sum of the one-hot matrix, is the number of nodes whose index word is g:
    the sum over the nodes of one or zero. -/
theorem counts_apply (x2 : (⟨Cert.KernelIdeal.S50000, .i32⟩ : BufTy).Contents (Elt Ideal)) (g : Fin 64) :
    Cert.KernelIdeal.Spec.counts (F := Ideal) x2 (ix1 g)
      = ∑ n : Fin 50000, if x2 (ix1 n) = BitVec.ofNat 32 g.val then (1 : EReal) else 0 := by
  have hR : Cert.KernelIdeal.S50000x64.Reduces [0] Cert.KernelIdeal.S64 := by decide
  show Ideal.hostReduceAdd reducesTo_S50000x64_S64_d0 (Cert.KernelIdeal.Spec.onehot (F := Ideal) x2) (Ideal.ofBits .f32 0x00000000#32) (ix1 g) = _
  rw [Ideal.hostReduceAdd_single _ hR, Ideal.ofBits_zero_f32, zero_add]
  show (∑ n : Fin 50000, (Cert.KernelIdeal.Spec.onehot (F := Ideal) x2 (hR.lift (ix1 g) n) : EReal)) = _
  refine Finset.sum_congr rfl fun n _ => ?_
  have hl : hR.lift (ix1 g) n = ix2 n g := by
    funext a
    match a with
    | ⟨0, _⟩ => rfl
    | ⟨1, _⟩ => rfl
  rw [hl, onehot_apply]

/-- The column sums of the one-hot matrix are the reference's scatter-add of ones at the graph indices. -/
theorem counts_eq (x2 : (⟨Cert.KernelIdeal.S50000, .i32⟩ : BufTy).Contents (Elt Ideal)) :
    Cert.KernelIdeal.Spec.counts (F := Ideal) x2 = Cert.ReferenceIdeal.ReadP.val_main_v119 (F := Ideal) x2 := by
  funext i
  obtain ⟨g, rfl⟩ : ∃ g : Fin 64, i = ix1 g := ⟨i 0, eq_ix1 i⟩
  rw [counts_apply]
  show _ = Cert.ReferenceIdeal.ReadP.val_main_v117 (F := Ideal) (ix1 g)
      + ∑ j ∈ Finset.univ.filter (fun j => Cert.ReferenceIdeal.scatter_S64_S50000x1_S50000_n_0_0_1.resultIdx? j
          (Cert.ReferenceIdeal.ReadP.val_main_v118 (F := Ideal) x2) = some (ix1 g)), Cert.ReferenceIdeal.ReadP.val_main_v116 (F := Ideal) j
  have hz : Cert.ReferenceIdeal.ReadP.val_main_v117 (F := Ideal) (ix1 g) = (0 : EReal) := by
    rw [Cert.ReferenceIdeal.ReadP.val_main_v117_apply]
    exact Ideal.ofBits_zero_f32
  rw [hz, zero_add, Finset.sum_filter, sum_rank1]
  refine Finset.sum_congr rfl fun n _ => ?_
  have ho : Cert.ReferenceIdeal.ReadP.val_main_v116 (F := Ideal) (ix1 n) = (1 : EReal) := by
    rw [Cert.ReferenceIdeal.ReadP.val_main_v116_apply]
    exact one_f32
  rw [ho]
  refine if_congr ?_ rfl rfl
  rw [resultC_iff, idxcolC_apply, toInt_eq_iff]

/-- Hence the two divisors agree. -/
theorem denom_eq (x2 : (⟨Cert.KernelIdeal.S50000, .i32⟩ : BufTy).Contents (Elt Ideal)) :
    Cert.KernelIdeal.Spec.denom (F := Ideal) (Cert.KernelIdeal.Spec.counts (F := Ideal) x2)
      = Cert.ReferenceIdeal.ReadP.val_main_v123 (F := Ideal) x2 := by
  rw [counts_eq]
  rfl

end Cert.KernelIdeal.Bridge

end
-- ==== Proof.KI.Mm0Val.lean ====
import proofs.«418734_j62998580298149_1_alg».proof.Proof.KI.Mm0
import proofs.«418734_j62998580298149_1_alg».proof.Proof.RefRead
import Idealize.ShloMosaic.Lib.Pipeline.Value
import Idealize.ShloMosaic.Lib.ValueIdx
import Idealize.ShloMosaic.Lib.ValueLayout
import Idealize.ShloMosaic.PureOps.Ideal.Laws

/-! What a projection region leaves in its output array, over the extended reals: block t of the output is the product
    of block t of the rows with the whole weight matrix, the five blocks tile the array, so the array is the product of
    the whole input with the weights: entry (r, j) is the sum over k of input(r, k) · weight(k, j), which is the host's
    `dot_general` of the same two operands. -/

set_option maxRecDepth 16384

noncomputable section

namespace Cert.KernelIdeal.Mm0Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

-- the buffers' contents when the region is entered, over the extended reals
variable (V : (c : Dev nD) → (b : Ref sig .tc) → Buf (Elt Ideal) ((c : Thread nD τ).loc b))

/-! ## One block's product, entry by entry -/

/-- The left factor of entry `i` at contraction index `q` sits in the row of `i`, -/
theorem blockRow_0 (i : S10000x24.Idx) (q : dot_S10000x3_S3x24_S10000x24_1_0_0_1_n_n.contr.Idx) :
    (dot_S10000x3_S3x24_S10000x24_1_0_0_1_n_n.lhsIdx i q 0).val = (i 0).val := by
  unfold DotDims.lhsIdx
  rw [dif_neg (show ¬(0 : Fin S10000x3.rank) ∈ dot_S10000x3_S3x24_S10000x24_1_0_0_1_n_n.lhsBatch by decide),
    dif_pos (show (0 : Fin S10000x3.rank) ∈ dot_S10000x3_S3x24_S10000x24_1_0_0_1_n_n.lhsNonContracting by decide)]
  rfl
/-- in the column the contraction index names; -/
theorem blockRow_1 (i : S10000x24.Idx) (q : dot_S10000x3_S3x24_S10000x24_1_0_0_1_n_n.contr.Idx) :
    (dot_S10000x3_S3x24_S10000x24_1_0_0_1_n_n.lhsIdx i q 1).val = (q ⟨0, by decide⟩).val :=
  dot_S10000x3_S3x24_S10000x24_1_0_0_1_n_n.lhsIdx_val_of_single rfl i q
/-- the right factor in the row the contraction index names, -/
theorem blockCol_0 (i : S10000x24.Idx) (q : dot_S10000x3_S3x24_S10000x24_1_0_0_1_n_n.contr.Idx) :
    (dot_S10000x3_S3x24_S10000x24_1_0_0_1_n_n.rhsIdx i q 0).val = (q ⟨0, by decide⟩).val :=
  dot_S10000x3_S3x24_S10000x24_1_0_0_1_n_n.rhsIdx_val_of_single rfl i q
/-- in the column of `i`. -/
theorem blockCol_1 (i : S10000x24.Idx) (q : dot_S10000x3_S3x24_S10000x24_1_0_0_1_n_n.contr.Idx) :
    (dot_S10000x3_S3x24_S10000x24_1_0_0_1_n_n.rhsIdx i q 1).val = (i 1).val := by
  unfold DotDims.rhsIdx
  rw [dif_neg (show ¬(1 : Fin S3x24.rank) ∈ dot_S10000x3_S3x24_S10000x24_1_0_0_1_n_n.rhsBatch by decide),
    dif_pos (show (1 : Fin S3x24.rank) ∈ dot_S10000x3_S3x24_S10000x24_1_0_0_1_n_n.rhsNonContracting by decide)]
  rfl

/-- Entry (p, q) of what the body stores: the sum over `k` of row-block(p, k) · weights(k, q). -/
theorem block_product_apply (x0 : Vec Ideal S10000x3 .f32) (x1 : Vec Ideal S3x24 .f32) (p : Fin 10000) (q : Fin 24) :
    k0_pay1 (F := Ideal) x0 x1 (ix2 p q) = ∑ k : Fin 3, x0 (ix2 p k) * x1 (ix2 k q) := by
  unfold k0_pay1
  simp only [matmul]
  rw [Ideal.matmul_constant_zero_apply, ← Equiv.sum_comp (ValueIdx.contrEquiv1 dot_S10000x3_S3x24_S10000x24_1_0_0_1_n_n 3 rfl rfl).symm]
  refine Finset.sum_congr rfl fun k _ => ?_
  have hk := ValueIdx.contrEquiv1_symm_val dot_S10000x3_S3x24_S10000x24_1_0_0_1_n_n 3 rfl rfl k
  have el : dot_S10000x3_S3x24_S10000x24_1_0_0_1_n_n.lhsIdx (ix2 p q) ((ValueIdx.contrEquiv1 dot_S10000x3_S3x24_S10000x24_1_0_0_1_n_n 3 rfl rfl).symm k) = ix2 p k :=
    funext fun a => Fin.ext (by
      match a with
      | ⟨0, _⟩ => exact blockRow_0 _ _
      | ⟨1, _⟩ => exact (blockRow_1 _ _).trans hk)
  have er : dot_S10000x3_S3x24_S10000x24_1_0_0_1_n_n.rhsIdx (ix2 p q) ((ValueIdx.contrEquiv1 dot_S10000x3_S3x24_S10000x24_1_0_0_1_n_n 3 rfl rfl).symm k) = ix2 k q :=
    funext fun a => Fin.ext (by
      match a with
      | ⟨0, _⟩ => exact (blockCol_0 _ _).trans hk
      | ⟨1, _⟩ => exact blockCol_1 _ _)
  rw [el, er]
  simp only [truncf_apply, shapeCast_self]

/-! ## The host's product of the whole arrays, entry by entry -/

/-- The left factor of entry `i` at contraction index `q` sits in the row of `i`, -/
theorem wholeRow_0 (i : S50000x24.Idx) (q : Cert.ReferenceIdeal.dot_S50000x3_S3x24_S50000x24_1_0_0_1_n_n.contr.Idx) :
    (Cert.ReferenceIdeal.dot_S50000x3_S3x24_S50000x24_1_0_0_1_n_n.lhsIdx i q 0).val = (i 0).val := by
  unfold DotDims.lhsIdx
  rw [dif_neg (show ¬(0 : Fin S50000x3.rank) ∈ Cert.ReferenceIdeal.dot_S50000x3_S3x24_S50000x24_1_0_0_1_n_n.lhsBatch by decide),
    dif_pos (show (0 : Fin S50000x3.rank) ∈ Cert.ReferenceIdeal.dot_S50000x3_S3x24_S50000x24_1_0_0_1_n_n.lhsNonContracting by decide)]
  rfl
/-- in the column the contraction index names; -/
theorem wholeRow_1 (i : S50000x24.Idx) (q : Cert.ReferenceIdeal.dot_S50000x3_S3x24_S50000x24_1_0_0_1_n_n.contr.Idx) :
    (Cert.ReferenceIdeal.dot_S50000x3_S3x24_S50000x24_1_0_0_1_n_n.lhsIdx i q 1).val = (q ⟨0, by decide⟩).val :=
  Cert.ReferenceIdeal.dot_S50000x3_S3x24_S50000x24_1_0_0_1_n_n.lhsIdx_val_of_single rfl i q
/-- the right factor in the row the contraction index names, -/
theorem wholeCol_0 (i : S50000x24.Idx) (q : Cert.ReferenceIdeal.dot_S50000x3_S3x24_S50000x24_1_0_0_1_n_n.contr.Idx) :
    (Cert.ReferenceIdeal.dot_S50000x3_S3x24_S50000x24_1_0_0_1_n_n.rhsIdx i q 0).val = (q ⟨0, by decide⟩).val :=
  Cert.ReferenceIdeal.dot_S50000x3_S3x24_S50000x24_1_0_0_1_n_n.rhsIdx_val_of_single rfl i q
/-- in the column of `i`. -/
theorem wholeCol_1 (i : S50000x24.Idx) (q : Cert.ReferenceIdeal.dot_S50000x3_S3x24_S50000x24_1_0_0_1_n_n.contr.Idx) :
    (Cert.ReferenceIdeal.dot_S50000x3_S3x24_S50000x24_1_0_0_1_n_n.rhsIdx i q 1).val = (i 1).val := by
  unfold DotDims.rhsIdx
  rw [dif_neg (show ¬(1 : Fin S3x24.rank) ∈ Cert.ReferenceIdeal.dot_S50000x3_S3x24_S50000x24_1_0_0_1_n_n.rhsBatch by decide),
    dif_pos (show (1 : Fin S3x24.rank) ∈ Cert.ReferenceIdeal.dot_S50000x3_S3x24_S50000x24_1_0_0_1_n_n.rhsNonContracting by decide)]
  rfl

/-- Entry (r, q) of the host's product of an input array with a weight array: the sum over `k` of input(r, k) · weights(k, q). -/
theorem whole_product_apply (X : FVec Ideal S50000x3 .f32) (W : FVec Ideal S3x24 .f32) (r : Fin 50000) (q : Fin 24) :
    Host.dotGeneral (F := Ideal) Cert.ReferenceIdeal.dot_S50000x3_S3x24_S50000x24_1_0_0_1_n_n none X W (ix2 r q)
      = ∑ k : Fin 3, X (ix2 r k) * W (ix2 k q) := by
  simp only [Host.dotGeneral]
  rw [Ideal.dotGeneral_apply, ← Equiv.sum_comp (ValueIdx.contrEquiv1 Cert.ReferenceIdeal.dot_S50000x3_S3x24_S50000x24_1_0_0_1_n_n 3 rfl rfl).symm]
  refine Finset.sum_congr rfl fun k _ => ?_
  have hk := ValueIdx.contrEquiv1_symm_val Cert.ReferenceIdeal.dot_S50000x3_S3x24_S50000x24_1_0_0_1_n_n 3 rfl rfl k
  have el : Cert.ReferenceIdeal.dot_S50000x3_S3x24_S50000x24_1_0_0_1_n_n.lhsIdx (ix2 r q) ((ValueIdx.contrEquiv1 Cert.ReferenceIdeal.dot_S50000x3_S3x24_S50000x24_1_0_0_1_n_n 3 rfl rfl).symm k) = ix2 r k :=
    funext fun a => Fin.ext (by
      match a with
      | ⟨0, _⟩ => exact wholeRow_0 _ _
      | ⟨1, _⟩ => exact (wholeRow_1 _ _).trans hk)
  have er : Cert.ReferenceIdeal.dot_S50000x3_S3x24_S50000x24_1_0_0_1_n_n.rhsIdx (ix2 r q) ((ValueIdx.contrEquiv1 Cert.ReferenceIdeal.dot_S50000x3_S3x24_S50000x24_1_0_0_1_n_n 3 rfl rfl).symm k) = ix2 k q :=
    funext fun a => Fin.ext (by
      match a with
      | ⟨0, _⟩ => exact (wholeCol_0 _ _).trans hk
      | ⟨1, _⟩ => exact wholeCol_1 _ _)
  rw [el, er]

/-- So a block of rows times the weights is, entry by entry, those rows of the whole product: whenever the block's row `p`
    is the input's row `r` and the block's weights are the weights. -/
theorem block_entry_eq_whole (x0 : Vec Ideal S10000x3 .f32) (x1 : Vec Ideal S3x24 .f32)
    (X : FVec Ideal S50000x3 .f32) (W : FVec Ideal S3x24 .f32) (p : Fin 10000) (q : Fin 24) (r : Fin 50000)
    (hrows : ∀ k : Fin 3, x0 (ix2 p k) = X (ix2 r k)) (hweights : ∀ k : Fin 3, x1 (ix2 k q) = W (ix2 k q)) :
    k0_pay1 (F := Ideal) x0 x1 (ix2 p q)
      = Host.dotGeneral (F := Ideal) Cert.ReferenceIdeal.dot_S50000x3_S3x24_S50000x24_1_0_0_1_n_n none X W (ix2 r q) := by
  rw [block_product_apply, whole_product_apply]
  exact Finset.sum_congr rfl fun k _ => by rw [hrows k, hweights k]

/-! ## The three windows' blocks in their arrays -/

/-- The grid has five points. -/
theorem point_count : cfg0.N = 5 := by decide

/-- Where each window's block sits at point `t`: the two row windows at block row `t`, the weights at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every point writes its output block back. -/
theorem written_back_everywhere : ∀ t : Fin cfg0.N, (cfg0.win 2).flush t = true :=
  (by decide +kernel : ∀ t : Fin grid0.N, win0_2.flush t = true)

/-- The row block of point `t` at (p, k) is the input array at (10000·t + p, k). -/
theorem rows_apply (c : Dev nD) (t : Fin cfg0.N) (p : Fin 10000) (k : Fin 3) (r : Fin 50000)
    (hr : r.val = t.val * 10000 + p.val) :
    (Mm0.iblk (F := Ideal) V c 0 t : Vec Ideal S10000x3 .f32) (ix2 p k)
      = (V c (Pipeline.arrRef spec0 0) : FVec Ideal S50000x3 .f32) (ix2 r k) := by
  obtain ⟨e0, e1, -⟩ := block_indices t
  unfold Mm0.iblk
  rw [View.read_apply]
  show V c (Pipeline.arrRef spec0 0) _ = V c (Pipeline.arrRef spec0 0) _
  congr 1
  funext a; apply Fin.ext
  match a with
  | ⟨0, _⟩ => show win0_0.index t (0 : Fin 2) * 10000 + 1 * p.val = r.val; rw [e0, hr]; omega
  | ⟨1, _⟩ => show win0_0.index t (1 : Fin 2) * _ + 1 * k.val = k.val; rw [e1]; omega

/-- The weight block of any point is the weight array. -/
theorem weights_apply (c : Dev nD) (t : Fin cfg0.N) (k : Fin 3) (q : Fin 24) :
    (Mm0.iblk (F := Ideal) V c 1 t : Vec Ideal S3x24 .f32) (ix2 k q)
      = (V c (Pipeline.arrRef spec0 1) : FVec Ideal S3x24 .f32) (ix2 k q) := by
  obtain ⟨-, -, e0, e1, -⟩ := block_indices t
  unfold Mm0.iblk
  rw [View.read_apply]
  show V c (Pipeline.arrRef spec0 1) _ = V c (Pipeline.arrRef spec0 1) _
  congr 1
  funext a; apply Fin.ext
  match a with
  | ⟨0, _⟩ => show win0_1.index t (0 : Fin 2) * _ + 1 * k.val = k.val; rw [e0]; omega
  | ⟨1, _⟩ => show win0_1.index t (1 : Fin 2) * _ + 1 * q.val = q.val; rw [e1]; omega

/-- What point `t` writes back is block `t` of the host's product of the two operand arrays. -/
theorem written_back_eq (c : Dev nD) (t : Fin cfg0.N) :
    (Mm0.dat (F := Ideal) V c).flushed 2 t
      = ((cfg0.win 2).blk t).view.read (Elt Ideal)
          (Host.dotGeneral (F := Ideal) (φ₁ := .f32) (φ₂ := .f32) Cert.ReferenceIdeal.dot_S50000x3_S3x24_S50000x24_1_0_0_1_n_n none
            (V c (Pipeline.arrRef spec0 0)) (V c (Pipeline.arrRef spec0 1))) := by
  show (cfg0.win 2).cut (grid0.coords t) ((Mm0.dat V c).after 2 t) = _
  rw [Mm0.after_2]
  unfold Mm0.out2
  obtain ⟨-, -, -, -, e0, e1⟩ := block_indices t
  have ht : t.val < 5 := point_count ▸ t.isLt
  funext y
  obtain ⟨p, q, rfl⟩ : ∃ (p : Fin 10000) (q : Fin 24), y = ix2 p q := ⟨y 0, y 1, eq_ix2 y⟩
  rw [View.read_apply]
  have hemb : ((cfg0.win 2).blk t).view.emb (ix2 p q) = ix2 (⟨t.val * 10000 + p.val, by omega⟩ : Fin 50000) q := by
    funext a; apply Fin.ext
    match a with
    | ⟨0, _⟩ => show win0_2.index t (0 : Fin 2) * 10000 + 1 * p.val = t.val * 10000 + p.val; rw [e0]; omega
    | ⟨1, _⟩ => show win0_2.index t (1 : Fin 2) * _ + 1 * q.val = q.val; rw [e1]; omega
  show k0_pay1 (F := Ideal) _ _ (ix2 p q) = Host.dotGeneral (F := Ideal) _ none _ _ (((cfg0.win 2).blk t).view.emb (ix2 p q))
  rw [hemb]
  exact block_entry_eq_whole _ _ _ _ p q _ (fun k => rows_apply V c t p k _ rfl) (fun k => weights_apply V c t k q)

/-! ## The five blocks tile the output -/

/-- An index of the output array is in point `t`'s block iff each coordinate is in the block's range on its axis. -/
theorem mem_out_block (t : Fin cfg0.N) (i : S50000x24.Idx) :
    i ∈ ((cfg0.win 2).blk t).view.set
      ↔ ∀ a : Fin 2, win0_2.index t a * S10000x24.size a ≤ (i a).val ∧ (i a).val < win0_2.index t a * S10000x24.size a + S10000x24.size a := by
  show i ∈ ((View.whole (Pipeline.arrRef spec0 2)).slice (win0_2.rect t)).set ↔ _
  rw [View.set_slice_whole, Rect.mem_set_unit]
  exact Iff.rfl

/-- Row `r` of the output lies in the block of point `r / 10000`, which is written back. -/
theorem rows_covered (i : S50000x24.Idx) :
    ∃ t : Fin cfg0.N, (cfg0.win 2).flush t = true ∧ i ∈ ((cfg0.win 2).blk t).view.set := by
  have h0 : (i 0).val < 50000 := (i 0).isLt
  obtain ⟨t, ht⟩ : ∃ t : Fin cfg0.N, t.val = (i 0).val / 10000 :=
    ⟨⟨(i 0).val / 10000, by rw [point_count]; omega⟩, rfl⟩
  obtain ⟨-, -, -, -, e0, e1⟩ := block_indices t
  refine ⟨t, written_back_everywhere t, ?_⟩
  rw [mem_out_block]
  intro a
  match a with
  | ⟨0, _⟩ =>
    show win0_2.index t (0 : Fin 2) * 10000 ≤ (i 0).val ∧ (i 0).val < win0_2.index t (0 : Fin 2) * 10000 + 10000
    rw [e0]; omega
  | ⟨1, _⟩ =>
    show win0_2.index t (1 : Fin 2) * S10000x24.size 1 ≤ (i 1).val ∧ (i 1).val < win0_2.index t (1 : Fin 2) * S10000x24.size 1 + S10000x24.size 1
    have h1 : (i 1).val < S10000x24.size 1 := (i 1).isLt
    rw [e1]; omega

/-- The region's output array after the run is the host's product of its two operand arrays. -/
theorem arr_eq (c : Dev nD) :
    (Mm0.dat (F := Ideal) V c).arrAt 2 cfg0.N
      = Host.dotGeneral (F := Ideal) (φ₁ := .f32) (φ₂ := .f32) Cert.ReferenceIdeal.dot_S50000x3_S3x24_S50000x24_1_0_0_1_n_n none
          (V c (Pipeline.arrRef spec0 0)) (V c (Pipeline.arrRef spec0 1)) :=
  (Mm0.dat (F := Ideal) V c).arrAt_eq_of_cover 2 _ (fun t _ => written_back_eq V c t) rows_covered

end Cert.KernelIdeal.Mm0Val

end
-- ==== Proof.KI.PoolVal.lean ====
import proofs.«418734_j62998580298149_1_alg».proof.Proof.KI.Pool
import proofs.«418734_j62998580298149_1_alg».proof.Proof.KI.Spec
import proofs.«418734_j62998580298149_1_alg».proof.Proof.RefRead
import Idealize.ShloMosaic.Lib.Pipeline.Value
import Idealize.ShloMosaic.Lib.ValueIdx
import Idealize.ShloMosaic.Lib.ValueLayout
import Idealize.ShloMosaic.PureOps.Ideal.Laws

/-! What the pooling region leaves in its output array, over the extended reals: the accumulator after the last of the
    five blocks is the sum over the blocks of (one-hot block)ᵀ · (feature block), that is the sum over all 50000 nodes
    of onehot(n, g) · feature(n, d); the last point copies it to the output block, which is the whole array. -/

set_option maxRecDepth 16384

noncomputable section

namespace Cert.KernelIdeal.PoolVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The block product at an entry

The product contracts the row axis of both operands: entry (g, d) is the sum over the 10000 rows r of the block of
left(r, g) · right(r, d). -/

/-- The left operand is read at the contraction position on its row axis, -/
theorem lhs_row (i : S64x192.Idx) (q : dot_S10000x64_S10000x192_S64x192_0_0_1_1_n_n.contr.Idx) :
    (dot_S10000x64_S10000x192_S64x192_0_0_1_1_n_n.lhsIdx i q 0).val = (q ⟨0, by decide⟩).val :=
  dot_S10000x64_S10000x192_S64x192_0_0_1_1_n_n.lhsIdx_val_of_single rfl i q
/-- and at the result's first coordinate on its column axis; -/
theorem lhs_col (i : S64x192.Idx) (q : dot_S10000x64_S10000x192_S64x192_0_0_1_1_n_n.contr.Idx) :
    (dot_S10000x64_S10000x192_S64x192_0_0_1_1_n_n.lhsIdx i q 1).val = (i 0).val := by
  unfold DotDims.lhsIdx
  rw [dif_neg (show ¬(1 : Fin S10000x64.rank) ∈ dot_S10000x64_S10000x192_S64x192_0_0_1_1_n_n.lhsBatch by decide), dif_pos (show (1 : Fin S10000x64.rank) ∈ dot_S10000x64_S10000x192_S64x192_0_0_1_1_n_n.lhsNonContracting by decide)]
  rfl
/-- the right operand at the contraction position on its row axis, -/
theorem rhs_row (i : S64x192.Idx) (q : dot_S10000x64_S10000x192_S64x192_0_0_1_1_n_n.contr.Idx) :
    (dot_S10000x64_S10000x192_S64x192_0_0_1_1_n_n.rhsIdx i q 0).val = (q ⟨0, by decide⟩).val :=
  dot_S10000x64_S10000x192_S64x192_0_0_1_1_n_n.rhsIdx_val_of_single rfl i q
/-- and at the result's second coordinate on its column axis. -/
theorem rhs_col (i : S64x192.Idx) (q : dot_S10000x64_S10000x192_S64x192_0_0_1_1_n_n.contr.Idx) :
    (dot_S10000x64_S10000x192_S64x192_0_0_1_1_n_n.rhsIdx i q 1).val = (i 1).val := by
  unfold DotDims.rhsIdx
  rw [dif_neg (show ¬(1 : Fin S10000x192.rank) ∈ dot_S10000x64_S10000x192_S64x192_0_0_1_1_n_n.rhsBatch by decide), dif_pos (show (1 : Fin S10000x192.rank) ∈ dot_S10000x64_S10000x192_S64x192_0_0_1_1_n_n.rhsNonContracting by decide)]
  rfl

/-- The product of a transposed left block with a right block, into the zero accumulator, at entry (g, d): the sum
    over the block's rows of left(r, g) · right(r, d). -/
theorem prod_apply (x0 : FVec Ideal S10000x64 .bf16) (x1 : FVec Ideal S10000x192 .bf16) (g : Fin 64) (d : Fin 192) :
    FloatOps.matmul dot_S10000x64_S10000x192_S64x192_0_0_1_1_n_n none x0 x1 (constant (F := Ideal) S64x192 .f32 0x00000000#32) (ix2 g d)
      = ∑ r : Fin 10000, x0 (ix2 r g) * x1 (ix2 r d) := by
  rw [Ideal.matmul_constant_zero_apply, ← Equiv.sum_comp (ValueIdx.contrEquiv1 dot_S10000x64_S10000x192_S64x192_0_0_1_1_n_n 10000 rfl rfl).symm]
  refine Finset.sum_congr rfl fun k _ => ?_
  have hk := ValueIdx.contrEquiv1_symm_val dot_S10000x64_S10000x192_S64x192_0_0_1_1_n_n 10000 rfl rfl k
  have el : dot_S10000x64_S10000x192_S64x192_0_0_1_1_n_n.lhsIdx (ix2 g d) ((ValueIdx.contrEquiv1 dot_S10000x64_S10000x192_S64x192_0_0_1_1_n_n 10000 rfl rfl).symm k) = ix2 k g := funext fun a => Fin.ext (by
    match a with
    | ⟨0, _⟩ => exact (lhs_row _ _).trans hk
    | ⟨1, _⟩ => exact lhs_col _ _)
  have er : dot_S10000x64_S10000x192_S64x192_0_0_1_1_n_n.rhsIdx (ix2 g d) ((ValueIdx.contrEquiv1 dot_S10000x64_S10000x192_S64x192_0_0_1_1_n_n 10000 rfl rfl).symm k) = ix2 k d := funext fun a => Fin.ext (by
    match a with
    | ⟨0, _⟩ => exact (rhs_row _ _).trans hk
    | ⟨1, _⟩ => exact rhs_col _ _)
  rw [el, er]

/-- One step of the accumulation at entry (g, d): the accumulator there plus the block product there. -/
theorem step_apply (x0 : FVec Ideal S10000x64 .bf16) (x1 : FVec Ideal S10000x192 .f32) (a : FVec Ideal S64x192 .f32) (g : Fin 64) (d : Fin 192) :
    k3_pay2 x0 x1 a (ix2 g d) = a (ix2 g d) + ∑ r : Fin 10000, x0 (ix2 r g) * x1 (ix2 r d) := by
  unfold k3_pay2
  simp only [shapeCast_self]
  refine (addf_apply _ _ _).trans ?_
  refine congrArg (a (ix2 g d) + ·) ?_
  exact prod_apply x0 (truncf .bf16 x1 bitsLt_bf16_f32) g d

/-- The accumulator is reset to zero. -/
theorem zero_apply (j : S64x192.Idx) : (k3_pay1 (F := Ideal)) j = 0 := by
  unfold k3_pay1
  simp only [shapeCast_self]
  exact Ideal.ofBits_zero_f32

-- the buffers' contents when the region is entered, over the extended reals
variable (V : (c : Dev nD) → (b : Ref sig .tc) → Buf (Elt Ideal) ((c : Thread nD τ).loc b))

/-! ## The blocks read where the arrays say -/

/-- The windows' block indices over the grid: the two operands' blocks go down the rows with the point and span all
    columns; the output's one block stays. -/
theorem blk_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- Row r of the block at point t is row 10000·t + r of the array. -/
def rowAt (t : Fin cfg3.N) (r : Fin 10000) : Fin 50000 :=
  ⟨10000 * t.val + r.val, by have h := t.isLt; have hN : cfg3.N = 5 := N_3; have := r.isLt; omega⟩

/-- The one-hot block at point t, at (r, g), is the one-hot array at (10000·t + r, g). -/
theorem oh_blk (c : Dev nD) (t : Fin cfg3.N) (r : Fin 10000) (g : Fin 64) :
    (Pool.iblk V c 0 t : Vec Ideal S10000x64 .bf16) (ix2 r g)
      = (V c (Pipeline.arrRef spec3 0) : S50000x64.Idx → Ideal .bf16) (ix2 (rowAt t r) g) := by
  obtain ⟨e0, e1, -, -, -, -⟩ := blk_index t
  unfold Pool.iblk
  show V c (Pipeline.arrRef spec3 0) (((cfg3.win 0).blk t).view.emb (ix2 r g)) = V c (Pipeline.arrRef spec3 0) (ix2 (rowAt t r) g)
  refine congrArg _ (funext fun a => Fin.ext ?_)
  match a with
  | ⟨0, _⟩ => show win3_0.index t (0 : Fin 2) * 10000 + 1 * r.val = 10000 * t.val + r.val; rw [e0]; omega
  | ⟨1, _⟩ => show win3_0.index t (1 : Fin 2) * 64 + 1 * g.val = g.val; rw [e1]; omega

/-- The feature block at point t, at (r, d), is the feature array at (10000·t + r, d). -/
theorem x_blk (c : Dev nD) (t : Fin cfg3.N) (r : Fin 10000) (d : Fin 192) :
    (Pool.iblk V c 1 t : Vec Ideal S10000x192 .f32) (ix2 r d)
      = (V c (Pipeline.arrRef spec3 1) : S50000x192.Idx → Ideal .f32) (ix2 (rowAt t r) d) := by
  obtain ⟨-, -, e0, e1, -, -⟩ := blk_index t
  unfold Pool.iblk
  show V c (Pipeline.arrRef spec3 1) (((cfg3.win 1).blk t).view.emb (ix2 r d)) = V c (Pipeline.arrRef spec3 1) (ix2 (rowAt t r) d)
  refine congrArg _ (funext fun a => Fin.ext ?_)
  match a with
  | ⟨0, _⟩ => show win3_1.index t (0 : Fin 2) * 10000 + 1 * r.val = 10000 * t.val + r.val; rw [e0]; omega
  | ⟨1, _⟩ => show win3_1.index t (1 : Fin 2) * 192 + 1 * d.val = d.val; rw [e1]; omega

/-! ## The accumulator after each point -/

/-- The summand of entry (g, d) at node n: onehot(n, g) · feature(n, d) (zero past the last node). -/
def term (oh : S50000x64.Idx → Ideal .bf16) (x : S50000x192.Idx → Ideal .f32) (g : Fin 64) (d : Fin 192) (n : ℕ) : EReal :=
  if h : n < 50000 then (oh (ix2 ⟨n, h⟩ g) : EReal) * (x (ix2 ⟨n, h⟩ d) : EReal) else 0

/-- The one-hot block and the feature block at point t, as vectors of extended reals. -/
abbrev ohB (c : Dev nD) (t : Fin cfg3.N) : FVec Ideal S10000x64 .bf16 := Pool.iblk V c 0 t
abbrev xB (c : Dev nD) (t : Fin cfg3.N) : FVec Ideal S10000x192 .f32 := Pool.iblk V c 1 t

/-- The block product at point t, at entry (g, d), is the sum of the summands at the block's 10000 nodes. -/
theorem blk_sum (c : Dev nD) (t : Fin cfg3.N) (g : Fin 64) (d : Fin 192) :
    ∑ r : Fin 10000, ohB V c t (ix2 r g) * xB V c t (ix2 r d)
      = ∑ r ∈ Finset.range 10000, term (V c (Pipeline.arrRef spec3 0)) (V c (Pipeline.arrRef spec3 1)) g d (10000 * t.val + r) := by
  rw [Finset.sum_range]
  refine Finset.sum_congr rfl fun r _ => ?_
  rw [show ohB V c t (ix2 r g) = _ from oh_blk V c t r g, show xB V c t (ix2 r d) = _ from x_blk V c t r d]
  unfold term
  rw [dif_pos (show 10000 * t.val + r.val < 50000 from (rowAt t r).isLt)]
  rfl

/-- After point n the accumulator's entry (g, d) is the sum of the summands at the nodes of the blocks 0 … n. -/
theorem acc_apply (c : Dev nD) (g : Fin 64) (d : Fin 192) : ∀ (n : ℕ) (h : n < cfg3.N),
    Pool.accAt V c n h (ix2 g d)
      = ∑ k ∈ Finset.range (10000 * (n + 1)), term (V c (Pipeline.arrRef spec3 0)) (V c (Pipeline.arrRef spec3 1)) g d k
  | 0, h => by
    show k3_pay2 (Pool.iblk V c 0 ⟨0, h⟩) (Pool.iblk V c 1 ⟨0, h⟩) (k3_pay1 (F := Ideal)) (ix2 g d) = _
    refine (step_apply (ohB V c ⟨0, h⟩) (xB V c ⟨0, h⟩) _ g d).trans ?_
    rw [zero_apply, zero_add, blk_sum V c ⟨0, h⟩ g d]
    refine Finset.sum_congr rfl fun r _ => ?_
    rw [show 10000 * (⟨0, h⟩ : Fin cfg3.N).val + r = r from by show 10000 * 0 + r = r; omega]
  | n + 1, h => by
    show k3_pay2 (Pool.iblk V c 0 ⟨n + 1, h⟩) (Pool.iblk V c 1 ⟨n + 1, h⟩) (Pool.accAt V c n (Nat.lt_of_succ_lt h)) (ix2 g d) = _
    refine (step_apply (ohB V c ⟨n + 1, h⟩) (xB V c ⟨n + 1, h⟩) _ g d).trans ?_
    rw [acc_apply c g d n (Nat.lt_of_succ_lt h), blk_sum V c ⟨n + 1, h⟩ g d,
      show 10000 * (n + 1 + 1) = 10000 * (n + 1) + 10000 from by omega, Finset.sum_range_add]

/-- Over all five blocks that is the sum over the 50000 nodes. -/
theorem sum_all (oh : S50000x64.Idx → Ideal .bf16) (x : S50000x192.Idx → Ideal .f32) (g : Fin 64) (d : Fin 192) :
    ∑ k ∈ Finset.range 50000, term oh x g d k = ∑ n : Fin 50000, ((oh (ix2 n g) : EReal) * (x (ix2 n d) : EReal)) := by
  rw [Finset.sum_range]
  refine Finset.sum_congr rfl fun n _ => ?_
  unfold term
  rw [dif_pos n.isLt]

/-! ## From the last point to the array -/

/-- The output's one block is the whole array: contents read through it are the contents. -/
theorem out_read (t : Fin cfg3.N) (f : S64x192.Idx → Ideal .f32) :
    ((cfg3.win 2).blk t).view.read (Elt Ideal) f = f := by
  obtain ⟨-, -, -, -, e0, e1⟩ := blk_index t
  have hz : (fun a => win3_2.index t a * main_v122.ty.shape.size a) = fun _ => 0 := funext fun a => by
    match a with
    | ⟨0, _⟩ => show win3_2.index t (0 : Fin 2) * 64 = 0; rw [e0]
    | ⟨1, _⟩ => show win3_2.index t (1 : Fin 2) * 192 = 0; rw [e1]
  exact Memref.read_access_unit_zero (Elt Ideal) main_v122 hz (fun a => by rw [congrFun hz a, Nat.zero_add]) f

/-- What the one point that writes back (the last) writes is the pooled sum, read through the output's block. -/
theorem flushed_eq (c : Dev nD) (t : Fin cfg3.N) (hf : (cfg3.win 2).flush t = true) :
    (Pool.dat (F := Ideal) V c).flushed 2 t
      = ((cfg3.win 2).blk t).view.read (Elt Ideal) (Spec.poolSum (V c (Pipeline.arrRef spec3 0)) (V c (Pipeline.arrRef spec3 1))) := by
  have hN : cfg3.N = 5 := N_3
  have h4 : t.val = 4 := by have := (flush3_2 t).mp hf; have := t.isLt; omega
  refine Eq.trans ?_ (out_read t _).symm
  show (cfg3.win 2).cut (grid3.coords t) ((Pool.dat (F := Ideal) V c).after 2 t) = _
  rw [Pool.after_2]
  funext j
  obtain ⟨g, d, rfl⟩ : ∃ (g : Fin 64) (d : Fin 192), j = ix2 g d := ⟨j 0, j 1, eq_ix2 j⟩
  have hx : (cfg3.win 2).xinj (grid3.coords t) (ix2 g d) = ix2 g d := funext fun a => Fin.ext (by
    match a with
    | ⟨0, _⟩ => rfl
    | ⟨1, _⟩ => rfl)
  show Pool.accAt V c t.val t.isLt ((cfg3.win 2).xinj (grid3.coords t) (ix2 g d)) = _
  rw [hx, acc_apply V c g d t.val t.isLt, h4]
  exact sum_all _ _ g d

/-- The region's output array after the run is the pooled sum of its two operand arrays. -/
theorem arr_eq (c : Dev nD) :
    (Pool.dat (F := Ideal) V c).arrAt 2 cfg3.N
      = Spec.poolSum (V c (Pipeline.arrRef spec3 0)) (V c (Pipeline.arrRef spec3 1)) := by
  refine (Pool.dat (F := Ideal) V c).arrAt_eq_of_cover 2 _ (flushed_eq V c) fun i => ?_
  refine ⟨t3_4, (flush3_2 t3_4).mpr rfl, ?_⟩
  show i ∈ ((View.whole main_v122).slice (win3_2.rect t3_4)).set
  rw [View.set_slice_whole, Rect.mem_set_unit]
  intro a
  have h0 : (i 0 : Nat) < 64 := (i 0).isLt
  have h1 : (i 1 : Nat) < 192 := (i 1).isLt
  match a with
  | ⟨0, _⟩ =>
    show win3_2.index t3_4 0 * win3_2.size 0 ≤ (i 0 : Nat) ∧ (i 0 : Nat) < win3_2.index t3_4 0 * win3_2.size 0 + win3_2.xsize (grid3.coords t3_4) 0
    rw [show win3_2.index t3_4 0 * win3_2.size 0 = 0 from by decide +kernel, show win3_2.xsize (grid3.coords t3_4) 0 = 64 from by decide +kernel]; omega
  | ⟨1, _⟩ =>
    show win3_2.index t3_4 1 * win3_2.size 1 ≤ (i 1 : Nat) ∧ (i 1 : Nat) < win3_2.index t3_4 1 * win3_2.size 1 + win3_2.xsize (grid3.coords t3_4) 1
    rw [show win3_2.index t3_4 1 * win3_2.size 1 = 0 from by decide +kernel, show win3_2.xsize (grid3.coords t3_4) 1 = 192 from by decide +kernel]; omega

end Cert.KernelIdeal.PoolVal

end
-- ==== Proof.KI.Value.lean ====
import proofs.«418734_j62998580298149_1_alg».proof.Proof.KI.Run
import proofs.«418734_j62998580298149_1_alg».proof.Proof.KI.Stretch
import proofs.«418734_j62998580298149_1_alg».proof.Proof.KI.Bridge
import proofs.«418734_j62998580298149_1_alg».proof.Proof.KI.Mm0Val
import proofs.«418734_j62998580298149_1_alg».proof.Proof.KI.Mm1Val
import proofs.«418734_j62998580298149_1_alg».proof.Proof.KI.Mm2Val
import proofs.«418734_j62998580298149_1_alg».proof.Proof.KI.PoolVal

/-! The idealized kernel's result is the reference's, as a function of the nine arguments, over the extended reals.
    Each projection region leaves the host's product of its operands; the shared host stretches carry the reference's
    layer values from one projection to the next; the pooling region leaves the sum over the nodes of
    onehot(n, g) · x(n, d), which is the reference's scatter-add of the rows of x at the graph indices; and the two
    divisors max(count, 1) agree because the column sums of the one-hot matrix are the scatter-add of ones. -/

set_option maxRecDepth 16384

noncomputable section

namespace Cert.KernelIdeal.Value

open Idealize.ShloMosaic Idealize.ShloMosaic.TcCoe Idealize.SL.Sem
open Cert.KernelIdeal Cert.KernelIdeal.Gen Cert.KernelIdeal.Stretch

variable (m : (ℓ : Loc nD τ sig) → Buf (Elt Ideal) ℓ) (outs : Outs (F := Ideal)) (c : Dev nD)

/-- The first projection region leaves the reference's first projection. -/
theorem proj1 (h : Run.OutsOk m outs) :
    outs 3 main_v17 c = Cert.ReferenceIdeal.ReadP.val_main_v17 (F := Ideal) (a0 m c) (a3 m c) := by
  rw [h.1 c, Mm0Val.arr_eq]
  show Host.dotGeneral (F := Ideal) (φ₁ := .f32) (φ₂ := .f32) _ none (V2 m c main_arg0) (V2 m c main_arg3) = _
  rw [arg0_at2, arg3_at2]
  rfl

/-- The second projection region leaves the reference's second projection. -/
theorem proj2 (h : Run.OutsOk m outs) :
    outs 5 main_v49 c = Cert.ReferenceIdeal.ReadP.val_main_v49 (F := Ideal) (a0 m c) (a1 m c) (a3 m c) (a4 m c) (a5 m c) := by
  rw [h.2.1 c, Mm1Val.arr_eq]
  show Host.dotGeneral (F := Ideal) (φ₁ := .f32) (φ₂ := .f32) _ none (V4 m outs c main_v48) (V4 m outs c main_arg5) = _
  rw [layer1 m outs c (proj1 m outs c h), arg5_at4]
  rfl

/-- The third projection region leaves the reference's third projection. -/
theorem proj3 (h : Run.OutsOk m outs) :
    outs 7 main_v81 c = Cert.ReferenceIdeal.ReadP.val_main_v81 (F := Ideal) (a0 m c) (a1 m c) (a3 m c) (a4 m c) (a5 m c) (a6 m c) (a7 m c) := by
  rw [h.2.2.1 c, Mm2Val.arr_eq]
  show Host.dotGeneral (F := Ideal) (φ₁ := .f32) (φ₂ := .f32) _ none (V6 m outs c main_v80) (V6 m outs c main_arg7) = _
  rw [layer2 m outs c (proj2 m outs c h), arg7_at6]
  rfl

/-- The pooling region leaves the reference's pooled sums. -/
theorem pooled (h : Run.OutsOk m outs) :
    outs 9 main_v122 c = Cert.ReferenceIdeal.ReadP.val_main_v115 (F := Ideal) (a0 m c) (a1 m c) (a2 m c) (a3 m c) (a4 m c) (a5 m c) (a6 m c) (a7 m c) (a8 m c) := by
  rw [h.2.2.2 c, PoolVal.arr_eq]
  show Spec.poolSum (V8 m outs c main_v119) (V8 m outs c main_v112) = _
  rw [onehot_at8, layer3 m outs c (proj3 m outs c h), Bridge.pool_eq]
  rfl

/-- The result array after the run is the reference's result stage of the arguments. -/
theorem result_eq (h : Run.OutsOk m outs) :
    V10 m outs c main_v127
      = Cert.ReferenceIdeal.ReadP.val_main_v124 (F := Ideal) (a0 m c) (a1 m c) (a2 m c) (a3 m c) (a4 m c) (a5 m c) (a6 m c) (a7 m c) (a8 m c) := by
  rw [result_at10, pooled m outs c h, Bridge.denom_eq]
  rfl

end Cert.KernelIdeal.Value

end
-- ==== Proof.lean ====
/- The proof of `Cert.Claim`: the word-level kernel program and its idealization both run (every weakly fair execution
   terminates, nothing faults, the nine argument arrays end as launched), so does the idealized reference, the
   idealization rewrote nothing (its ledger is empty), and over the extended reals the idealized kernel and the idealized
   reference return the same 64×192 array from memories that agree on the arguments.

   The kernel program is ten items: the degree normalisation on the host, then three times a projection (a row-blocked
   matrix product in a kernel region) followed by the host's gather / scale / scatter-add / bias of a graph convolution,
   then the pooling region (the one-hot matrix of the graph indices, transposed, times the node features, accumulated
   over five blocks of rows) and the division by max(count, 1). Between the items every buffer holds a named value; the
   frames read the arguments, and the value claim the result, off the last one. The reference is the same host code with
   three host products and a scatter-add pooling; the two results are the same function of the arguments because a row-
   blocked product is the whole product, a one-hot pooling is a scatter-add pooling (zero annihilates and one preserves
   every extended real, and an index outside 0..63 is dropped by both), and the counts are the one-hot's column sums. -/
import proofs.«418734_j62998580298149_1_alg».proof.Defs
import proofs.«418734_j62998580298149_1_alg».proof.Proof.Gen.Kernel
import proofs.«418734_j62998580298149_1_alg».proof.Proof.Gen.KernelIdeal
import proofs.«418734_j62998580298149_1_alg».proof.Proof.Gen.ReferenceIdeal
import proofs.«418734_j62998580298149_1_alg».proof.Proof.Gen.Pre_finite_inputs
import proofs.«418734_j62998580298149_1_alg».proof.Proof.K.Run
import proofs.«418734_j62998580298149_1_alg».proof.Proof.KI.Run
import proofs.«418734_j62998580298149_1_alg».proof.Proof.KI.Value
import proofs.«418734_j62998580298149_1_alg».proof.Proof.RefRun
import proofs.«418734_j62998580298149_1_alg».proof.Proof.RefRead
import Idealize.ShloMosaic.Adequacy
import Idealize.ShloMosaic.Init

noncomputable section

namespace Cert.Proof

open Idealize.ShloMosaic Idealize.ShloMosaic.TcCoe Idealize.SL.Sem

/-- The word-level program runs and keeps its arguments: its run, the result's value forgotten. -/
theorem frame_kernel : Cert.frame_Kernel := fun m ρ _ => by
  obtain ⟨outs, h⟩ := Cert.Kernel.Run.exists_outs (F := Bits) m
  exact (θ_run Cert.Kernel.defs _ _).mono (fun _ hr c => (hr c).2) (Cert.Kernel.Run.run_named (F := Bits) m ρ outs h)

/-- The idealized program runs and keeps its arguments. -/
theorem frame_kernelIdeal : Cert.frame_KernelIdeal := fun m ρ _ => by
  obtain ⟨outs, h⟩ := Cert.KernelIdeal.Run.exists_outs (F := Ideal) m
  exact (θ_run Cert.KernelIdeal.defs _ _).mono (fun _ hr c => (hr c).2) (Cert.KernelIdeal.Run.run_named (F := Ideal) m ρ outs h)

/-- The idealized reference runs and keeps its arguments: its run, the result's value forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end at the reference's result stage of the arguments. -/
theorem algebraic : Cert.algebraic_KernelIdeal_ReferenceIdeal := by
  intro m ρ m' ρ' _ hagree
  obtain ⟨outs, h⟩ := Cert.KernelIdeal.Run.exists_outs (F := Ideal) m
  refine ⟨fun c => Cert.KernelIdeal.Gen.V10 m outs c Cert.KernelIdeal.main_v127,
    Cert.KernelIdeal.Run.run_named (F := Ideal) m ρ outs h, ?_⟩
  refine (θ_run Cert.ReferenceIdeal.defs _ _).mono (fun _ hr c => ⟨(hr c).1.trans ?_, (hr c).2⟩)
    (Cert.ReferenceIdeal.ValueP.run (F := Ideal) m' ρ')
  obtain ⟨e0, e1, e2, e3, e4, e5, e6, e7, e8⟩ := hagree c
  rw [Cert.ReferenceIdeal.ReadP.val_main_v124_eq, e0, e1, e2, e3, e4, e5, e6, e7, e8]
  exact (Cert.KernelIdeal.Value.result_eq m outs c h).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
